-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048x3x3 : Shape := ⟨4, ![2048, 2048, 3, 3]⟩
abbrev S_ : Shape := ⟨0, ![]⟩

class Facts : Prop where
  bcast_S_S2048x2048x3x3 : S_.BroadcastsInDim S2048x2048x3x3 (![] : Fin 0 → Fin S2048x2048x3x3.rank)
  reducesTo_S2048x2048x3x3_S_d0_1_2_3 : S2048x2048x3x3.ReducesTo [0, 1, 2, 3] S_
  h_S_ : 0 < S_.numel

variable [Facts]

def fn {F : FTy → Type} [FloatOps F] (main_arg0 : FVec F S2048x2048x3x3 .f32) : IVec S_ 1 :=
  let main_v0 : FVec F S2048x2048x3x3 .f32 := Host.absf main_arg0
  let main_cst : FVec F S_ .f32 := constant S_ .f32 0x7F800000#32
  let main_v1 : FVec F S2048x2048x3x3 .f32 := broadcastInDim S2048x2048x3x3 ![] bcast_S_S2048x2048x3x3 main_cst
  let main_v2 : IVec S2048x2048x3x3 1 := cmpf .olt main_v0 main_v1
  let main_c : IVec S_ 1 := constantI S_ 1 1#1
  let main_v3 : IVec S_ 1 := (fun x v => Host.reduce IntOp.andi x v reducesTo_S2048x2048x3x3_S_d0_1_2_3 h_S_) main_v2 main_c
  let main_cst_0 : FVec F S_ .f32 := constant S_ .f32 0x00000000#32
  let main_v4 : FVec F S2048x2048x3x3 .f32 := broadcastInDim S2048x2048x3x3 ![] bcast_S_S2048x2048x3x3 main_cst_0
  let main_v5 : IVec S2048x2048x3x3 1 := cmpf .oeq main_arg0 main_v4
  let main_c_1 : IVec S_ 1 := constantI S_ 1 1#1
  let main_v6 : IVec S_ 1 := (fun x v => Host.reduce IntOp.andi x v reducesTo_S2048x2048x3x3_S_d0_1_2_3 h_S_) main_v5 main_c_1
  let main_v7 : IVec S_ 1 := noti main_v6
  let main_v8 : IVec S_ 1 := andi main_v3 main_v7
  main_v8
-- ==== Kernel.lean ====
abbrev S2048x2048x3x3 : Shape := ⟨4, ![2048, 2048, 3, 3]⟩
abbrev S2048x18432 : Shape := ⟨2, ![2048, 18432]⟩
abbrev S2x2048x2048 : Shape := ⟨3, ![2, 2048, 2048]⟩
abbrev S2x1x1 : Shape := ⟨3, ![2, 1, 1]⟩
abbrev S2048x1152 : Shape := ⟨2, ![2048, 1152]⟩
abbrev S1x2048x2048 : Shape := ⟨3, ![1, 2048, 2048]⟩
abbrev S1x1x1 : Shape := ⟨3, ![1, 1, 1]⟩
abbrev S2048x2048 : Shape := ⟨2, ![2048, 2048]⟩
abbrev S1x1 : Shape := ⟨2, ![1, 1]⟩
abbrev S1x2048x1152 : Shape := ⟨3, ![1, 2048, 1152]⟩
abbrev S1 : Shape := ⟨1, ![1]⟩
abbrev S_ : Shape := ⟨0, ![]⟩
abbrev S256x2048 : Shape := ⟨2, ![256, 2048]⟩
abbrev S2048x768 : Shape := ⟨2, ![2048, 768]⟩

abbrev nBuf : Space → Nat
  | .hbm => 47
  | .vmem => 51
  | .smem => 0
  | _ => 0

abbrev bufTy : (tb : Table) → Fin (tcTables nBuf tb) → BufTy
  | .hbm, ⟨0, _⟩ => ⟨S2048x2048x3x3, .f32⟩
  | .hbm, ⟨1, _⟩ => ⟨S2048x18432, .f32⟩
  | .hbm, ⟨2, _⟩ => ⟨S2x2048x2048, .f32⟩
  | .hbm, ⟨3, _⟩ => ⟨S2x1x1, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S2048x2048, .f32⟩
  | .hbm, ⟨9, _⟩ => ⟨S1x1x1, .f32⟩
  | .hbm, ⟨10, _⟩ => ⟨S_, .f32⟩
  | .hbm, ⟨11, _⟩ => ⟨S1x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .bf16⟩
  | .hbm, ⟨31, _⟩ => ⟨S2048x2048, .bf16⟩
  | .hbm, ⟨32, _⟩ => ⟨S2048x2048, .f32⟩
  | .hbm, ⟨33, _⟩ => ⟨S2048x2048, .bf16⟩
  | .hbm, ⟨34, _⟩ => ⟨S2048x2048, .f32⟩
  | .hbm, ⟨35, _⟩ => ⟨S2048x2048, .bf16⟩
  | .hbm, ⟨36, _⟩ => ⟨S2048x2048, .f32⟩
  | .hbm, ⟨37, _⟩ => ⟨S2048x2048, .bf16⟩
  | .hbm, ⟨38, _⟩ => ⟨S2048x2048, .f32⟩
  | .hbm, ⟨39, _⟩ => ⟨S2048x2048, .bf16⟩
  | .hbm, ⟨40, _⟩ => ⟨S2048x2048, .f32⟩
  | .hbm, ⟨41, _⟩ => ⟨S2048x2048, .bf16⟩
  | .hbm, ⟨42, _⟩ => ⟨S2048x2048, .f32⟩
  | .hbm, ⟨43, _⟩ => ⟨S2048x2048, .f32⟩
  | .hbm, ⟨44, _⟩ => ⟨S2048x2048, .bf16⟩
  | .hbm, ⟨45, _⟩ => ⟨S2048x18432, .f32⟩
  | .hbm, ⟨46, _⟩ => ⟨S2048x2048x3x3, .f32⟩
  | .local _ .vmem, ⟨0, _⟩ => ⟨S2048x1152, .f32⟩
  | .local _ .vmem, ⟨1, _⟩ => ⟨S2048x1152, .f32⟩
  | .local _ .vmem, ⟨2, _⟩ => ⟨S1x2048x2048, .f32⟩
  | .local _ .vmem, ⟨3, _⟩ => ⟨S1x2048x2048, .f32⟩
  | .local _ .vmem, ⟨4, _⟩ => ⟨S1x1x1, .f32⟩
  | .local _ .vmem, ⟨5, _⟩ => ⟨S1x1x1, .f32⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | .local _ .vmem, ⟨22, _⟩ => ⟨S2048x2048, .bf16⟩
  | .local _ .vmem, ⟨23, _⟩ => ⟨S256x2048, .f32⟩
  | .local _ .vmem, ⟨24, _⟩ => ⟨S256x2048, .f32⟩
  | .local _ .vmem, ⟨25, _⟩ => ⟨S2048x2048, .bf16⟩
  | .local _ .vmem, ⟨26, _⟩ => ⟨S256x2048, .f32⟩
  | .local _ .vmem, ⟨27, _⟩ => ⟨S256x2048, .f32⟩
  | .local _ .vmem, ⟨28, _⟩ => ⟨S256x2048, .bf16⟩
  | .local _ .vmem, ⟨29, _⟩ => ⟨S256x2048, .bf16⟩
  | .local _ .vmem, ⟨30, _⟩ => ⟨S2048x2048, .bf16⟩
  | .local _ .vmem, ⟨31, _⟩ => ⟨S256x2048, .f32⟩
  | .local _ .vmem, ⟨32, _⟩ => ⟨S256x2048, .f32⟩
  | .local _ .vmem, ⟨33, _⟩ => ⟨S2048x2048, .bf16⟩
  | .local _ .vmem, ⟨34, _⟩ => ⟨S256x2048, .f32⟩
  | .local _ .vmem, ⟨35, _⟩ => ⟨S256x2048, .f32⟩
  | .local _ .vmem, ⟨36, _⟩ => ⟨S256x2048, .bf16⟩
  | .local _ .vmem, ⟨37, _⟩ => ⟨S256x2048, .bf16⟩
  | .local _ .vmem, ⟨38, _⟩ => ⟨S2048x2048, .bf16⟩
  | .local _ .vmem, ⟨39, _⟩ => ⟨S256x2048, .f32⟩
  | .local _ .vmem, ⟨40, _⟩ => ⟨S256x2048, .f32⟩
  | .local _ .vmem, ⟨41, _⟩ => ⟨S2048x2048, .bf16⟩
  | .local _ .vmem, ⟨42, _⟩ => ⟨S256x2048, .f32⟩
  | .local _ .vmem, ⟨43, _⟩ => ⟨S256x2048, .f32⟩
  | .local _ .vmem, ⟨44, _⟩ => ⟨S256x2048, .bf16⟩
  | .local _ .vmem, ⟨45, _⟩ => ⟨S256x2048, .bf16⟩
  | .local _ .vmem, ⟨46, _⟩ => ⟨S2048x2048, .bf16⟩
  | .local _ .vmem, ⟨47, _⟩ => ⟨S2048x768, .f32⟩
  | .local _ .vmem, ⟨48, _⟩ => ⟨S2048x768, .f32⟩
  | .local _ .vmem, ⟨49, _⟩ => ⟨S2048x768, .f32⟩
  | .local _ .vmem, ⟨50, _⟩ => ⟨S2048x768, .f32⟩
  | _, _ => ⟨S2048x2048x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27_0 : Ref sig .tc := ⟨.hbm, 32, rfl⟩
abbrev main_v27_1 : Ref sig .tc := ⟨.hbm, 33, rfl⟩
abbrev main_v28_0 : Ref sig .tc := ⟨.hbm, 34, rfl⟩
abbrev main_v28_1 : Ref sig .tc := ⟨.hbm, 35, rfl⟩
abbrev main_v29_0 : Ref sig .tc := ⟨.hbm, 36, rfl⟩
abbrev main_v29_1 : Ref sig .tc := ⟨.hbm, 37, rfl⟩
abbrev main_v30_0 : Ref sig .tc := ⟨.hbm, 38, rfl⟩
abbrev main_v30_1 : Ref sig .tc := ⟨.hbm, 39, rfl⟩
abbrev main_v31_0 : Ref sig .tc := ⟨.hbm, 40, rfl⟩
abbrev main_v31_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43
abbrev cc5_sem4_0 : DmaSem sig := 44
abbrev cc5_sem4_1 : DmaSem sig := 45
abbrev cc6_sem0_0 : DmaSem sig := 46
abbrev cc6_sem1_0 : DmaSem sig := 47
abbrev cc6_sem1_1 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S2048x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S256x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc4_transform_4 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S2048x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S256x2048 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc5_transform_4 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S256x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S2048x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S256x2048 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨1, ![24], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S2048x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S2048x768 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x768 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  shapeCasts_S2048x2048x3x3_S2048x18432 : S2048x2048x3x3.ShapeCasts S2048x18432
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2048x1152_S2048x1152_0_0 : ∀ a, (![0, 0] : Fin 2 → Nat) a + S2048x1152.size a ≤ S2048x1152.size a
  h_S2048x1152 : 0 < S2048x1152.numel
  shapeCasts_S2048x1152_S2048x1152 : S2048x1152.ShapeCasts S2048x1152
  shapeCasts_S2048x1152_S1x2048x1152 : S2048x1152.ShapeCasts S1x2048x1152
  reduces_S1x2048x1152_S1 : S1x2048x1152.Reduces [1, 2] S1
  shapeCasts_S1_S1x1x1 : S1.ShapeCasts S1x1x1
  inpos_S1x1x1_p0_0_0 : ∀ a, (![0, 0, 0] : Fin 3 → Nat) a < S1x1x1.size a
  bitsLt_bf16_f32 : FTy.bits .bf16 < FTy.bits .f32
  slices_S2x2048x2048_S1x2048x2048_0_0_0 : S2x2048x2048.Slices ![0, 0, 0] S1x2048x2048
  slices_S2x2048x2048_S1x2048x2048_1_0_0 : S2x2048x2048.Slices ![1, 0, 0] S1x2048x2048
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  bcast_S_S2048x2048 : S_.BroadcastsInDim S2048x2048 (![] : Fin 0 → Fin S2048x2048.rank)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  shapeCasts_S2048x18432_S2048x2048x3x3 : S2048x18432.ShapeCasts S2048x2048x3x3
  dot_S2048x1152_S2048x1152_S2048x2048_1_1_0_0_n_n_wf : DotDims.WF S2048x1152 S2048x1152 S2048x2048 [1] [1] [0] [0] [] []
  dot_S256x2048_S2048x2048_S256x2048_1_0_0_1_n_n_wf : DotDims.WF S256x2048 S2048x2048 S256x2048 [1] [0] [0] [1] [] []
  dot_S2048x2048_S2048x768_S2048x768_1_0_0_1_n_n_wf : DotDims.WF S2048x2048 S2048x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1152.size a ≤ S2048x18432.size a
  hwx0_0 : ∀ i : grid0.Coords, EltTy.bits .f32 = 32 ∨ (Rect.block (s := S2048x18432) S2048x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S2x2048x2048.size a
  hwx0_1 : ∀ i : grid0.Coords, EltTy.bits .f32 = 32 ∨ (Rect.block (s := S2x2048x2048) S1x2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .bf16 = 32 ∨ (Rect.block (s := S2048x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .f32 = 32 ∨ (Rect.block (s := S2048x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S2048x2048.size a
  hwx1_4 : ∀ i : grid1.Coords, EltTy.bits .bf16 = 32 ∨ (Rect.block (s := S2048x2048) S256x2048.size (cc1_transform_4 i) (hinb1_4 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S2048x2048.size a
  hwx2_0 : ∀ i : grid2.Coords, EltTy.bits .bf16 = 32 ∨ (Rect.block (s := S2048x2048) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S2048x2048.size a
  hwx2_1 : ∀ i : grid2.Coords, EltTy.bits .f32 = 32 ∨ (Rect.block (s := S2048x2048) S256x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x2048.size a
  hwx2_2 : ∀ i : grid2.Coords, EltTy.bits .bf16 = 32 ∨ (Rect.block (s := S2048x2048) S2048x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S2048x2048.size a
  hwx2_3 : ∀ i : grid2.Coords, EltTy.bits .f32 = 32 ∨ (Rect.block (s := S2048x2048) S256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x2048.size a ≤ S2048x2048.size a
  hwx2_4 : ∀ i : grid2.Coords, EltTy.bits .bf16 = 32 ∨ (Rect.block (s := S2048x2048) S256x2048.size (cc2_transform_4 i) (hinb2_4 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S2048x2048.size a
  hwx3_0 : ∀ i : grid3.Coords, EltTy.bits .bf16 = 32 ∨ (Rect.block (s := S2048x2048) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S2048x2048.size a
  hwx3_1 : ∀ i : grid3.Coords, EltTy.bits .f32 = 32 ∨ (Rect.block (s := S2048x2048) S256x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S2048x2048.size a
  hwx3_2 : ∀ i : grid3.Coords, EltTy.bits .bf16 = 32 ∨ (Rect.block (s := S2048x2048) S2048x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .f32 = 32 ∨ (Rect.block (s := S2048x2048) S256x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x2048.size a ≤ S2048x2048.size a
  hwx3_4 : ∀ i : grid3.Coords, EltTy.bits .bf16 = 32 ∨ (Rect.block (s := S2048x2048) S256x2048.size (cc3_transform_4 i) (hinb3_4 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S2048x2048.size a
  hwx4_0 : ∀ i : grid4.Coords, EltTy.bits .bf16 = 32 ∨ (Rect.block (s := S2048x2048) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x2048.size a ≤ S2048x2048.size a
  hwx4_1 : ∀ i : grid4.Coords, EltTy.bits .f32 = 32 ∨ (Rect.block (s := S2048x2048) S256x2048.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S2048x2048.size a
  hwx4_2 : ∀ i : grid4.Coords, EltTy.bits .bf16 = 32 ∨ (Rect.block (s := S2048x2048) S2048x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x2048.size a ≤ S2048x2048.size a
  hwx4_3 : ∀ i : grid4.Coords, EltTy.bits .f32 = 32 ∨ (Rect.block (s := S2048x2048) S256x2048.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x2048.size a ≤ S2048x2048.size a
  hwx4_4 : ∀ i : grid4.Coords, EltTy.bits .bf16 = 32 ∨ (Rect.block (s := S2048x2048) S256x2048.size (cc4_transform_4 i) (hinb4_4 i)).WholeWords (EltTy.packing .bf16)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S2048x2048.size a
  hwx5_0 : ∀ i : grid5.Coords, EltTy.bits .bf16 = 32 ∨ (Rect.block (s := S2048x2048) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S2048x2048.size a
  hwx5_1 : ∀ i : grid5.Coords, EltTy.bits .f32 = 32 ∨ (Rect.block (s := S2048x2048) S256x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x2048.size a ≤ S2048x2048.size a
  hwx5_2 : ∀ i : grid5.Coords, EltTy.bits .bf16 = 32 ∨ (Rect.block (s := S2048x2048) S2048x2048.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x2048.size a ≤ S2048x2048.size a
  hwx5_3 : ∀ i : grid5.Coords, EltTy.bits .f32 = 32 ∨ (Rect.block (s := S2048x2048) S256x2048.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x2048.size a ≤ S2048x2048.size a
  hwx5_4 : ∀ i : grid5.Coords, EltTy.bits .bf16 = 32 ∨ (Rect.block (s := S2048x2048) S256x2048.size (cc5_transform_4 i) (hinb5_4 i)).WholeWords (EltTy.packing .bf16)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x2048.size a ≤ S2048x2048.size a
  hwx6_0 : ∀ i : grid6.Coords, EltTy.bits .bf16 = 32 ∨ (Rect.block (s := S2048x2048) S2048x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x768.size a ≤ S2048x18432.size a
  hwx6_1 : ∀ i : grid6.Coords, EltTy.bits .f32 = 32 ∨ (Rect.block (s := S2048x18432) S2048x768.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x768.size a ≤ S2048x18432.size a
  hwx6_2 : ∀ i : grid6.Coords, EltTy.bits .f32 = 32 ∨ (Rect.block (s := S2048x18432) S2048x768.size (cc6_transform_2 i) (hinb6_2 i)).WholeWords (EltTy.packing .f32)

variable [Facts₀]

def dot_S2048x1152_S2048x1152_S2048x2048_1_1_0_0_n_n : DotDims S2048x1152 S2048x1152 S2048x2048 where
  lhsContracting := [1]
  rhsContracting := [1]
  lhsNonContracting := [0]
  rhsNonContracting := [0]
  lhsBatch := []
  rhsBatch := []
  wf := dot_S2048x1152_S2048x1152_S2048x2048_1_1_0_0_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S2048x2048_S2048x768_S2048x768_1_0_0_1_n_n : DotDims S2048x2048 S2048x768 S2048x768 where
  lhsContracting := [1]
  rhsContracting := [0]
  lhsNonContracting := [0]
  rhsNonContracting := [1]
  lhsBatch := []
  rhsBatch := []
  wf := dot_S2048x2048_S2048x768_S2048x768_1_0_0_1_n_n_wf

abbrev win0_0 : Pipeline.Window sig grid0 :=
  Pipeline.Window.ofSpec (Memref.whole main_v0) S2048x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x2048x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27_1) S2048x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v27_0) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2048x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28_0) S256x2048.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28_1) S256x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28_1) S2048x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v28_0) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S2048x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29_0) S256x2048.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v29_1) S256x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29_1) S2048x2048.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v29_0) S256x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S2048x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30_0) S256x2048.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v30_1) S256x2048.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v30_1) S2048x2048.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v30_0) S256x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v25) S2048x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v31_0) S256x2048.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v31_1) S256x2048.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v34) S2048x2048.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v0) S2048x768.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S2048x768.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S2048x2048x3x3 : Shape := ⟨4, ![2048, 2048, 3, 3]⟩
abbrev S2048x18432 : Shape := ⟨2, ![2048, 18432]⟩
abbrev S_ : Shape := ⟨0, ![]⟩
abbrev S2048x2048 : Shape := ⟨2, ![2048, 2048]⟩
abbrev S18432x2048 : Shape := ⟨2, ![18432, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048x3x3, .f32⟩
  | .hbm, ⟨1, _⟩ => ⟨S2048x18432, .f32⟩
  | .hbm, ⟨2, _⟩ => ⟨S2048x18432, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x18432, .f32⟩
  | .hbm, ⟨7, _⟩ => ⟨S2048x18432, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S18432x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x18432, .f32⟩
  | .hbm, ⟨72, _⟩ => ⟨S2048x2048x3x3, .f32⟩
  | _, _ => ⟨S2048x2048x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]

class Facts₀ : Prop where
  shapeCasts_S2048x2048x3x3_S2048x18432 : S2048x2048x3x3.ShapeCasts S2048x18432
  reducesTo_S2048x18432_S_d0_1 : S2048x18432.ReducesTo [0, 1] S_
  h_S_ : 0 < S_.numel
  bcast_S_S2048x18432 : S_.BroadcastsInDim S2048x18432 (![] : Fin 0 → Fin S2048x18432.rank)
  bcast_S_S2048x2048 : S_.BroadcastsInDim S2048x2048 (![] : Fin 0 → Fin S2048x2048.rank)
  transposes_S2048x18432_S18432x2048_1_0 : S2048x18432.Transposes [1, 0] S18432x2048
  shapeCasts_S2048x18432_S2048x2048x3x3 : S2048x18432.ShapeCasts S2048x2048x3x3
  dot_S2048x18432_S18432x2048_S2048x2048_1_0_0_1_n_n_wf : DotDims.WF S2048x18432 S18432x2048 S2048x2048 [1] [0] [0] [1] [] []
  dot_S2048x2048_S2048x2048_S2048x2048_1_0_0_1_n_n_wf : DotDims.WF S2048x2048 S2048x2048 S2048x2048 [1] [0] [0] [1] [] []
  dot_S2048x2048_S2048x18432_S2048x18432_1_0_0_1_n_n_wf : DotDims.WF S2048x2048 S2048x18432 S2048x18432 [1] [0] [0] [1] [] []

variable [Facts₀]

def dot_S2048x18432_S18432x2048_S2048x2048_1_0_0_1_n_n : DotDims S2048x18432 S18432x2048 S2048x2048 where
  lhsContracting := [1]
  rhsContracting := [0]
  lhsNonContracting := [0]
  rhsNonContracting := [1]
  lhsBatch := []
  rhsBatch := []
  wf := dot_S2048x18432_S18432x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x18432_S2048x18432_1_0_0_1_n_n : DotDims S2048x2048 S2048x18432 S2048x18432 where
  lhsContracting := [1]
  rhsContracting := [0]
  lhsNonContracting := [0]
  rhsNonContracting := [1]
  lhsBatch := []
  rhsBatch := []
  wf := dot_S2048x2048_S2048x18432_S2048x18432_1_0_0_1_n_n_wf

class Facts : Prop extends Facts₀ where

variable [Facts]
-- ==== Proof.Spec.lean ====
/-
  The mathematics both programs compute, index by index on the extended reals, with no program in sight.

  A weight array x of shape [2048, 2048, 3, 3] is read as the matrix Z = flat x of shape [2048, 18432].
  The reference normalises Z by its Frobenius norm, V = Z / sqrt(sum Z²), forms S = V Vᵀ + eps·I, runs five
  Newton-Schulz steps B ↦ 1.5·B − 0.5·((B·B)·B)·S from B = I, and returns B·V.
  The kernel forms the Gram matrix tile by tile (sixteen column tiles of width 1152, eight to a core), G = Z Zᵀ, and
  the squared norm n the same way, scales by 1/n, S = G·(1/n) + eps·I, runs the same five steps, and returns
  (B·sqrt(1/n))·Z. The two agree whenever every entry of x is a real number and some entry is not zero.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The weight's shape, the flattened matrix's, and a square matrix's. -/
abbrev Sw : Shape := ⟨4, ![2048, 2048, 3, 3]⟩
abbrev Sz : Shape := ⟨2, ![2048, 18432]⟩
abbrev Sq : Shape := ⟨2, ![2048, 2048]⟩
abbrev S0 : Shape := ⟨0, ![]⟩

/-- A matrix of extended reals, indexed as a rank-2 array. -/
abbrev Mat (r c : ℕ) : Type := (⟨2, ![r, c]⟩ : Shape).Idx → EReal

/-- The matrix product: entry (i, j) is the sum over k of A (i, k) · B (k, j). -/
def mm {M K N : ℕ} (A : Mat M K) (B : Mat K N) : Mat M N :=
  fun j => ∑ k : Fin K, A (ix2 (j 0) k) * B (ix2 k (j 1))

/-- The transpose. -/
def tr {M N : ℕ} (A : Mat M N) : Mat N M := fun j => A (ix2 (j 1) (j 0))

/-- The constants: 1.5, 0.5, the f32 nearest 1e-5, and 1. -/
def c15 : EReal := Ideal.ofBits .f32 0x3FC00000#32
def c05 : EReal := Ideal.ofBits .f32 0x3F000000#32
def eps : EReal := Ideal.ofBits .f32 0x3727C5AC#32
def one : EReal := Ideal.ofBits .f32 0x3F800000#32

/-- One Newton-Schulz step: 1.5·B − 0.5·((B·B)·B)·S. -/
def nsStep (B S : Mat 2048 2048) : Mat 2048 2048 :=
  fun j => c15 * B j - c05 * mm (mm (mm B B) B) S j

/-- Five steps. -/
def ns5 (B S : Mat 2048 2048) : Mat 2048 2048 :=
  nsStep (nsStep (nsStep (nsStep (nsStep B S) S) S) S) S

theorem bcast0q : S0.BroadcastsInDim Sq (![] : Fin 0 → Fin Sq.rank) := by decide
theorem hflat : Sw.ShapeCasts Sz := by decide
theorem hunflat : Sz.ShapeCasts Sw := by decide

/-- The identity matrix as both programs build it: the row number compared with the column number, the bit
    converted to a float. -/
def eye : Mat 2048 2048 :=
  uitofp (F := Ideal) .f32 (cmpi .eq (addi (iotaInDim Sq 32 0) (broadcastInDim Sq ![] bcast0q (constantI S0 32 0#32)))
    (iotaInDim Sq 32 1))

/-- The weight read as a matrix, and a matrix read back as a weight: row-major re-layouts. -/
def flat (x : Sw.Idx → EReal) : Mat 2048 18432 := shapeCast Sz x hflat
def unflat (z : Mat 2048 18432) : Sw.Idx → EReal := shapeCast Sw z hunflat

/-! ## The reference -/

/-- The squared Frobenius norm: the sum of every entry's square. -/
def nrm2 (Z : Mat 2048 18432) : EReal := ∑ j : Sz.Idx, Z j * Z j

/-- The normalised matrix: each entry divided by the norm. -/
def Vr (Z : Mat 2048 18432) : Mat 2048 18432 :=
  fun j => FloatOps.hostDivf (F := Ideal) (φ := .f32) (Z j)
    (FloatOps.hostUnary (F := Ideal) (φ := .f32) .sqrt (Ideal.ofBits .f32 0x00000000#32 + nrm2 Z))

/-- The reference's S: V Vᵀ + eps·I. -/
def Sr (Z : Mat 2048 18432) : Mat 2048 2048 := fun j => mm (Vr Z) (tr (Vr Z)) j + eps * eye j

/-- The reference's result. -/
def Wr (Z : Mat 2048 18432) : Mat 2048 18432 := mm (ns5 eye (Sr Z)) (Vr Z)

/-! ## The kernel -/

/-- Column q of tile u (tiles of width 1152; u is taken mod 16 so that the function is total). -/
def col (u : ℕ) (q : Fin 1152) : Fin 18432 := ⟨(u % 16) * 1152 + q.val, by have := q.isLt; have := Nat.mod_lt u (by decide : 0 < 16); omega⟩

/-- One tile's contribution to the Gram matrix: the sum over the tile's columns of Z (i, k) · Z (j, k). -/
def tileG (Z : Mat 2048 18432) (u : ℕ) : Mat 2048 2048 :=
  fun j => ∑ q : Fin 1152, Z (ix2 (j 0) (col u q)) * Z (ix2 (j 1) (col u q))

/-- One tile's contribution to the squared norm. -/
def tileN (Z : Mat 2048 18432) (u : ℕ) : EReal :=
  ∑ a : Fin 2048, ∑ q : Fin 1152, Z (ix2 a (col u q)) * Z (ix2 a (col u q))

/-- Core c's partial Gram matrix and partial squared norm: its eight tiles 8c … 8c + 7. -/
def gramPart (Z : Mat 2048 18432) (c : ℕ) : Mat 2048 2048 := fun j => ∑ s ∈ Finset.range 8, tileG Z (8 * c + s) j
def normPart (Z : Mat 2048 18432) (c : ℕ) : EReal := ∑ s ∈ Finset.range 8, tileN Z (8 * c + s)

/-- The kernel's squared norm, its reciprocal, and the square root of that. -/
def nk (Z : Mat 2048 18432) : EReal := normPart Z 0 + normPart Z 1
def ssq (Z : Mat 2048 18432) : EReal := FloatOps.hostDivf (F := Ideal) (φ := .f32) one (nk Z)
def sc (Z : Mat 2048 18432) : EReal := FloatOps.hostUnary (F := Ideal) (φ := .f32) .sqrt (ssq Z)

/-- The kernel's S: (G₀ + G₁)·(1/n) + eps·I. -/
def Sk (Z : Mat 2048 18432) : Mat 2048 2048 :=
  fun j => (gramPart Z 0 j + gramPart Z 1 j) * ssq Z + eps * eye j

/-- The kernel's result: (B·sqrt(1/n))·Z. -/
def Wk (Z : Mat 2048 18432) : Mat 2048 18432 := mm (fun j => ns5 eye (Sk Z) j * sc Z) Z

end Cert.Spec

end
-- ==== Proof.KHost.lean ====
/-
  The host stretches of the kernel's @main, read for an arbitrary valuation W of the buffers: what each stretch leaves
  in the buffers the regions read, entry by entry, as a function of what it found in the buffers it reads.
  Before the first region: the weight re-laid as the matrix Z. Between the Gram region and the Newton-Schulz regions:
  the two cores' partial Gram matrices and partial squared norms are added, S = (G₀ + G₁)·(1/(n₀ + n₁)) + eps·I, the
  identity matrix is built, and the scale sqrt(1/(n₀ + n₁)) is kept. Before the last region: B·scale. After it: the
  result re-laid as a weight. A change of float format is the identity on the extended reals.
-/
import proofs.«407192_j12421045420976_3_alg».proof.Proof.Gen.KernelIdeal.Launch
import proofs.«407192_j12421045420976_3_alg».proof.Proof.Spec
import Idealize.ShloMosaic.Lib.StableHlo.Run
import Idealize.ShloMosaic.Lib.Pipeline.Value
import Idealize.ShloMosaic.Lib.ValueIdx

noncomputable section

namespace Cert.KernelIdeal.KH

open Idealize.ShloMosaic Idealize.ShloMosaic.TcCoe Idealize.SL.Sem Idealize.ShloMosaic.StableHlo Idealize.ShloMosaic.ValueIdx
open Cert.KernelIdeal Cert.KernelIdeal.Gen

/-! ## Slices of a two-block array, with the unit axis dropped -/

/-- Block 0 of a [2,1,1] array, read as a scalar: the one entry of the block is entry (0,0,0) of the array. -/
theorem scalar0 (v : Vec Ideal S2x1x1 .f32) (hs : S2x1x1.Slices ![0, 0, 0] S1x1x1) (hc : S1x1x1.ShapeCasts S_) :
    shapeCast S_ (extractStridedSlice S1x1x1 ![0, 0, 0] v hs) hc ix0 = v (ix3 0 0 0) := by
  rw [shapeCast_apply _ hc ix0 (ix3 0 0 0) (by decide)]
  exact extractStridedSlice_apply _ v hs (ix3 0 0 0) (ix3 0 0 0)
    (fun a => match a with | ⟨0, _⟩ => rfl | ⟨1, _⟩ => rfl | ⟨2, _⟩ => rfl)

/-- Block 1 of a [2,1,1] array, read as a scalar: the one entry of the block is entry (1,0,0) of the array. -/
theorem scalar1 (v : Vec Ideal S2x1x1 .f32) (hs : S2x1x1.Slices ![1, 0, 0] S1x1x1) (hc : S1x1x1.ShapeCasts S_) :
    shapeCast S_ (extractStridedSlice S1x1x1 ![1, 0, 0] v hs) hc ix0 = v (ix3 1 0 0) := by
  rw [shapeCast_apply _ hc ix0 (ix3 0 0 0) (by decide)]
  exact extractStridedSlice_apply _ v hs (ix3 0 0 0) (ix3 1 0 0)
    (fun a => match a with | ⟨0, _⟩ => rfl | ⟨1, _⟩ => rfl | ⟨2, _⟩ => rfl)

/-- Block 0 of a [2,2048,2048] array, read as a matrix: entry (p,q) of the block is entry (0,p,q) of the array. -/
theorem matrix0 (v : Vec Ideal S2x2048x2048 .f32) (hs : S2x2048x2048.Slices ![0, 0, 0] S1x2048x2048) (hc : S1x2048x2048.ShapeCasts S2048x2048)
    (p q : Fin 2048) :
    shapeCast S2048x2048 (extractStridedSlice S1x2048x2048 ![0, 0, 0] v hs) hc (ix2 p q) = v (ix3 0 p q) := by
  rw [shapeCast_apply _ hc (ix2 p q) (ix3 0 p q) (by rw [Shape.rowMajor_val_three, Shape.rowMajor_val_two]; show (0 * 2048 + p.val) * 2048 + q.val = p.val * 2048 + q.val; omega)]
  exact extractStridedSlice_apply _ v hs (ix3 0 p q) (ix3 0 p q)
    (fun a => match a with | ⟨0, _⟩ => rfl | ⟨1, _⟩ => (Nat.zero_add _).symm | ⟨2, _⟩ => (Nat.zero_add _).symm)

/-- Block 1 of a [2,2048,2048] array, read as a matrix: entry (p,q) of the block is entry (1,p,q) of the array. -/
theorem matrix1 (v : Vec Ideal S2x2048x2048 .f32) (hs : S2x2048x2048.Slices ![1, 0, 0] S1x2048x2048) (hc : S1x2048x2048.ShapeCasts S2048x2048)
    (p q : Fin 2048) :
    shapeCast S2048x2048 (extractStridedSlice S1x2048x2048 ![1, 0, 0] v hs) hc (ix2 p q) = v (ix3 1 p q) := by
  rw [shapeCast_apply _ hc (ix2 p q) (ix3 0 p q) (by rw [Shape.rowMajor_val_three, Shape.rowMajor_val_two]; show (0 * 2048 + p.val) * 2048 + q.val = p.val * 2048 + q.val; omega)]
  exact extractStridedSlice_apply _ v hs (ix3 0 p q) (ix3 1 p q)
    (fun a => match a with | ⟨0, _⟩ => rfl | ⟨1, _⟩ => (Nat.zero_add _).symm | ⟨2, _⟩ => (Nat.zero_add _).symm)

variable (W : Valuation τ sig (Elt Ideal))

/-- The buffers the middle stretch reads, typed as arrays of extended reals: the two cores' partial squared norms
    and partial Gram matrices. -/
abbrev Np : S2x1x1.Idx → EReal := W (Proc.devRef .tc main_v1_1)
abbrev Gp : S2x2048x2048.Idx → EReal := W (Proc.devRef .tc main_v1_0)

/-- The sum of the two partial squared norms. -/
abbrev nsum : EReal := Np W (ix3 0 0 0) + Np W (ix3 1 0 0)

/-! ## The stretch before the Gram region -/

/-- The weight re-laid as a matrix. -/
theorem h0_Z : after (hostOps0 (F := Ideal)) W (Proc.devRef .tc main_v0) = Cert.Spec.flat (W (Proc.devRef .tc main_arg0)) := by
  after_results
  rfl

/-! ## The stretch between the Gram region and the Newton-Schulz regions -/

/-- The identity matrix … -/
theorem h1_eye : after (hostOps1 (F := Ideal)) W (Proc.devRef .tc main_v19) = Cert.Spec.eye := by
  after_results
  rfl

/-- … and its copy in the narrower format. -/
theorem h1_eye_bf (j : S2048x2048.Idx) : after (hostOps1 (F := Ideal)) W (Proc.devRef .tc main_v26) j = Cert.Spec.eye j := by
  after_results
  rfl

/-- The scale: the square root of the reciprocal of the squared norm. -/
theorem h1_sc : (after (hostOps1 (F := Ideal)) W (Proc.devRef .tc main_v13) ix0 : EReal)
    = FloatOps.hostUnary (F := Ideal) (φ := .f32) .sqrt (FloatOps.hostDivf (F := Ideal) (φ := .f32) Cert.Spec.one (nsum W)) := by
  after_results
  show FloatOps.hostUnary (F := Ideal) (φ := .f32) .sqrt (FloatOps.hostDivf (F := Ideal) (φ := .f32) (Ideal.ofBits .f32 0x3F800000#32)
    (shapeCast S_ (extractStridedSlice S1x1x1 ![0, 0, 0] (Np W) slices_S2x1x1_S1x1x1_0_0_0) shapeCasts_S1x1x1_S_ ix0
      + shapeCast S_ (extractStridedSlice S1x1x1 ![1, 0, 0] (Np W) slices_S2x1x1_S1x1x1_1_0_0) shapeCasts_S1x1x1_S_ ix0)) = _
  rw [scalar0, scalar1]
  rfl

/-- The matrix Z is left as the first stretch wrote it: no operation of this stretch writes its buffer. -/
theorem h1_keep_v0 : after (hostOps1 (F := Ideal)) W (Proc.devRef .tc main_v0) = W (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- S: the two partial Gram matrices added, scaled by the reciprocal of the squared norm, plus eps on the diagonal. -/
theorem h1_S (p q : Fin 2048) : (after (hostOps1 (F := Ideal)) W (Proc.devRef .tc main_v25) (ix2 p q) : EReal)
    = (Gp W (ix3 0 p q) + Gp W (ix3 1 p q)) * FloatOps.hostDivf (F := Ideal) (φ := .f32) Cert.Spec.one (nsum W)
      + Cert.Spec.eps * Cert.Spec.eye (ix2 p q) := by
  after_results_simp
  -- entry (p, q) of the stretch's last buffer, operation by operation: sums and products are pointwise, the
  -- change of format is the identity, and the two scalars are spread over the matrix
  show (shapeCast S2048x2048 (extractStridedSlice S1x2048x2048 ![0, 0, 0] (Gp W) slices_S2x2048x2048_S1x2048x2048_0_0_0) shapeCasts_S1x2048x2048_S2048x2048 (ix2 p q)
        + shapeCast S2048x2048 (extractStridedSlice S1x2048x2048 ![1, 0, 0] (Gp W) slices_S2x2048x2048_S1x2048x2048_1_0_0) shapeCasts_S1x2048x2048_S2048x2048 (ix2 p q))
      * broadcastInDim S2048x2048 ![] bcast_S_S2048x2048
          (fun i : S_.Idx => FloatOps.hostDivf (F := Ideal) (φ := .f32) Cert.Spec.one
            (shapeCast S_ (extractStridedSlice S1x1x1 ![0, 0, 0] (Np W) slices_S2x1x1_S1x1x1_0_0_0) shapeCasts_S1x1x1_S_ i
              + shapeCast S_ (extractStridedSlice S1x1x1 ![1, 0, 0] (Np W) slices_S2x1x1_S1x1x1_1_0_0) shapeCasts_S1x1x1_S_ i)) (ix2 p q)
      + broadcastInDim S2048x2048 ![] bcast_S_S2048x2048 (fun _ : S_.Idx => Cert.Spec.eps) (ix2 p q) * Cert.Spec.eye (ix2 p q) = _
  -- a scalar spread over the matrix is the scalar at every entry; a block of a two-block array is the array at that block
  rw [broadcastInDim_apply _ _ _ (ix2 p q) ix0 (fun a => a.elim0), broadcastInDim_apply _ _ _ (ix2 p q) ix0 (fun a => a.elim0),
    matrix0, matrix1, scalar0, scalar1]

/-! ## The stretch before the last region -/

/-- The matrix Z is still as the first stretch wrote it. -/
theorem h6_keep_v0 : after (hostOps6 (F := Ideal)) W (Proc.devRef .tc main_v0) = W (Proc.devRef .tc main_v0) :=
  StableHlo.after_of_forall_not_mem (b := Proc.devRef .tc main_v0) _ _ (List.forall_iff_forall_mem.mp (by
    simp only [hostOps6, List.Forall, StableHlo.nullary_writes, StableHlo.unary_writes, StableHlo.binary_writes,
      StableHlo.reshape_writes, Finset.mem_singleton]
    repeat' apply And.intro
    all_goals exact StableHlo.devRef_ne_of_ne (by decide)))

/-- The buffers the last stretch reads, typed as arrays of extended reals: the last Newton-Schulz iterate and the scale. -/
abbrev Bp : S2048x2048.Idx → EReal := W (Proc.devRef .tc main_v31_0)
abbrev scp : S_.Idx → EReal := W (Proc.devRef .tc main_v13)

/-- The last Newton-Schulz iterate, every entry multiplied by the scale. -/
theorem h6_Bs (p q : Fin 2048) : (after (hostOps6 (F := Ideal)) W (Proc.devRef .tc main_v34) (ix2 p q) : EReal)
    = Bp W (ix2 p q) * scp W ix0 := by
  after_results
  show Bp W (ix2 p q) * broadcastInDim S2048x2048 ![] bcast_S_S2048x2048 (scp W) (ix2 p q) = _
  rw [broadcastInDim_apply _ _ _ (ix2 p q) ix0 (fun a => a.elim0)]

/-! ## The stretch after the last region -/

/-- The result re-laid as a weight. -/
theorem h7_out : after (hostOps7 (F := Ideal)) W (Proc.devRef .tc main_v36) = Cert.Spec.unflat (W (Proc.devRef .tc main_v35)) := by
  after_results
  rfl

end Cert.KernelIdeal.KH

end
-- ==== Proof.Region0.lean ====
/-
  The value of the Gram region. Each core walks its eight column tiles of the flattened weight Z (tiles of width
  1152). At the first tile of its run it clears its slab of the Gram array and its cell of the squared-norm array; at
  every tile it adds the tile's product with its own transpose, Z_tile Z_tileᵀ, to the slab and the tile's sum of
  squares to the cell; after the eighth tile the slab and the cell are written back. So slab c of the Gram array is
  the sum over tiles 8c … 8c + 7 of ∑_q Z (i, q) · Z (j, q), and cell c of the squared-norm array is the sum over the
  same tiles of ∑_p ∑_q Z (p, q)², read on the extended reals where a change of format is the identity and a block
  product is an exact sum.
-/
import proofs.«407192_j12421045420976_3_alg».proof.Proof.Gen.KernelIdeal.Frame
import proofs.«407192_j12421045420976_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.R0

open Idealize.ShloMosaic Idealize.ShloMosaic.TcCoe Idealize.SL.Sem Cert.KernelIdeal Cert.KernelIdeal.Gen
open Idealize.ShloMosaic.Pipeline (Dat)

/-! ## What each control case leaves in the two carried outputs -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- An accumulating point leaves in the Gram block its previous contents plus the tile's product. -/
theorem out_B_1 (c : Dev nD) (i : grid0.Coords) (a2 : Memref sig .tc .vmem S2048x1152 .f32) (h2 : a2.IsWhole)
    (a3 : Memref sig .tc .vmem S1x2048x2048 .f32) (h3 : a3.IsWhole) (a4 : Memref sig .tc .vmem S1x1x1 .f32) (h4 : a4.IsWhole)
    (hc : ¬cond0_0 i) (x0 : Vec F S2048x1152 .f32) (xo1 : Vec F S1x2048x2048 .f32) (xo2 : Vec F S1x1x1 .f32) :
    out0_B_1 c i a2 h2 a3 h3 a4 h4 hc x0 xo1 xo2 = k0_pay5 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, View.ld_unit_zero (S := S2048x1152) hz2,
    View.ld_unit_zero (S := S1x2048x2048) hz3]

/-- An accumulating point leaves in the squared-norm cell its previous contents plus the tile's sum of squares. -/
theorem out_B_2 (c : Dev nD) (i : grid0.Coords) (a2 : Memref sig .tc .vmem S2048x1152 .f32) (h2 : a2.IsWhole)
    (a3 : Memref sig .tc .vmem S1x2048x2048 .f32) (h3 : a3.IsWhole) (a4 : Memref sig .tc .vmem S1x1x1 .f32) (h4 : a4.IsWhole)
    (hc : ¬cond0_0 i) (x0 : Vec F S2048x1152 .f32) (xo1 : Vec F S1x2048x2048 .f32) (xo2 : Vec F S1x1x1 .f32) :
    out0_B_2 c i a2 h2 a3 h3 a4 h4 hc x0 xo1 xo2 = k0_pay4 x0 xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero hz3]
  simp only [View.readAt_eq_ld, h2.read_unread, h4.read_unread, View.ld_unit_zero (S := S2048x1152) hz2,
    View.ld_unit_zero (S := S1x1x1) hz3]

/-- A resetting point leaves in the Gram block the zero block plus the tile's product. -/
theorem out_A_1 (c : Dev nD) (i : grid0.Coords) (a2 : Memref sig .tc .vmem S2048x1152 .f32) (h2 : a2.IsWhole)
    (a3 : Memref sig .tc .vmem S1x2048x2048 .f32) (h3 : a3.IsWhole) (a4 : Memref sig .tc .vmem S1x1x1 .f32) (h4 : a4.IsWhole)
    (hc : cond0_0 i) (x0 : Vec F S2048x1152 .f32) :
    out0_A_1 c i a2 h2 a3 h3 a4 h4 hc x0 = k0_pay5 x0 (k0_pay1 (F := F)) := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x2048x2048) hz3]
  simp only [View.readAt_eq_ld, h2.read_unread, View.ld_unit_zero (S := S2048x1152) hz2,
    View.readCov_unit_zero (S := S1x2048x2048) _ hz3]

/-- A resetting point leaves in the squared-norm cell zero plus the tile's sum of squares. -/
theorem out_A_2 (c : Dev nD) (i : grid0.Coords) (a2 : Memref sig .tc .vmem S2048x1152 .f32) (h2 : a2.IsWhole)
    (a3 : Memref sig .tc .vmem S1x2048x2048 .f32) (h3 : a3.IsWhole) (a4 : Memref sig .tc .vmem S1x1x1 .f32) (h4 : a4.IsWhole)
    (hc : cond0_0 i) (x0 : Vec F S2048x1152 .f32) :
    out0_A_2 c i a2 h2 a3 h3 a4 h4 hc x0 = k0_pay4 x0 (k0_pay2 (F := F)) := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x1x1) hz3]
  simp only [View.readAt_eq_ld, h2.read_unread, View.ld_unit_zero (S := S2048x1152) hz2,
    View.readCov_unit_zero (S := S1x1x1) _ hz3]

end Pieces

/-! ## The two accumulating payloads at an index, on the extended reals -/

section Payloads
open Idealize.ShloMosaic.ValueIdx

/-- The block product contracts axis 1 of both operands: the left operand is read at (row of the output, k), -/
theorem lhs_gram_0 (i : S2048x2048.Idx) (q : dot_S2048x1152_S2048x1152_S2048x2048_1_1_0_0_n_n.contr.Idx) :
    (dot_S2048x1152_S2048x1152_S2048x2048_1_1_0_0_n_n.lhsIdx i q 0).val = (i 0).val := by
  unfold DotDims.lhsIdx
  rw [dif_neg (show ¬(0 : Fin S2048x1152.rank) ∈ dot_S2048x1152_S2048x1152_S2048x2048_1_1_0_0_n_n.lhsBatch by decide), dif_pos (show (0 : Fin S2048x1152.rank) ∈ dot_S2048x1152_S2048x1152_S2048x2048_1_1_0_0_n_n.lhsNonContracting by decide)]
  rfl
theorem lhs_gram_1 (i : S2048x2048.Idx) (q : dot_S2048x1152_S2048x1152_S2048x2048_1_1_0_0_n_n.contr.Idx) :
    (dot_S2048x1152_S2048x1152_S2048x2048_1_1_0_0_n_n.lhsIdx i q 1).val = (q ⟨0, by decide⟩).val :=
  dot_S2048x1152_S2048x1152_S2048x2048_1_1_0_0_n_n.lhsIdx_val_of_single rfl i q
/-- and the right operand at (column of the output, k). -/
theorem rhs_gram_0 (i : S2048x2048.Idx) (q : dot_S2048x1152_S2048x1152_S2048x2048_1_1_0_0_n_n.contr.Idx) :
    (dot_S2048x1152_S2048x1152_S2048x2048_1_1_0_0_n_n.rhsIdx i q 0).val = (i 1).val := by
  unfold DotDims.rhsIdx
  rw [dif_neg (show ¬(0 : Fin S2048x1152.rank) ∈ dot_S2048x1152_S2048x1152_S2048x2048_1_1_0_0_n_n.rhsBatch by decide), dif_pos (show (0 : Fin S2048x1152.rank) ∈ dot_S2048x1152_S2048x1152_S2048x2048_1_1_0_0_n_n.rhsNonContracting by decide)]
  rfl
theorem rhs_gram_1 (i : S2048x2048.Idx) (q : dot_S2048x1152_S2048x1152_S2048x2048_1_1_0_0_n_n.contr.Idx) :
    (dot_S2048x1152_S2048x1152_S2048x2048_1_1_0_0_n_n.rhsIdx i q 1).val = (q ⟨0, by decide⟩).val :=
  dot_S2048x1152_S2048x1152_S2048x2048_1_1_0_0_n_n.rhsIdx_val_of_single rfl i q

/-- The tile's product with itself transposed, at (i, j): the sum over the tile's columns of Z (i, q) · Z (j, q).
    (The product's operands are the tile narrowed to the 16-bit format; on the extended reals that narrowing is the
    identity, so the same entries are summed.) -/
theorem tile_mm (x : FVec Ideal S2048x1152 .bf16) (i j : Fin 2048) :
    FloatOps.matmul (F := Ideal) dot_S2048x1152_S2048x1152_S2048x2048_1_1_0_0_n_n none x x (constant S2048x2048 .f32 0x00000000#32) (ix2 i j)
      = ∑ q : Fin 1152, x (ix2 i q) * x (ix2 j q) := by
  rw [Ideal.matmul_constant_zero_apply, ← Equiv.sum_comp (ValueIdx.contrEquiv1 dot_S2048x1152_S2048x1152_S2048x2048_1_1_0_0_n_n 1152 rfl rfl).symm]
  refine Finset.sum_congr rfl fun k _ => ?_
  have hk := ValueIdx.contrEquiv1_symm_val dot_S2048x1152_S2048x1152_S2048x2048_1_1_0_0_n_n 1152 rfl rfl k
  have el : dot_S2048x1152_S2048x1152_S2048x2048_1_1_0_0_n_n.lhsIdx (ix2 i j) ((ValueIdx.contrEquiv1 dot_S2048x1152_S2048x1152_S2048x2048_1_1_0_0_n_n 1152 rfl rfl).symm k) = ix2 i k := funext fun a => Fin.ext (by
    match a with
    | ⟨0, _⟩ => exact lhs_gram_0 _ _
    | ⟨1, _⟩ => exact (lhs_gram_1 _ _).trans hk)
  have er : dot_S2048x1152_S2048x1152_S2048x2048_1_1_0_0_n_n.rhsIdx (ix2 i j) ((ValueIdx.contrEquiv1 dot_S2048x1152_S2048x1152_S2048x2048_1_1_0_0_n_n 1152 rfl rfl).symm k) = ix2 j k := funext fun a => Fin.ext (by
    match a with
    | ⟨0, _⟩ => exact rhs_gram_0 _ _
    | ⟨1, _⟩ => exact (rhs_gram_1 _ _).trans hk)
  rw [el, er]

/-- The Gram payload at (u, i, j): the previous contents there plus the tile's product. -/
theorem pay5_apply (v3 : FVec Ideal S2048x1152 .f32) (v18 : FVec Ideal S1x2048x2048 .f32) (u : Fin 1) (i j : Fin 2048) :
    k0_pay5 (F := Ideal) v3 v18 (ix3 u i j) = v18 (ix3 (0 : Fin 1) i j) + ∑ q : Fin 1152, v3 (ix2 i q) * v3 (ix2 j q) := by
  unfold k0_pay5 k0_pay3
  refine (shapeCast_ab_1ab_apply _ _ u i j).trans ?_
  refine (addf_apply _ _ _).trans ?_
  refine congrArg₂ (· + ·) (shapeCast_1ab_ab_apply v18 _ i j) ?_
  simp only [matmul, shapeCast_self]
  exact tile_mm _ i j

end Payloads

section Payloads4
open Idealize.ShloMosaic.ValueIdx

/-- A [1, a, b] index set is the product of its last two coordinate ranges … -/
def idxEquiv1ab {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ => exact Subsingleton.elim (α := Fin 1) _ _
    | ⟨1, _⟩ => rfl
    | ⟨2, _⟩ => rfl
  right_inv _ := rfl

/-- … so a sum over it is the double sum over those coordinates. -/
theorem sum_idx1ab {M : Type*} [AddCommMonoid M] {a b : ℕ} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-- The squared-norm payload at its one cell: the previous contents plus the sum of the tile's squares. -/
theorem pay4_apply (v3 : FVec Ideal S2048x1152 .f32) (v5 : FVec Ideal S1x1x1 .f32) (u a b : Fin 1) :
    k0_pay4 (F := Ideal) v3 v5 (ix3 u a b)
      = v5 (ix3 (0 : Fin 1) a b) + ∑ p : Fin 2048, ∑ q : Fin 1152, v3 (ix2 p q) * v3 (ix2 p q) := by
  unfold k0_pay4 k0_pay3
  refine (shapeCast_ab_1ab_apply _ _ u a b).trans ?_
  refine (addf_apply _ _ _).trans ?_
  refine congrArg₂ (· + ·) (shapeCast_1ab_ab_apply v5 _ a b) ?_
  refine (broadcast_apply _ _).trans ?_
  unfold extractAt
  refine (shapeCast_apply _ _ _ (ix1 (0 : Fin 1)) ?_).trans ?_
  · rw [Shape.rowMajor_val_one, Shape.rowMajor_val_three]; rfl
  refine (Ideal.multiReduction_add_total _ _ _ (fun b => by fin_cases b; rfl) _ _ _).trans ?_
  rw [sum_idx1ab]
  refine Finset.sum_congr rfl fun p _ => Finset.sum_congr rfl fun q _ => ?_
  refine (shapeCast_ab_1ab_apply _ _ (0 : Fin 1) p q).trans ?_
  simp only [shapeCast_self]
  rfl

end Payloads4

/-! ## The input tile read through its window -/

section Blocks
open Idealize.ShloMosaic.ValueIdx

variable (V : (c : Dev nD) → (b : Ref sig .tc) → Buf (Elt Ideal) ((c : Thread nD τ).loc b))

/-- The flattened weight as the region finds it, as a matrix. -/
abbrev Zin (c : Dev nD) : Cert.Spec.Mat 2048 18432 := V c main_v0

/-- The input tile at point t, as a [2048, 1152] matrix. -/
abbrev xblk (c : Dev nD) (t : Fin cfg0.N) : FVec Ideal S2048x1152 .f32 := iblk0 (F := Ideal) V c 0 t

/-- The input window's block index at point t is (0, t): the tiles are taken left to right, one per point. -/
theorem idx_in : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Entry (p, q) of the tile at point t is entry (p, column q of tile t) of the matrix. -/
theorem xblk_apply (c : Dev nD) (t : Fin cfg0.N) (p : Fin 2048) (q : Fin 1152) :
    xblk V c t (ix2 p q) = Zin V c (ix2 p (Cert.Spec.col t.val q)) := by
  obtain ⟨e0, e1⟩ := idx_in t
  have hN : t.val < 16 := lt_of_lt_of_eq t.isLt (show cfg0.N = 16 from N_0)
  unfold xblk iblk0
  rw [View.read_apply]
  show V c main_v0 _ = V c main_v0 _
  congr 1
  funext a
  apply Fin.ext
  match a with
  | ⟨0, _⟩ => show win0_0.index t (0 : Fin 2) * 2048 + 1 * p.val = p.val; omega
  | ⟨1, _⟩ => show win0_0.index t (1 : Fin 2) * 1152 + 1 * q.val = (t.val % 16) * 1152 + q.val; rw [e1, Nat.mod_eq_of_lt hN]; omega

/-- So the tile's product with its transpose is that tile's term of the Gram matrix, -/
theorem tile_gram (c : Dev nD) (t : Fin cfg0.N) (i j : Fin 2048) :
    ∑ q : Fin 1152, xblk V c t (ix2 i q) * xblk V c t (ix2 j q) = Cert.Spec.tileG (Zin V c) t.val (ix2 i j) := by
  unfold Cert.Spec.tileG
  refine Finset.sum_congr rfl fun q _ => ?_
  rw [xblk_apply, xblk_apply]

/-- and its sum of squares that tile's term of the squared norm. -/
theorem tile_norm (c : Dev nD) (t : Fin cfg0.N) :
    ∑ p : Fin 2048, ∑ q : Fin 1152, xblk V c t (ix2 p q) * xblk V c t (ix2 p q) = Cert.Spec.tileN (Zin V c) t.val := by
  unfold Cert.Spec.tileN
  refine Finset.sum_congr rfl fun p _ => Finset.sum_congr rfl fun q _ => ?_
  rw [xblk_apply]

end Blocks

/-! ## What the carried buffers hold after each point -/

section Fold
open Idealize.ShloMosaic.ValueIdx

variable (V : (c : Dev nD) → (b : Ref sig .tc) → Buf (Elt Ideal) ((c : Thread nD τ).loc b))

/-- The reset stores the zero block -/
theorem pay1_apply (u : Fin 1) (i j : Fin 2048) : k0_pay1 (F := Ideal) (ix3 u i j) = 0 := by
  unfold k0_pay1
  refine (shapeCast_ab_1ab_apply _ _ u i j).trans ?_
  exact Ideal.ofBits_zero_f32

/-- and the zero cell. -/
theorem pay2_apply (u a b : Fin 1) : k0_pay2 (F := Ideal) (ix3 u a b) = 0 := by
  unfold k0_pay2
  refine (shapeCast_ab_1ab_apply _ _ u a b).trans ?_
  exact Ideal.ofBits_zero_f32

/-- After the first point of a run of eight the Gram block holds that tile's term alone; -/
theorem gram_reset (c : Dev nD) (t : Fin cfg0.N) (h0 : t.val % 8 = 0) (u : Fin 1) (i j : Fin 2048) :
    (outsAt0 (F := Ideal) V c t.val t.isLt).1 (ix3 u i j) = Cert.Spec.tileG (Zin V c) t.val (ix2 i j) := by
  rw [outsAt0_A V c t h0]
  dsimp only
  refine (congrFun (out_A_1 (F := Ideal) c (grid0.coords t) (ms0_0 t) (hs0_0 t) (ms0_1 t) (hs0_1 t) (ms0_2 t) (hs0_2 t)
    ((hcond0_0 t).mpr h0) (iblk0 (F := Ideal) V c 0 t)) (ix3 u i j)).trans ?_
  refine (pay5_apply (xblk V c t) (k0_pay1 (F := Ideal)) u i j).trans ?_
  rw [pay1_apply, zero_add]
  exact tile_gram V c t i j

/-- after any other point, what the point before left plus that tile's term. -/
theorem gram_step (c : Dev nD) (t : Fin cfg0.N) (h0 : ¬t.val % 8 = 0) (u : Fin 1) (i j : Fin 2048) :
    (outsAt0 (F := Ideal) V c t.val t.isLt).1 (ix3 u i j)
      = (outsAt0 (F := Ideal) V c (t.val - 1) (Nat.lt_of_le_of_lt (Nat.sub_le _ _) t.isLt)).1 (ix3 (0 : Fin 1) i j)
        + Cert.Spec.tileG (Zin V c) t.val (ix2 i j) := by
  rw [outsAt0_B V c t h0]
  dsimp only
  refine (congrFun (out_B_1 (F := Ideal) c (grid0.coords t) (ms0_0 t) (hs0_0 t) (ms0_1 t) (hs0_1 t) (ms0_2 t) (hs0_2 t)
    (fun h => h0 ((hcond0_0 t).mp h)) (iblk0 (F := Ideal) V c 0 t)
    (outsAt0 (F := Ideal) V c (t.val - 1) (Nat.lt_of_le_of_lt (Nat.sub_le _ _) t.isLt)).1
    (outsAt0 (F := Ideal) V c (t.val - 1) (Nat.lt_of_le_of_lt (Nat.sub_le _ _) t.isLt)).2) (ix3 u i j)).trans ?_
  refine (pay5_apply (xblk V c t) (outsAt0 (F := Ideal) V c (t.val - 1) (Nat.lt_of_le_of_lt (Nat.sub_le _ _) t.isLt)).1 u i j).trans ?_
  exact congrArg (_ + ·) (tile_gram V c t i j)

/-- So after point n the Gram block holds the terms of its run's tiles up to n: tiles 8·(n / 8) … n. -/
theorem gram_at (c : Dev nD) : ∀ (n : ℕ) (h : n < cfg0.N) (u : Fin 1) (i j : Fin 2048),
    (outsAt0 (F := Ideal) V c n h).1 (ix3 u i j)
      = ∑ s ∈ Finset.range (n % 8 + 1), Cert.Spec.tileG (Zin V c) (8 * (n / 8) + s) (ix2 i j)
  | 0, h, u, i, j => by
    refine (gram_reset V c ⟨0, h⟩ rfl u i j).trans ?_
    rw [Nat.zero_mod, Nat.zero_add, Finset.sum_range_one]
  | n + 1, h, u, i, j => by
    by_cases h0 : (n + 1) % 8 = 0
    · refine (gram_reset V c ⟨n + 1, h⟩ h0 u i j).trans ?_
      rw [h0, Nat.zero_add, Finset.sum_range_one]
      exact congrArg (fun k => Cert.Spec.tileG (Zin V c) k (ix2 i j)) (show n + 1 = 8 * ((n + 1) / 8) + 0 by omega)
    · refine (gram_step V c ⟨n + 1, h⟩ h0 u i j).trans ?_
      have ih := gram_at c n (Nat.lt_of_succ_lt h) (0 : Fin 1) i j
      have e1 : (n + 1) % 8 = n % 8 + 1 := by omega
      have e2 : (n + 1) / 8 = n / 8 := by omega
      rw [e1, e2, Finset.sum_range_succ _ (n % 8 + 1)]
      refine congrArg₂ (· + ·) ih ?_
      exact congrArg (fun k => Cert.Spec.tileG (Zin V c) k (ix2 i j)) (show n + 1 = 8 * (n / 8) + (n % 8 + 1) by omega)

end Fold

/-! ## The squared-norm cell after each point -/

section FoldNorm
open Idealize.ShloMosaic.ValueIdx

variable (V : (c : Dev nD) → (b : Ref sig .tc) → Buf (Elt Ideal) ((c : Thread nD τ).loc b))

/-- After the first point of a run of eight the cell holds that tile's sum of squares alone; -/
theorem norm_reset (c : Dev nD) (t : Fin cfg0.N) (h0 : t.val % 8 = 0) (u a b : Fin 1) :
    (outsAt0 (F := Ideal) V c t.val t.isLt).2 (ix3 u a b) = Cert.Spec.tileN (Zin V c) t.val := by
  rw [outsAt0_A V c t h0]
  dsimp only
  refine (congrFun (out_A_2 (F := Ideal) c (grid0.coords t) (ms0_0 t) (hs0_0 t) (ms0_1 t) (hs0_1 t) (ms0_2 t) (hs0_2 t)
    ((hcond0_0 t).mpr h0) (iblk0 (F := Ideal) V c 0 t)) (ix3 u a b)).trans ?_
  refine (pay4_apply (xblk V c t) (k0_pay2 (F := Ideal)) u a b).trans ?_
  rw [pay2_apply, zero_add]
  exact tile_norm V c t

/-- after any other point, what the point before left plus that tile's sum of squares. -/
theorem norm_step (c : Dev nD) (t : Fin cfg0.N) (h0 : ¬t.val % 8 = 0) (u a b : Fin 1) :
    (outsAt0 (F := Ideal) V c t.val t.isLt).2 (ix3 u a b)
      = (outsAt0 (F := Ideal) V c (t.val - 1) (Nat.lt_of_le_of_lt (Nat.sub_le _ _) t.isLt)).2 (ix3 (0 : Fin 1) a b)
        + Cert.Spec.tileN (Zin V c) t.val := by
  rw [outsAt0_B V c t h0]
  dsimp only
  refine (congrFun (out_B_2 (F := Ideal) c (grid0.coords t) (ms0_0 t) (hs0_0 t) (ms0_1 t) (hs0_1 t) (ms0_2 t) (hs0_2 t)
    (fun h => h0 ((hcond0_0 t).mp h)) (iblk0 (F := Ideal) V c 0 t)
    (outsAt0 (F := Ideal) V c (t.val - 1) (Nat.lt_of_le_of_lt (Nat.sub_le _ _) t.isLt)).1
    (outsAt0 (F := Ideal) V c (t.val - 1) (Nat.lt_of_le_of_lt (Nat.sub_le _ _) t.isLt)).2) (ix3 u a b)).trans ?_
  refine (pay4_apply (xblk V c t) (outsAt0 (F := Ideal) V c (t.val - 1) (Nat.lt_of_le_of_lt (Nat.sub_le _ _) t.isLt)).2 u a b).trans ?_
  exact congrArg (_ + ·) (tile_norm V c t)

/-- So after point n the cell holds the sums of squares of its run's tiles up to n. -/
theorem norm_at (c : Dev nD) : ∀ (n : ℕ) (h : n < cfg0.N) (u a b : Fin 1),
    (outsAt0 (F := Ideal) V c n h).2 (ix3 u a b)
      = ∑ s ∈ Finset.range (n % 8 + 1), Cert.Spec.tileN (Zin V c) (8 * (n / 8) + s)
  | 0, h, u, a, b => by
    refine (norm_reset V c ⟨0, h⟩ rfl u a b).trans ?_
    rw [Nat.zero_mod, Nat.zero_add, Finset.sum_range_one]
  | n + 1, h, u, a, b => by
    by_cases h0 : (n + 1) % 8 = 0
    · refine (norm_reset V c ⟨n + 1, h⟩ h0 u a b).trans ?_
      rw [h0, Nat.zero_add, Finset.sum_range_one]
      exact congrArg (fun k => Cert.Spec.tileN (Zin V c) k) (show n + 1 = 8 * ((n + 1) / 8) + 0 by omega)
    · refine (norm_step V c ⟨n + 1, h⟩ h0 u a b).trans ?_
      have ih := norm_at c n (Nat.lt_of_succ_lt h) (0 : Fin 1) a b
      have e1 : (n + 1) % 8 = n % 8 + 1 := by omega
      have e2 : (n + 1) / 8 = n / 8 := by omega
      rw [e1, e2, Finset.sum_range_succ _ (n % 8 + 1)]
      refine congrArg₂ (· + ·) ih ?_
      exact congrArg (fun k => Cert.Spec.tileN (Zin V c) k) (show n + 1 = 8 * (n / 8) + (n % 8 + 1) by omega)

end FoldNorm

/-! ## From the blocks to the arrays -/

section Arrays
open Idealize.ShloMosaic.ValueIdx

variable (V : (c : Dev nD) → (b : Ref sig .tc) → Buf (Elt Ideal) ((c : Thread nD τ).loc b))

/-- What the Gram array ends holding: slab c is core c's partial Gram matrix. -/
abbrev G1 (c : Dev nD) : S2x2048x2048.Idx → EReal :=
  fun i => Cert.Spec.gramPart (Zin V c) (i 0).val (ix2 (i 1) (i 2))

/-- The Gram window's block index at point t is (t / 8, 0, 0): one slab per run of eight points. -/
theorem idx_out1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)

/-- The last point of a run writes back its slab of the partial Gram matrices. -/
theorem flushed_eq1 (c : Dev nD) (t : Fin cfg0.N) (hf : (cfg0.win 1).flush t = true) :
    (dat0 (F := Ideal) V c).flushed 1 t = ((cfg0.win 1).blk t).view.read (Elt Ideal) (G1 V c) := by
  have h7 : t.val % 8 = 7 := (flush0_1 t).mp hf
  obtain ⟨e0, e1, e2⟩ := idx_out1 t
  show (cfg0.win 1).cut (grid0.coords t) ((dat0 (F := Ideal) V c).after 1 t) = _
  rw [after0_1]
  funext y
  obtain ⟨u, i, j, rfl⟩ : ∃ (u : Fin 1) (i j : Fin 2048), y = ix3 u i j := ⟨y 0, y 1, y 2, eq_ix3 y⟩
  rw [View.read_apply]
  show (outsAt0 (F := Ideal) V c t.val t.isLt).1 (ix3 u i j) = G1 V c (((cfg0.win 1).blk t).view.emb (ix3 u i j))
  rw [gram_at V c t.val t.isLt u i j, h7]
  have hu : u.val = 0 := by omega
  have hN : t.val < 16 := lt_of_lt_of_eq t.isLt (show cfg0.N = 16 from N_0)
  have hemb : ((cfg0.win 1).blk t).view.emb (ix3 u i j) = (ix3 (⟨t.val / 8, by omega⟩ : Fin 2) i j : S2x2048x2048.Idx) := by
    funext a
    apply Fin.ext
    match a with
    | ⟨0, _⟩ => show win0_1.index t (0 : Fin 3) * 1 + 1 * u.val = t.val / 8; omega
    | ⟨1, _⟩ => show win0_1.index t (1 : Fin 3) * 2048 + 1 * i.val = i.val; omega
    | ⟨2, _⟩ => show win0_1.index t (2 : Fin 3) * 2048 + 1 * j.val = j.val; omega
  rw [hemb]
  rfl

/-- An index of the Gram array is in point t's block iff each coordinate is in the block's range on its axis. -/
theorem mem_blk1 (t : Fin cfg0.N) (i : S2x2048x2048.Idx) :
    i ∈ ((cfg0.win 1).blk t).view.set ↔ ∀ a : Fin 3, win0_1.index t a * S1x2048x2048.size a ≤ (i a).val ∧ (i a).val < win0_1.index t a * S1x2048x2048.size a + S1x2048x2048.size a := by
  show i ∈ ((View.whole main_v1_0).slice (win0_1.rect t)).set ↔ _
  rw [View.set_slice_whole, Rect.mem_set_unit]
  exact Iff.rfl

/-- Every index of the Gram array is in the block the last point of its slab's run writes back. -/
theorem cover1 (i : S2x2048x2048.Idx) : ∃ t : Fin cfg0.N, (cfg0.win 1).flush t = true ∧ i ∈ ((cfg0.win 1).blk t).view.set := by
  have h0 : (i 0).val < 2 := (i 0).isLt
  have h1 : (i 1).val < 2048 := (i 1).isLt
  have h2 : (i 2).val < 2048 := (i 2).isLt
  have hN : cfg0.N = 16 := N_0
  have hN' : grid0.N = 16 := N_0
  refine ⟨⟨8 * (i 0).val + 7, by omega⟩, (flush0_1 _).mpr (by show (8 * (i 0).val + 7) % 8 = 7; omega), ?_⟩
  obtain ⟨e0, e1, e2⟩ := idx_out1 ⟨8 * (i 0).val + 7, by omega⟩
  have e0' : win0_1.index ⟨8 * (i 0).val + 7, by omega⟩ (0 : Fin 3) = (8 * (i 0).val + 7) / 8 := e0
  rw [mem_blk1]
  intro a
  match a with
  | ⟨0, _⟩ => show win0_1.index _ (0 : Fin 3) * 1 ≤ (i 0).val ∧ (i 0).val < win0_1.index _ (0 : Fin 3) * 1 + 1; omega
  | ⟨1, _⟩ => show win0_1.index _ (1 : Fin 3) * 2048 ≤ (i 1).val ∧ (i 1).val < win0_1.index _ (1 : Fin 3) * 2048 + 2048; omega
  | ⟨2, _⟩ => show win0_1.index _ (2 : Fin 3) * 2048 ≤ (i 2).val ∧ (i 2).val < win0_1.index _ (2 : Fin 3) * 2048 + 2048; omega

end Arrays

section ArraysNorm
open Idealize.ShloMosaic.ValueIdx

variable (V : (c : Dev nD) → (b : Ref sig .tc) → Buf (Elt Ideal) ((c : Thread nD τ).loc b))

/-- What the squared-norm array ends holding: cell c is core c's partial squared norm. -/
abbrev G2 (c : Dev nD) : S2x1x1.Idx → EReal := fun i => Cert.Spec.normPart (Zin V c) (i 0).val

/-- The squared-norm window's block index at point t is (t / 8, 0, 0). -/
theorem idx_out2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-- The last point of a run writes back its cell of the partial squared norms. -/
theorem flushed_eq2 (c : Dev nD) (t : Fin cfg0.N) (hf : (cfg0.win 2).flush t = true) :
    (dat0 (F := Ideal) V c).flushed 2 t = ((cfg0.win 2).blk t).view.read (Elt Ideal) (G2 V c) := by
  have h7 : t.val % 8 = 7 := (flush0_2 t).mp hf
  obtain ⟨e0, e1, e2⟩ := idx_out2 t
  show (cfg0.win 2).cut (grid0.coords t) ((dat0 (F := Ideal) V c).after 2 t) = _
  rw [after0_2]
  funext y
  obtain ⟨u, a, b, rfl⟩ : ∃ (u a b : Fin 1), y = ix3 u a b := ⟨y 0, y 1, y 2, eq_ix3 y⟩
  rw [View.read_apply]
  show (outsAt0 (F := Ideal) V c t.val t.isLt).2 (ix3 u a b) = G2 V c (((cfg0.win 2).blk t).view.emb (ix3 u a b))
  rw [norm_at V c t.val t.isLt u a b, h7]
  have hu : u.val = 0 := by omega
  have ha : a.val = 0 := by omega
  have hb : b.val = 0 := by omega
  have hN : t.val < 16 := lt_of_lt_of_eq t.isLt (show cfg0.N = 16 from N_0)
  have hemb : ((cfg0.win 2).blk t).view.emb (ix3 u a b) = (ix3 (⟨t.val / 8, by omega⟩ : Fin 2) (0 : Fin 1) (0 : Fin 1) : S2x1x1.Idx) := by
    funext d
    apply Fin.ext
    match d with
    | ⟨0, _⟩ => show win0_2.index t (0 : Fin 3) * 1 + 1 * u.val = t.val / 8; omega
    | ⟨1, _⟩ => show win0_2.index t (1 : Fin 3) * 1 + 1 * a.val = 0; omega
    | ⟨2, _⟩ => show win0_2.index t (2 : Fin 3) * 1 + 1 * b.val = 0; omega
  rw [hemb]
  rfl

/-- An index of the squared-norm array is in point t's block iff each coordinate is in the block's range on its axis. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1_1).slice (win0_2.rect t)).set ↔ _
  rw [View.set_slice_whole, Rect.mem_set_unit]
  exact Iff.rfl

/-- Every cell of the squared-norm array is the block the last point of its run writes back. -/
theorem cover2 (i : S2x1x1.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hN : cfg0.N = 16 := N_0
  have hN' : grid0.N = 16 := N_0
  refine ⟨⟨8 * (i 0).val + 7, by omega⟩, (flush0_2 _).mpr (by show (8 * (i 0).val + 7) % 8 = 7; omega), ?_⟩
  obtain ⟨e0, e1, e2⟩ := idx_out2 ⟨8 * (i 0).val + 7, by omega⟩
  have e0' : win0_2.index ⟨8 * (i 0).val + 7, by omega⟩ (0 : Fin 3) = (8 * (i 0).val + 7) / 8 := e0
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1 ≤ (i 2).val ∧ (i 2).val < win0_2.index _ (2 : Fin 3) * 1 + 1; omega

end ArraysNorm

variable (V : (c : Dev nD) → (b : Ref sig .tc) → Buf (Elt Ideal) ((c : Thread nD τ).loc b))

/-- The Gram array after the region: slab c is the sum of core c's eight tile products. -/
theorem gram_final (c : Dev nD) (i : S2x2048x2048.Idx) :
    (dat0 (F := Ideal) V c).arrAt 1 cfg0.N i = Cert.Spec.gramPart (V c main_v0) (i 0).val (ValueIdx.ix2 (i 1) (i 2)) :=
  congrFun ((dat0 (F := Ideal) V c).arrAt_eq_of_cover 1 (G1 V c) (flushed_eq1 V c) cover1) i

/-- The squared-norm array after the region: cell c is the sum of core c's eight tile sums of squares. -/
theorem norm_final (c : Dev nD) (i : S2x1x1.Idx) :
    (dat0 (F := Ideal) V c).arrAt 2 cfg0.N i = Cert.Spec.normPart (V c main_v0) (i 0).val :=
  congrFun ((dat0 (F := Ideal) V c).arrAt_eq_of_cover 2 (G2 V c) (flushed_eq2 V c) cover2) i

end Cert.KernelIdeal.R0
end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.RegionNS1.lean ====
/-
  REGION 1 of the kernel program: one Newton-Schulz step, B ↦ 1.5·B − 0.5·((B·B)·B)·S, as a value.

  The region's grid has eight points. Point t holds the whole of B (its bf16 copy), the whole of S, and row tile t
  of B in f32 (rows 256·t … 256·t + 255). On the extended reals the body computes, at row r and column j of the tile,
      1.5·B(256·t + r, j) − 0.5·∑ l, (∑ k, (∑ p, B(256·t + r, p)·B(p, k))·B(k, l))·S(l, j):
  three plain matrix products into zero accumulators, each a sum along the contracted axis, the format changes between
  them being the identity. That is entry (256·t + r, j) of `Cert.Spec.nsStep B S`, provided the bf16 copy of B holds
  the same extended reals as B. Every point writes its row tile back and the eight row tiles cover the 2048 rows, so
  both result arrays, the f32 one and its bf16 copy, end holding `nsStep B S`.
-/
import proofs.«407192_j12421045420976_3_alg».proof.Proof.Gen.KernelIdeal.Frame
import proofs.«407192_j12421045420976_3_alg».proof.Proof.Spec
import proofs.«407192_j12421045420976_3_alg».proof.Proof.LibPlainMatmul
import Idealize.ShloMosaic.Lib.Pipeline.Value
import Idealize.ShloMosaic.Lib.ValueIdx

set_option maxRecDepth 16384

noncomputable section

open scoped BigOperators

namespace Cert.KernelIdeal.NS1

open Idealize.ShloMosaic Idealize.ShloMosaic.TcCoe Idealize.SL.Sem Cert.KernelIdeal Cert.KernelIdeal.Gen
open Idealize.ShloMosaic.ValueIdx
open Idealize.ShloMosaic.Pipeline (Dat)

/-- The product's dimension numbers are the plain ones: rows times contraction by contraction times columns. -/
theorem dot_plain : dot_S256x2048_S2048x2048_S256x2048_1_0_0_1_n_n = DotDims.plain 256 2048 2048 := rfl

/-- One product of the body into the zero accumulator, at (a, j): the sum over the contracted axis. -/
theorem mm_apply {φ₁ φ₂ : FTy} (l : FVec Ideal S256x2048 φ₁) (r : FVec Ideal S2048x2048 φ₂) (a : Fin 256) (j : Fin 2048) :
    FloatOps.matmul dot_S256x2048_S2048x2048_S256x2048_1_0_0_1_n_n none l r (constant S256x2048 .f32 0x00000000#32) (ix2 a j)
      = ∑ k : Fin 2048, l (ix2 a k) * r (ix2 k j) := by
  rw [dot_plain]
  exact Cert.Lib.matmul_plain_zero_apply 256 2048 2048 none l r (ix2 a j)

/-- The body's f32 result at (r, j): 1.5 times the row tile's entry minus 0.5 times the triple product's entry. -/
theorem pay1_apply (v0 v2 : Vec Ideal S2048x2048 .bf16) (v4 : Vec Ideal S256x2048 .f32) (r : Fin 256) (j : Fin 2048) :
    k1_pay1 (F := Ideal) v0 v2 v4 (ix2 r j)
      = Cert.Spec.c15 * v4 (ix2 r j)
        - Cert.Spec.c05 * ∑ l : Fin 2048, (∑ k : Fin 2048, (∑ p : Fin 2048, v4 (ix2 r p) * v0 (ix2 p k)) * v0 (ix2 k l)) * v2 (ix2 l j) := by
  unfold k1_pay1
  simp only [matmul, shapeCast_self]
  rw [subf_apply, mulf_apply, mulf_apply, broadcast_apply, broadcast_apply, mm_apply]
  simp only [truncf_apply, mm_apply]
  rfl

variable (V : (c : Dev nD) → (b : Ref sig .tc) → Buf (Elt Ideal) ((c : Thread nD τ).loc b))

/-- On a row of a tile: when the tile's row r is row i0 of B, and the bf16 copy of B holds B's values, the body's
    result at (r, j) is the Newton-Schulz step's entry at (i0, j): the three nested sums are the three products. -/
theorem pay1_nsStep (Bb Sb : Vec Ideal S2048x2048 .bf16) (Bf : Vec Ideal S2048x2048 .f32) (hB : ∀ j : S2048x2048.Idx, Bb j = Bf j)
    (v4 : Vec Ideal S256x2048 .f32) (i0 : Fin 2048) (r : Fin 256)
    (h4 : ∀ p : Fin 2048, v4 (ix2 r p) = Bf (ix2 i0 p)) (j : Fin 2048) :
    k1_pay1 (F := Ideal) Bb Sb v4 (ix2 r j) = Cert.Spec.nsStep Bf Sb (ix2 i0 j) := by
  obtain rfl : Bb = Bf := funext hB
  rw [pay1_apply]
  show _ = Cert.Spec.c15 * Bb (ix2 i0 j)
    - Cert.Spec.c05 * ∑ l : Fin 2048, (∑ k : Fin 2048, (∑ p : Fin 2048, Bb (ix2 i0 p) * Bb (ix2 p k)) * Bb (ix2 k l)) * Sb (ix2 l j)
  simp only [h4]

theorem hz : (![0, 0] : Fin 2 → Nat) = fun _ => 0 := funext fun a => by fin_cases a <;> rfl

/-- The index maps, decided over the eight points: the whole-array windows sit at block (0, 0), the row-tile windows
    at row block t. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Window 0's block at any point is the whole bf16 copy of B. -/
theorem iblk_B (c : Dev nD) (t : Fin cfg1.N) :
    (iblk1 (F := Ideal) V c 0 t : Vec Ideal S2048x2048 .bf16) = (V c main_v26 : Vec Ideal S2048x2048 .bf16) := by
  obtain ⟨e0, e1, -⟩ := idx_facts t
  funext x
  unfold iblk1
  rw [View.read_apply]
  show V c main_v26 _ = V c main_v26 _
  congr 1
  funext a
  apply Fin.ext
  match a with
  | ⟨0, _⟩ => show win1_0.index t (0 : Fin 2) * 2048 + 1 * (x 0).val = (x 0).val; rw [e0]; omega
  | ⟨1, _⟩ => show win1_0.index t (1 : Fin 2) * 2048 + 1 * (x 1).val = (x 1).val; rw [e1]; omega

/-- Window 2's block at any point is the whole of S. -/
theorem iblk_S (c : Dev nD) (t : Fin cfg1.N) :
    (iblk1 (F := Ideal) V c 2 t : Vec Ideal S2048x2048 .bf16) = (V c main_v25 : Vec Ideal S2048x2048 .bf16) := by
  obtain ⟨-, -, -, -, e0, e1, -⟩ := idx_facts t
  funext x
  unfold iblk1
  rw [View.read_apply]
  show V c main_v25 _ = V c main_v25 _
  congr 1
  funext a
  apply Fin.ext
  match a with
  | ⟨0, _⟩ => show win1_2.index t (0 : Fin 2) * 2048 + 1 * (x 0).val = (x 0).val; rw [e0]; omega
  | ⟨1, _⟩ => show win1_2.index t (1 : Fin 2) * 2048 + 1 * (x 1).val = (x 1).val; rw [e1]; omega

/-- Window 1's block at point t is rows 256·t … 256·t + 255 of B. -/
theorem iblk_rows (c : Dev nD) (t : Fin cfg1.N) (r : Fin 256) (p : Fin 2048) (i0 : Fin 2048) (hi0 : i0.val = 256 * t.val + r.val) :
    (iblk1 (F := Ideal) V c 1 t : Vec Ideal S256x2048 .f32) (ix2 r p) = (V c main_v19 : Vec Ideal S2048x2048 .f32) (ix2 i0 p) := by
  obtain ⟨-, -, e0, e1, -⟩ := idx_facts t
  unfold iblk1
  rw [View.read_apply]
  show V c main_v19 _ = V c main_v19 _
  congr 1
  funext a
  apply Fin.ext
  match a with
  | ⟨0, _⟩ => show win1_1.index t (0 : Fin 2) * 256 + 1 * r.val = i0.val; rw [e0, hi0]; omega
  | ⟨1, _⟩ => show win1_1.index t (1 : Fin 2) * 2048 + 1 * p.val = p.val; rw [e1]; omega

/-- The body's result on the tile of point t, at (r, j), is the step's entry at (256·t + r, j). -/
theorem tile_value (c : Dev nD) (hB : ∀ j : S2048x2048.Idx, V c main_v26 j = V c main_v19 j) (t : Fin cfg1.N)
    (r : Fin 256) (j : Fin 2048) (i0 : Fin 2048) (hi0 : i0.val = 256 * t.val + r.val) :
    k1_pay1 (F := Ideal) (iblk1 V c 0 t) (iblk1 V c 2 t) (iblk1 V c 1 t) (ix2 r j)
      = Cert.Spec.nsStep (V c main_v19) (V c main_v25) (ix2 i0 j) := by
  rw [iblk_B V c t, iblk_S V c t]
  exact pay1_nsStep (V c main_v26) (V c main_v25) (V c main_v19) hB (iblk1 V c 1 t) i0 r
    (fun p => iblk_rows V c t r p i0 hi0) j

/-- There are eight points. -/
theorem point_lt (t : Fin cfg1.N) : t.val < 8 := Nat.lt_of_lt_of_eq t.isLt N_1

/-- What point t writes back through window 3 is block t of the step's result. -/
theorem flushed3_eq (c : Dev nD) (hB : ∀ j : S2048x2048.Idx, V c main_v26 j = V c main_v19 j) (t : Fin cfg1.N) :
    (dat1 (F := Ideal) V c).flushed 3 t
      = ((cfg1.win 3).blk t).view.read (Elt Ideal) (Cert.Spec.nsStep (V c main_v19) (V c main_v25)) := by
  show (cfg1.win 3).cut (grid1.coords t) ((dat1 V c).after 3 t) = _
  rw [after1_3]
  unfold out1_3
  rw [View.canon_unit_zero hz]
  simp only [View.ld_unit_zero (S := S2048x2048) hz, View.ld_unit_zero (S := S256x2048) hz]
  funext y
  obtain ⟨-, -, -, -, -, -, e0, e1, -⟩ := idx_facts t
  have hy0 : (y 0).val < 256 := (y 0).isLt
  have hy1 : (y 1).val < 2048 := (y 1).isLt
  have ht := point_lt t
  have hx : (win1 3).xinj (grid1.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k1_pay1 (F := Ideal) (iblk1 V c 0 t) (iblk1 V c 2 t) (iblk1 V c 1 t)) hx) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v19) (V c main_v25)) (funext fun a => Fin.ext ?_)
  match a with
  | ⟨0, _⟩ => show 256 * t.val + (y 0).val = win1_3.index t (0 : Fin 2) * 256 + 1 * (y 0).val; rw [e0]; omega
  | ⟨1, _⟩ => show (y 1).val = win1_3.index t (1 : Fin 2) * 2048 + 1 * (y 1).val; rw [e1]; omega

/-- An index of the array is in point t's block of window 3 iff each coordinate is in the block's range on its axis. -/
theorem mem_blk3 (t : Fin cfg1.N) (i : S2048x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v27_0).slice (win1_3.rect t)).set ↔ _
  rw [View.set_slice_whole, Rect.mem_set_unit]
  exact Iff.rfl

/-- Row i lies in the block of point i / 256: the eight row tiles cover the array. -/
theorem cover3 (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  refine ⟨⟨(i 0).val / 256, by rw [show cfg1.N = 8 from N_1]; omega⟩, flush1_3 _, ?_⟩
  obtain ⟨-, -, -, -, -, -, e0, e1, -⟩ := idx_facts ⟨(i 0).val / 256, by rw [show cfg1.N = 8 from N_1]; omega⟩
  rw [mem_blk3]
  intro a
  match a with
  | ⟨0, _⟩ =>
    show win1_3.index _ (0 : Fin 2) * 256 ≤ (i 0).val ∧ (i 0).val < win1_3.index _ (0 : Fin 2) * 256 + 256
    rw [e0]; show (i 0).val / 256 * 256 ≤ (i 0).val ∧ (i 0).val < (i 0).val / 256 * 256 + 256; omega
  | ⟨1, _⟩ =>
    show win1_3.index _ (1 : Fin 2) * 2048 ≤ (i 1).val ∧ (i 1).val < win1_3.index _ (1 : Fin 2) * 2048 + 2048
    rw [e1]; omega

/-- The f32 result array after the region: the Newton-Schulz step of the entry arrays, index by index. -/
theorem final_f32 (c : Dev nD) (hB : ∀ j : S2048x2048.Idx, V c main_v26 j = V c main_v19 j) (i : S2048x2048.Idx) :
    (dat1 (F := Ideal) V c).arrAt 3 cfg1.N i = Cert.Spec.nsStep (V c main_v19) (V c main_v25) i :=
  congrFun ((dat1 (F := Ideal) V c).arrAt_eq_of_cover 3 (Cert.Spec.nsStep (V c main_v19) (V c main_v25))
    (fun t _ => flushed3_eq V c hB t) cover3) i

/-- What point t writes back through window 4, the bf16 copy, is block t of the same function: the format change
    is the identity on the extended reals. -/
theorem flushed4_eq (c : Dev nD) (hB : ∀ j : S2048x2048.Idx, V c main_v26 j = V c main_v19 j) (t : Fin cfg1.N) :
    (dat1 (F := Ideal) V c).flushed 4 t
      = ((cfg1.win 4).blk t).view.read (Elt Ideal) (Cert.Spec.nsStep (V c main_v19) (V c main_v25)) := by
  show (cfg1.win 4).cut (grid1.coords t) ((dat1 V c).after 4 t) = _
  rw [after1_4]
  unfold out1_4
  rw [View.canon_unit_zero hz]
  simp only [View.ld_unit_zero (S := S2048x2048) hz, View.ld_unit_zero (S := S256x2048) hz]
  funext y
  obtain ⟨-, -, -, -, -, -, -, -, e0, e1⟩ := idx_facts t
  have hy0 : (y 0).val < 256 := (y 0).isLt
  have hy1 : (y 1).val < 2048 := (y 1).isLt
  have ht := point_lt t
  have hx : (win1 4).xinj (grid1.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k1_pay2 (F := Ideal) (iblk1 V c 0 t) (iblk1 V c 2 t) (iblk1 V c 1 t)) hx) ?_
  refine Eq.trans (truncf_apply (k1_pay1 (F := Ideal) (iblk1 V c 0 t) (iblk1 V c 2 t) (iblk1 V c 1 t)) bitsLt_bf16_f32 _) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v19) (V c main_v25)) (funext fun a => Fin.ext ?_)
  match a with
  | ⟨0, _⟩ => show 256 * t.val + (y 0).val = win1_4.index t (0 : Fin 2) * 256 + 1 * (y 0).val; rw [e0]; omega
  | ⟨1, _⟩ => show (y 1).val = win1_4.index t (1 : Fin 2) * 2048 + 1 * (y 1).val; rw [e1]; omega

/-- An index of the array is in point t's block of window 4 iff each coordinate is in the block's range on its axis. -/
theorem mem_blk4 (t : Fin cfg1.N) (i : S2048x2048.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_v27_1).slice (win1_4.rect t)).set ↔ _
  rw [View.set_slice_whole, Rect.mem_set_unit]
  exact Iff.rfl

/-- Row i lies in the block of point i / 256: the eight row tiles cover the bf16 array too. -/
theorem cover4 (i : S2048x2048.Idx) :
    ∃ t : Fin cfg1.N, (cfg1.win 4).flush t = true ∧ i ∈ ((cfg1.win 4).blk t).view.set := by
  have hi0 : (i 0).val < 2048 := (i 0).isLt
  have hi1 : (i 1).val < 2048 := (i 1).isLt
  refine ⟨⟨(i 0).val / 256, by rw [show cfg1.N = 8 from N_1]; omega⟩, flush1_4 _, ?_⟩
  obtain ⟨-, -, -, -, -, -, -, -, e0, e1⟩ := idx_facts ⟨(i 0).val / 256, by rw [show cfg1.N = 8 from N_1]; omega⟩
  rw [mem_blk4]
  intro a
  match a with
  | ⟨0, _⟩ =>
    show win1_4.index _ (0 : Fin 2) * 256 ≤ (i 0).val ∧ (i 0).val < win1_4.index _ (0 : Fin 2) * 256 + 256
    rw [e0]; show (i 0).val / 256 * 256 ≤ (i 0).val ∧ (i 0).val < (i 0).val / 256 * 256 + 256; omega
  | ⟨1, _⟩ =>
    show win1_4.index _ (1 : Fin 2) * 2048 ≤ (i 1).val ∧ (i 1).val < win1_4.index _ (1 : Fin 2) * 2048 + 2048
    rw [e1]; omega

/-- The bf16 result array after the region holds the same extended reals. -/
theorem final_bf16 (c : Dev nD) (hB : ∀ j : S2048x2048.Idx, V c main_v26 j = V c main_v19 j) (i : S2048x2048.Idx) :
    (dat1 (F := Ideal) V c).arrAt 4 cfg1.N i = Cert.Spec.nsStep (V c main_v19) (V c main_v25) i :=
  congrFun ((dat1 (F := Ideal) V c).arrAt_eq_of_cover 4 (Cert.Spec.nsStep (V c main_v19) (V c main_v25))
    (fun t _ => flushed4_eq V c hB t) cover4) i

end Cert.KernelIdeal.NS1

end
-- ==== Proof.KChain0.lean ====
/-
  The kernel's buffers, boundary by boundary, up to the first Newton-Schulz region.
  The buffers' contents at each boundary of @main (after a host stretch, after a region's write-backs) are a fold from
  the launch memory. Read at the buffers that matter: Z = the weight re-laid as a [2048,18432] matrix; after the Gram
  region the two partial Gram matrices and partial squared norms; after the next stretch S = (G₀+G₁)·(1/n) + eps·I, the
  identity, and the scale sqrt(1/n); after the first Newton-Schulz region the first iterate (in both float formats, the
  same extended reals). A buffer that a region only reads, or does not touch, keeps its contents across the region.
-/
import proofs.«407192_j12421045420976_3_alg».proof.Proof.KRun
import proofs.«407192_j12421045420976_3_alg».proof.Proof.Spec
import proofs.«407192_j12421045420976_3_alg».proof.Proof.KHost
import proofs.«407192_j12421045420976_3_alg».proof.Proof.Region0
import proofs.«407192_j12421045420976_3_alg».proof.Proof.RegionNS1
import Idealize.ShloMosaic.Lib.Pipeline.Value
import Idealize.ShloMosaic.Lib.ValueIdx

set_option maxRecDepth 16384

noncomputable section

namespace Cert.KernelIdeal.KC

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-- The weight as launched, re-laid as a matrix. -/
abbrev Z : Cert.Spec.Mat 2048 18432 := Cert.Spec.flat (m ((c : Thread nD τ).loc main_arg0))

/-- The Newton-Schulz iterates from the identity, with the kernel's S. -/
def B : ℕ → Cert.Spec.Mat 2048 2048
  | 0 => Cert.Spec.eye
  | k + 1 => Cert.Spec.nsStep (B k) (Cert.Spec.Sk (Z m c))

/-! ## Before the Gram region -/

theorem W1_Z : W1 m ρ c (Proc.devRef .tc main_v0) = Z m c :=
  KH.h0_Z (W0 m ρ c)

/-! ## After the Gram region -/

theorem W2_gram (i : S2x2048x2048.Idx) :
    (W2 m ρ c (Proc.devRef .tc main_v1_0) i : EReal) = Cert.Spec.gramPart (Z m c) (i 0).val (ix2 (i 1) (i 2)) := by
  have h := R0.gram_final (V1 m ρ) c i
  rw [show V1 m ρ c main_v0 = Z m c from W1_Z m ρ c] at h
  exact (congrFun (W2_arr m ρ c 1) i).trans h

theorem W2_norm (i : S2x1x1.Idx) :
    (W2 m ρ c (Proc.devRef .tc main_v1_1) i : EReal) = Cert.Spec.normPart (Z m c) (i 0).val := by
  have h := R0.norm_final (V1 m ρ) c i
  rw [show V1 m ρ c main_v0 = Z m c from W1_Z m ρ c] at h
  exact (congrFun (W2_arr m ρ c 2) i).trans h

theorem W2_Z : W2 m ρ c (Proc.devRef .tc main_v0) = Z m c :=
  (W2_arr m ρ c 0).trans (((dat0 (V1 m ρ) c).arrAt_in 0 rfl _).trans ((A_eq0 (V1 m ρ) c 0).trans (W1_Z m ρ c)))

/-! ## After the stretch that forms S -/

theorem W3_nsum : KH.nsum (W2 m ρ c) = Cert.Spec.nk (Z m c) := by
  have h0 := W2_norm m ρ c (ix3 0 0 0)
  have h1 := W2_norm m ρ c (ix3 1 0 0)
  show (fun a b : EReal => a + b) (W2 m ρ c (Proc.devRef .tc main_v1_1) (ix3 0 0 0))
    (W2 m ρ c (Proc.devRef .tc main_v1_1) (ix3 1 0 0)) = _
  rw [h0, h1]
  rfl

theorem W3_S : (W3 m ρ c (Proc.devRef .tc main_v25) : Cert.Spec.Mat 2048 2048) = Cert.Spec.Sk (Z m c) := by
  funext j
  obtain ⟨p, q, rfl⟩ : ∃ (p q : Fin 2048), j = ix2 p q := ⟨j 0, j 1, eq_ix2 j⟩
  refine (KH.h1_S (W2 m ρ c) p q).trans ?_
  rw [W3_nsum]
  have g0 := W2_gram m ρ c (ix3 0 p q)
  have g1 := W2_gram m ρ c (ix3 1 p q)
  show (fun a b : EReal => (a + b) * FloatOps.hostDivf (F := Ideal) (φ := .f32) Cert.Spec.one (Cert.Spec.nk (Z m c))
      + Cert.Spec.eps * Cert.Spec.eye (ix2 p q))
    (W2 m ρ c (Proc.devRef .tc main_v1_0) (ix3 0 p q)) (W2 m ρ c (Proc.devRef .tc main_v1_0) (ix3 1 p q)) = _
  rw [g0, g1]
  rfl

theorem W3_sc : (W3 m ρ c (Proc.devRef .tc main_v13) ix0 : EReal) = Cert.Spec.sc (Z m c) := by
  refine (KH.h1_sc (W2 m ρ c)).trans ?_
  rw [W3_nsum]
  rfl

theorem W3_Z : W3 m ρ c (Proc.devRef .tc main_v0) = Z m c :=
  (KH.h1_keep_v0 (W2 m ρ c)).trans (W2_Z m ρ c)

/-! ## Newton-Schulz region 1 -/

theorem in1_B : (V3 m ρ c main_v19 : Cert.Spec.Mat 2048 2048) = B m c 0 := KH.h1_eye (W2 m ρ c)
theorem in1_Bb (j : S2048x2048.Idx) : V3 m ρ c main_v26 j = V3 m ρ c main_v19 j :=
  (KH.h1_eye_bf (W2 m ρ c) j).trans (congrFun (KH.h1_eye (W2 m ρ c)) j).symm
theorem in1_S : (V3 m ρ c main_v25 : Cert.Spec.Mat 2048 2048) = Cert.Spec.Sk (Z m c) := W3_S m ρ c
/-- The region's f32 result: the next iterate. -/
theorem out1_f32 (i : S2048x2048.Idx) : (W4 m ρ c (Proc.devRef .tc main_v27_0) i : EReal) = B m c 1 i := by
  have h := NS1.final_f32 (V3 m ρ) c (in1_Bb m ρ c) i
  rw [in1_B m ρ c, in1_S m ρ c] at h
  exact (congrFun (W4_arr m ρ c 3) i).trans h
/-- Its copy in the narrower format holds the same extended reals. -/
theorem out1_bf16 (i : S2048x2048.Idx) : (W4 m ρ c (Proc.devRef .tc main_v27_1) i : EReal) = B m c 1 i := by
  have h := NS1.final_bf16 (V3 m ρ) c (in1_Bb m ρ c) i
  rw [in1_B m ρ c, in1_S m ρ c] at h
  exact (congrFun (W4_arr m ρ c 4) i).trans h
/-- S is only read by the region; the scale and Z are not touched. -/
theorem keep1_S : W4 m ρ c (Proc.devRef .tc main_v25) = W3 m ρ c (Proc.devRef .tc main_v25) :=
  (W4_arr m ρ c 2).trans (((dat1 (V3 m ρ) c).arrAt_in 2 rfl _).trans (A_eq1 (V3 m ρ) c 2))
theorem keep1_sc : W4 m ρ c (Proc.devRef .tc main_v13) = W3 m ρ c (Proc.devRef .tc main_v13) :=
  W4_of_ne m ρ c main_v13 (by decide)
theorem keep1_Z : W4 m ρ c (Proc.devRef .tc main_v0) = W3 m ρ c (Proc.devRef .tc main_v0) :=
  W4_of_ne m ρ c main_v0 (by decide)

end Cert.KernelIdeal.KC

end
-- ==== Proof.RegionNS2.lean ====
/-
  REGION 2 of the kernel program: one Newton-Schulz step, B ↦ 1.5·B − 0.5·((B·B)·B)·S, as a value.

  The region's grid has eight points. Point t holds the whole of B (its bf16 copy), the whole of S, and row tile t
  of B in f32 (rows 256·t … 256·t + 255). On the extended reals the body computes, at row r and column j of the tile,
      1.5·B(256·t + r, j) − 0.5·∑ l, (∑ k, (∑ p, B(256·t + r, p)·B(p, k))·B(k, l))·S(l, j):
  three plain matrix products into zero accumulators, each a sum along the contracted axis, the format changes between
  them being the identity. That is entry (256·t + r, j) of `Cert.Spec.nsStep B S`, provided the bf16 copy of B holds
  the same extended reals as B. Every point writes its row tile back and the eight row tiles cover the 2048 rows, so
  both result arrays, the f32 one and its bf16 copy, end holding `nsStep B S`.
-/
import proofs.«407192_j12421045420976_3_alg».proof.Proof.Gen.KernelIdeal.Frame
import proofs.«407192_j12421045420976_3_alg».proof.Proof.Spec
import proofs.«407192_j12421045420976_3_alg».proof.Proof.LibPlainMatmul
import Idealize.ShloMosaic.Lib.Pipeline.Value
import Idealize.ShloMosaic.Lib.ValueIdx

set_option maxRecDepth 16384

noncomputable section

open scoped BigOperators

namespace Cert.KernelIdeal.NS2

open Idealize.ShloMosaic Idealize.ShloMosaic.TcCoe Idealize.SL.Sem Cert.KernelIdeal Cert.KernelIdeal.Gen
open Idealize.ShloMosaic.ValueIdx
open Idealize.ShloMosaic.Pipeline (Dat)

/-- The product's dimension numbers are the plain ones: rows times contraction by contraction times columns. -/
theorem dot_plain : dot_S256x2048_S2048x2048_S256x2048_1_0_0_1_n_n = DotDims.plain 256 2048 2048 := rfl

/-- One product of the body into the zero accumulator, at (a, j): the sum over the contracted axis. -/
theorem mm_apply {φ₁ φ₂ : FTy} (l : FVec Ideal S256x2048 φ₁) (r : FVec Ideal S2048x2048 φ₂) (a : Fin 256) (j : Fin 2048) :
    FloatOps.matmul dot_S256x2048_S2048x2048_S256x2048_1_0_0_1_n_n none l r (constant S256x2048 .f32 0x00000000#32) (ix2 a j)
      = ∑ k : Fin 2048, l (ix2 a k) * r (ix2 k j) := by
  rw [dot_plain]
  exact Cert.Lib.matmul_plain_zero_apply 256 2048 2048 none l r (ix2 a j)

/-- The body's f32 result at (r, j): 1.5 times the row tile's entry minus 0.5 times the triple product's entry. -/
theorem pay1_apply (v0 v2 : Vec Ideal S2048x2048 .bf16) (v4 : Vec Ideal S256x2048 .f32) (r : Fin 256) (j : Fin 2048) :
    k2_pay1 (F := Ideal) v0 v2 v4 (ix2 r j)
      = Cert.Spec.c15 * v4 (ix2 r j)
        - Cert.Spec.c05 * ∑ l : Fin 2048, (∑ k : Fin 2048, (∑ p : Fin 2048, v4 (ix2 r p) * v0 (ix2 p k)) * v0 (ix2 k l)) * v2 (ix2 l j) := by
  unfold k2_pay1
  simp only [matmul, shapeCast_self]
  rw [subf_apply, mulf_apply, mulf_apply, broadcast_apply, broadcast_apply, mm_apply]
  simp only [truncf_apply, mm_apply]
  rfl

variable (V : (c : Dev nD) → (b : Ref sig .tc) → Buf (Elt Ideal) ((c : Thread nD τ).loc b))

/-- On a row of a tile: when the tile's row r is row i0 of B, and the bf16 copy of B holds B's values, the body's
    result at (r, j) is the Newton-Schulz step's entry at (i0, j): the three nested sums are the three products. -/
theorem pay1_nsStep (Bb Sb : Vec Ideal S2048x2048 .bf16) (Bf : Vec Ideal S2048x2048 .f32) (hB : ∀ j : S2048x2048.Idx, Bb j = Bf j)
    (v4 : Vec Ideal S256x2048 .f32) (i0 : Fin 2048) (r : Fin 256)
    (h4 : ∀ p : Fin 2048, v4 (ix2 r p) = Bf (ix2 i0 p)) (j : Fin 2048) :
    k2_pay1 (F := Ideal) Bb Sb v4 (ix2 r j) = Cert.Spec.nsStep Bf Sb (ix2 i0 j) := by
  obtain rfl : Bb = Bf := funext hB
  rw [pay1_apply]
  show _ = Cert.Spec.c15 * Bb (ix2 i0 j)
    - Cert.Spec.c05 * ∑ l : Fin 2048, (∑ k : Fin 2048, (∑ p : Fin 2048, Bb (ix2 i0 p) * Bb (ix2 p k)) * Bb (ix2 k l)) * Sb (ix2 l j)
  simp only [h4]

theorem hz : (![0, 0] : Fin 2 → Nat) = fun _ => 0 := funext fun a => by fin_cases a <;> rfl

/-- The index maps, decided over the eight points: the whole-array windows sit at block (0, 0), the row-tile windows
    at row block t. -/
theorem idx_facts : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at any point is the whole bf16 copy of B. -/
theorem iblk_B (c : Dev nD) (t : Fin cfg2.N) :
    (iblk2 (F := Ideal) V c 0 t : Vec Ideal S2048x2048 .bf16) = (V c main_v27_1 : Vec Ideal S2048x2048 .bf16) := by
  obtain ⟨e0, e1, -⟩ := idx_facts t
  funext x
  unfold iblk2
  rw [View.read_apply]
  show V c main_v27_1 _ = V c main_v27_1 _
  congr 1
  funext a
  apply Fin.ext
  match a with
  | ⟨0, _⟩ => show win2_0.index t (0 : Fin 2) * 2048 + 1 * (x 0).val = (x 0).val; rw [e0]; omega
  | ⟨1, _⟩ => show win2_0.index t (1 : Fin 2) * 2048 + 1 * (x 1).val = (x 1).val; rw [e1]; omega

/-- Window 2's block at any point is the whole of S. -/
theorem iblk_S (c : Dev nD) (t : Fin cfg2.N) :
    (iblk2 (F := Ideal) V c 2 t : Vec Ideal S2048x2048 .bf16) = (V c main_v25 : Vec Ideal S2048x2048 .bf16) := by
  obtain ⟨-, -, -, -, e0, e1, -⟩ := idx_facts t
  funext x
  unfold iblk2
  rw [View.read_apply]
  show V c main_v25 _ = V c main_v25 _
  congr 1
  funext a
  apply Fin.ext
  match a with
  | ⟨0, _⟩ => show win2_2.index t (0 : Fin 2) * 2048 + 1 * (x 0).val = (x 0).val; rw [e0]; omega
  | ⟨1, _⟩ => show win2_2.index t (1 : Fin 2) * 2048 + 1 * (x 1).val = (x 1).val; rw [e1]; omega

/-- Window 1's block at point t is rows 256·t … 256·t + 255 of B. -/
theorem iblk_rows (c : Dev nD) (t : Fin cfg2.N) (r : Fin 256) (p : Fin 2048) (i0 : Fin 2048) (hi0 : i0.val = 256 * t.val + r.val) :
    (iblk2 (F := Ideal) V c 1 t : Vec Ideal S256x2048 .f32) (ix2 r p) = (V c main_v27_0 : Vec Ideal S2048x2048 .f32) (ix2 i0 p) := by
  obtain ⟨-, -, e0, e1, -⟩ := idx_facts t
  unfold iblk2
  rw [View.read_apply]
  show V c main_v27_0 _ = V c main_v27_0 _
  congr 1
  funext a
  apply Fin.ext
  match a with
  | ⟨0, _⟩ => show win2_1.index t (0 : Fin 2) * 256 + 1 * r.val = i0.val; rw [e0, hi0]; omega
  | ⟨1, _⟩ => show win2_1.index t (1 : Fin 2) * 2048 + 1 * p.val = p.val; rw [e1]; omega

/-- The body's result on the tile of point t, at (r, j), is the step's entry at (256·t + r, j). -/
theorem tile_value (c : Dev nD) (hB : ∀ j : S2048x2048.Idx, V c main_v27_1 j = V c main_v27_0 j) (t : Fin cfg2.N)
    (r : Fin 256) (j : Fin 2048) (i0 : Fin 2048) (hi0 : i0.val = 256 * t.val + r.val) :
    k2_pay1 (F := Ideal) (iblk2 V c 0 t) (iblk2 V c 2 t) (iblk2 V c 1 t) (ix2 r j)
      = Cert.Spec.nsStep (V c main_v27_0) (V c main_v25) (ix2 i0 j) := by
  rw [iblk_B V c t, iblk_S V c t]
  exact pay1_nsStep (V c main_v27_1) (V c main_v25) (V c main_v27_0) hB (iblk2 V c 1 t) i0 r
    (fun p => iblk_rows V c t r p i0 hi0) j

/-- There are eight points. -/
theorem point_lt (t : Fin cfg2.N) : t.val < 8 := Nat.lt_of_lt_of_eq t.isLt N_2

/-- What point t writes back through window 3 is block t of the step's result. -/
theorem flushed3_eq (c : Dev nD) (hB : ∀ j : S2048x2048.Idx, V c main_v27_1 j = V c main_v27_0 j) (t : Fin cfg2.N) :
    (dat2 (F := Ideal) V c).flushed 3 t
      = ((cfg2.win 3).blk t).view.read (Elt Ideal) (Cert.Spec.nsStep (V c main_v27_0) (V c main_v25)) := by
  show (cfg2.win 3).cut (grid2.coords t) ((dat2 V c).after 3 t) = _
  rw [after2_3]
  unfold out2_3
  rw [View.canon_unit_zero hz]
  simp only [View.ld_unit_zero (S := S2048x2048) hz, View.ld_unit_zero (S := S256x2048) hz]
  funext y
  obtain ⟨-, -, -, -, -, -, e0, e1, -⟩ := idx_facts t
  have hy0 : (y 0).val < 256 := (y 0).isLt
  have hy1 : (y 1).val < 2048 := (y 1).isLt
  have ht := point_lt t
  have hx : (win2 3).xinj (grid2.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k2_pay1 (F := Ideal) (iblk2 V c 0 t) (iblk2 V c 2 t) (iblk2 V c 1 t)) hx) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v27_0) (V c main_v25)) (funext fun a => Fin.ext ?_)
  match a with
  | ⟨0, _⟩ => show 256 * t.val + (y 0).val = win2_3.index t (0 : Fin 2) * 256 + 1 * (y 0).val; rw [e0]; omega
  | ⟨1, _⟩ => show (y 1).val = win2_3.index t (1 : Fin 2) * 2048 + 1 * (y 1).val; rw [e1]; omega

/-- An index of the array is in point t's block of window 3 iff each coordinate is in the block's range on its axis. -/
theorem mem_blk3 (t : Fin cfg2.N) (i : S2048x2048.Idx) :
    i ∈ ((cfg2.win 3).blk t).view.set ↔ ∀ a : Fin 2, win2_3.index t a * S256x2048.size a ≤ (i a).val ∧ (i a).val < win2_3.index t a * S256x2048.size a + S256x2048.size a := by
  show i ∈ ((View.whole main_v28_0).slice (win2_3.rect t)).set ↔ _
  rw [View.set_slice_whole, Rect.mem_set_unit]
  exact Iff.rfl

/-- Row i lies in the block of point i / 256: the eight row tiles cover the array. -/
theorem cover3 (i : S2048x2048.Idx) :
    ∃ t : Fin cfg2.N, (cfg2.win 3).flush t = true ∧ i ∈ ((cfg2.win 3).blk t).view.set := by
  have hi0 : (i 0).val < 2048 := (i 0).isLt
  have hi1 : (i 1).val < 2048 := (i 1).isLt
  refine ⟨⟨(i 0).val / 256, by rw [show cfg2.N = 8 from N_2]; omega⟩, flush2_3 _, ?_⟩
  obtain ⟨-, -, -, -, -, -, e0, e1, -⟩ := idx_facts ⟨(i 0).val / 256, by rw [show cfg2.N = 8 from N_2]; omega⟩
  rw [mem_blk3]
  intro a
  match a with
  | ⟨0, _⟩ =>
    show win2_3.index _ (0 : Fin 2) * 256 ≤ (i 0).val ∧ (i 0).val < win2_3.index _ (0 : Fin 2) * 256 + 256
    rw [e0]; show (i 0).val / 256 * 256 ≤ (i 0).val ∧ (i 0).val < (i 0).val / 256 * 256 + 256; omega
  | ⟨1, _⟩ =>
    show win2_3.index _ (1 : Fin 2) * 2048 ≤ (i 1).val ∧ (i 1).val < win2_3.index _ (1 : Fin 2) * 2048 + 2048
    rw [e1]; omega

/-- The f32 result array after the region: the Newton-Schulz step of the entry arrays, index by index. -/
theorem final_f32 (c : Dev nD) (hB : ∀ j : S2048x2048.Idx, V c main_v27_1 j = V c main_v27_0 j) (i : S2048x2048.Idx) :
    (dat2 (F := Ideal) V c).arrAt 3 cfg2.N i = Cert.Spec.nsStep (V c main_v27_0) (V c main_v25) i :=
  congrFun ((dat2 (F := Ideal) V c).arrAt_eq_of_cover 3 (Cert.Spec.nsStep (V c main_v27_0) (V c main_v25))
    (fun t _ => flushed3_eq V c hB t) cover3) i

/-- What point t writes back through window 4, the bf16 copy, is block t of the same function: the format change
    is the identity on the extended reals. -/
theorem flushed4_eq (c : Dev nD) (hB : ∀ j : S2048x2048.Idx, V c main_v27_1 j = V c main_v27_0 j) (t : Fin cfg2.N) :
    (dat2 (F := Ideal) V c).flushed 4 t
      = ((cfg2.win 4).blk t).view.read (Elt Ideal) (Cert.Spec.nsStep (V c main_v27_0) (V c main_v25)) := by
  show (cfg2.win 4).cut (grid2.coords t) ((dat2 V c).after 4 t) = _
  rw [after2_4]
  unfold out2_4
  rw [View.canon_unit_zero hz]
  simp only [View.ld_unit_zero (S := S2048x2048) hz, View.ld_unit_zero (S := S256x2048) hz]
  funext y
  obtain ⟨-, -, -, -, -, -, -, -, e0, e1⟩ := idx_facts t
  have hy0 : (y 0).val < 256 := (y 0).isLt
  have hy1 : (y 1).val < 2048 := (y 1).isLt
  have ht := point_lt t
  have hx : (win2 4).xinj (grid2.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k2_pay2 (F := Ideal) (iblk2 V c 0 t) (iblk2 V c 2 t) (iblk2 V c 1 t)) hx) ?_
  refine Eq.trans (truncf_apply (k2_pay1 (F := Ideal) (iblk2 V c 0 t) (iblk2 V c 2 t) (iblk2 V c 1 t)) bitsLt_bf16_f32 _) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v27_0) (V c main_v25)) (funext fun a => Fin.ext ?_)
  match a with
  | ⟨0, _⟩ => show 256 * t.val + (y 0).val = win2_4.index t (0 : Fin 2) * 256 + 1 * (y 0).val; rw [e0]; omega
  | ⟨1, _⟩ => show (y 1).val = win2_4.index t (1 : Fin 2) * 2048 + 1 * (y 1).val; rw [e1]; omega

/-- An index of the array is in point t's block of window 4 iff each coordinate is in the block's range on its axis. -/
theorem mem_blk4 (t : Fin cfg2.N) (i : S2048x2048.Idx) :
    i ∈ ((cfg2.win 4).blk t).view.set ↔ ∀ a : Fin 2, win2_4.index t a * S256x2048.size a ≤ (i a).val ∧ (i a).val < win2_4.index t a * S256x2048.size a + S256x2048.size a := by
  show i ∈ ((View.whole main_v28_1).slice (win2_4.rect t)).set ↔ _
  rw [View.set_slice_whole, Rect.mem_set_unit]
  exact Iff.rfl

/-- Row i lies in the block of point i / 256: the eight row tiles cover the bf16 array too. -/
theorem cover4 (i : S2048x2048.Idx) :
    ∃ t : Fin cfg2.N, (cfg2.win 4).flush t = true ∧ i ∈ ((cfg2.win 4).blk t).view.set := by
  have hi0 : (i 0).val < 2048 := (i 0).isLt
  have hi1 : (i 1).val < 2048 := (i 1).isLt
  refine ⟨⟨(i 0).val / 256, by rw [show cfg2.N = 8 from N_2]; omega⟩, flush2_4 _, ?_⟩
  obtain ⟨-, -, -, -, -, -, -, -, e0, e1⟩ := idx_facts ⟨(i 0).val / 256, by rw [show cfg2.N = 8 from N_2]; omega⟩
  rw [mem_blk4]
  intro a
  match a with
  | ⟨0, _⟩ =>
    show win2_4.index _ (0 : Fin 2) * 256 ≤ (i 0).val ∧ (i 0).val < win2_4.index _ (0 : Fin 2) * 256 + 256
    rw [e0]; show (i 0).val / 256 * 256 ≤ (i 0).val ∧ (i 0).val < (i 0).val / 256 * 256 + 256; omega
  | ⟨1, _⟩ =>
    show win2_4.index _ (1 : Fin 2) * 2048 ≤ (i 1).val ∧ (i 1).val < win2_4.index _ (1 : Fin 2) * 2048 + 2048
    rw [e1]; omega

/-- The bf16 result array after the region holds the same extended reals. -/
theorem final_bf16 (c : Dev nD) (hB : ∀ j : S2048x2048.Idx, V c main_v27_1 j = V c main_v27_0 j) (i : S2048x2048.Idx) :
    (dat2 (F := Ideal) V c).arrAt 4 cfg2.N i = Cert.Spec.nsStep (V c main_v27_0) (V c main_v25) i :=
  congrFun ((dat2 (F := Ideal) V c).arrAt_eq_of_cover 4 (Cert.Spec.nsStep (V c main_v27_0) (V c main_v25))
    (fun t _ => flushed4_eq V c hB t) cover4) i

end Cert.KernelIdeal.NS2

end
-- ==== Proof.KChainN2.lean ====
/-
  The second Newton-Schulz region: it finds the first iterate in both float formats and S, and leaves the second
  iterate in both formats; S is only read; the scale and Z are not touched.
-/
import proofs.«407192_j12421045420976_3_alg».proof.Proof.KChain0
import proofs.«407192_j12421045420976_3_alg».proof.Proof.RegionNS2

set_option maxRecDepth 16384

noncomputable section

namespace Cert.KernelIdeal.KC

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## Newton-Schulz region 2 -/

theorem in2_B : (V4 m ρ c main_v27_0 : Cert.Spec.Mat 2048 2048) = B m c 1 := funext (out1_f32 m ρ c)
theorem in2_Bb (j : S2048x2048.Idx) : V4 m ρ c main_v27_1 j = V4 m ρ c main_v27_0 j :=
  (out1_bf16 m ρ c j).trans (out1_f32 m ρ c j).symm
theorem in2_S : (V4 m ρ c main_v25 : Cert.Spec.Mat 2048 2048) = Cert.Spec.Sk (Z m c) := (keep1_S m ρ c).trans (in1_S m ρ c)
/-- The region's f32 result: the next iterate. -/
theorem out2_f32 (i : S2048x2048.Idx) : (W5 m ρ c (Proc.devRef .tc main_v28_0) i : EReal) = B m c 2 i := by
  have h := NS2.final_f32 (V4 m ρ) c (in2_Bb m ρ c) i
  rw [in2_B m ρ c, in2_S m ρ c] at h
  exact (congrFun (W5_arr m ρ c 3) i).trans h
/-- Its copy in the narrower format holds the same extended reals. -/
theorem out2_bf16 (i : S2048x2048.Idx) : (W5 m ρ c (Proc.devRef .tc main_v28_1) i : EReal) = B m c 2 i := by
  have h := NS2.final_bf16 (V4 m ρ) c (in2_Bb m ρ c) i
  rw [in2_B m ρ c, in2_S m ρ c] at h
  exact (congrFun (W5_arr m ρ c 4) i).trans h
/-- S is only read by the region; the scale and Z are not touched. -/
theorem keep2_S : W5 m ρ c (Proc.devRef .tc main_v25) = W4 m ρ c (Proc.devRef .tc main_v25) :=
  (W5_arr m ρ c 2).trans (((dat2 (V4 m ρ) c).arrAt_in 2 rfl _).trans (A_eq2 (V4 m ρ) c 2))
theorem keep2_sc : W5 m ρ c (Proc.devRef .tc main_v13) = W4 m ρ c (Proc.devRef .tc main_v13) :=
  W5_of_ne m ρ c main_v13 (by decide)
theorem keep2_Z : W5 m ρ c (Proc.devRef .tc main_v0) = W4 m ρ c (Proc.devRef .tc main_v0) :=
  W5_of_ne m ρ c main_v0 (by decide)

end Cert.KernelIdeal.KC

end
-- ==== Proof.RegionNS3.lean ====
/-
  REGION 3 of the kernel program: one Newton-Schulz step, B ↦ 1.5·B − 0.5·((B·B)·B)·S, as a value.

  The region's grid has eight points. Point t holds the whole of B (its bf16 copy), the whole of S, and row tile t
  of B in f32 (rows 256·t … 256·t + 255). On the extended reals the body computes, at row r and column j of the tile,
      1.5·B(256·t + r, j) − 0.5·∑ l, (∑ k, (∑ p, B(256·t + r, p)·B(p, k))·B(k, l))·S(l, j):
  three plain matrix products into zero accumulators, each a sum along the contracted axis, the format changes between
  them being the identity. That is entry (256·t + r, j) of `Cert.Spec.nsStep B S`, provided the bf16 copy of B holds
  the same extended reals as B. Every point writes its row tile back and the eight row tiles cover the 2048 rows, so
  both result arrays, the f32 one and its bf16 copy, end holding `nsStep B S`.
-/
import proofs.«407192_j12421045420976_3_alg».proof.Proof.Gen.KernelIdeal.Frame
import proofs.«407192_j12421045420976_3_alg».proof.Proof.Spec
import proofs.«407192_j12421045420976_3_alg».proof.Proof.LibPlainMatmul
import Idealize.ShloMosaic.Lib.Pipeline.Value
import Idealize.ShloMosaic.Lib.ValueIdx

set_option maxRecDepth 16384

noncomputable section

open scoped BigOperators

namespace Cert.KernelIdeal.NS3

open Idealize.ShloMosaic Idealize.ShloMosaic.TcCoe Idealize.SL.Sem Cert.KernelIdeal Cert.KernelIdeal.Gen
open Idealize.ShloMosaic.ValueIdx
open Idealize.ShloMosaic.Pipeline (Dat)

/-- The product's dimension numbers are the plain ones: rows times contraction by contraction times columns. -/
theorem dot_plain : dot_S256x2048_S2048x2048_S256x2048_1_0_0_1_n_n = DotDims.plain 256 2048 2048 := rfl

/-- One product of the body into the zero accumulator, at (a, j): the sum over the contracted axis. -/
theorem mm_apply {φ₁ φ₂ : FTy} (l : FVec Ideal S256x2048 φ₁) (r : FVec Ideal S2048x2048 φ₂) (a : Fin 256) (j : Fin 2048) :
    FloatOps.matmul dot_S256x2048_S2048x2048_S256x2048_1_0_0_1_n_n none l r (constant S256x2048 .f32 0x00000000#32) (ix2 a j)
      = ∑ k : Fin 2048, l (ix2 a k) * r (ix2 k j) := by
  rw [dot_plain]
  exact Cert.Lib.matmul_plain_zero_apply 256 2048 2048 none l r (ix2 a j)

/-- The body's f32 result at (r, j): 1.5 times the row tile's entry minus 0.5 times the triple product's entry. -/
theorem pay1_apply (v0 v2 : Vec Ideal S2048x2048 .bf16) (v4 : Vec Ideal S256x2048 .f32) (r : Fin 256) (j : Fin 2048) :
    k3_pay1 (F := Ideal) v0 v2 v4 (ix2 r j)
      = Cert.Spec.c15 * v4 (ix2 r j)
        - Cert.Spec.c05 * ∑ l : Fin 2048, (∑ k : Fin 2048, (∑ p : Fin 2048, v4 (ix2 r p) * v0 (ix2 p k)) * v0 (ix2 k l)) * v2 (ix2 l j) := by
  unfold k3_pay1
  simp only [matmul, shapeCast_self]
  rw [subf_apply, mulf_apply, mulf_apply, broadcast_apply, broadcast_apply, mm_apply]
  simp only [truncf_apply, mm_apply]
  rfl

variable (V : (c : Dev nD) → (b : Ref sig .tc) → Buf (Elt Ideal) ((c : Thread nD τ).loc b))

/-- On a row of a tile: when the tile's row r is row i0 of B, and the bf16 copy of B holds B's values, the body's
    result at (r, j) is the Newton-Schulz step's entry at (i0, j): the three nested sums are the three products. -/
theorem pay1_nsStep (Bb Sb : Vec Ideal S2048x2048 .bf16) (Bf : Vec Ideal S2048x2048 .f32) (hB : ∀ j : S2048x2048.Idx, Bb j = Bf j)
    (v4 : Vec Ideal S256x2048 .f32) (i0 : Fin 2048) (r : Fin 256)
    (h4 : ∀ p : Fin 2048, v4 (ix2 r p) = Bf (ix2 i0 p)) (j : Fin 2048) :
    k3_pay1 (F := Ideal) Bb Sb v4 (ix2 r j) = Cert.Spec.nsStep Bf Sb (ix2 i0 j) := by
  obtain rfl : Bb = Bf := funext hB
  rw [pay1_apply]
  show _ = Cert.Spec.c15 * Bb (ix2 i0 j)
    - Cert.Spec.c05 * ∑ l : Fin 2048, (∑ k : Fin 2048, (∑ p : Fin 2048, Bb (ix2 i0 p) * Bb (ix2 p k)) * Bb (ix2 k l)) * Sb (ix2 l j)
  simp only [h4]

theorem hz : (![0, 0] : Fin 2 → Nat) = fun _ => 0 := funext fun a => by fin_cases a <;> rfl

/-- The index maps, decided over the eight points: the whole-array windows sit at block (0, 0), the row-tile windows
    at row block t. -/
theorem idx_facts : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Window 0's block at any point is the whole bf16 copy of B. -/
theorem iblk_B (c : Dev nD) (t : Fin cfg3.N) :
    (iblk3 (F := Ideal) V c 0 t : Vec Ideal S2048x2048 .bf16) = (V c main_v28_1 : Vec Ideal S2048x2048 .bf16) := by
  obtain ⟨e0, e1, -⟩ := idx_facts t
  funext x
  unfold iblk3
  rw [View.read_apply]
  show V c main_v28_1 _ = V c main_v28_1 _
  congr 1
  funext a
  apply Fin.ext
  match a with
  | ⟨0, _⟩ => show win3_0.index t (0 : Fin 2) * 2048 + 1 * (x 0).val = (x 0).val; rw [e0]; omega
  | ⟨1, _⟩ => show win3_0.index t (1 : Fin 2) * 2048 + 1 * (x 1).val = (x 1).val; rw [e1]; omega

/-- Window 2's block at any point is the whole of S. -/
theorem iblk_S (c : Dev nD) (t : Fin cfg3.N) :
    (iblk3 (F := Ideal) V c 2 t : Vec Ideal S2048x2048 .bf16) = (V c main_v25 : Vec Ideal S2048x2048 .bf16) := by
  obtain ⟨-, -, -, -, e0, e1, -⟩ := idx_facts t
  funext x
  unfold iblk3
  rw [View.read_apply]
  show V c main_v25 _ = V c main_v25 _
  congr 1
  funext a
  apply Fin.ext
  match a with
  | ⟨0, _⟩ => show win3_2.index t (0 : Fin 2) * 2048 + 1 * (x 0).val = (x 0).val; rw [e0]; omega
  | ⟨1, _⟩ => show win3_2.index t (1 : Fin 2) * 2048 + 1 * (x 1).val = (x 1).val; rw [e1]; omega

/-- Window 1's block at point t is rows 256·t … 256·t + 255 of B. -/
theorem iblk_rows (c : Dev nD) (t : Fin cfg3.N) (r : Fin 256) (p : Fin 2048) (i0 : Fin 2048) (hi0 : i0.val = 256 * t.val + r.val) :
    (iblk3 (F := Ideal) V c 1 t : Vec Ideal S256x2048 .f32) (ix2 r p) = (V c main_v28_0 : Vec Ideal S2048x2048 .f32) (ix2 i0 p) := by
  obtain ⟨-, -, e0, e1, -⟩ := idx_facts t
  unfold iblk3
  rw [View.read_apply]
  show V c main_v28_0 _ = V c main_v28_0 _
  congr 1
  funext a
  apply Fin.ext
  match a with
  | ⟨0, _⟩ => show win3_1.index t (0 : Fin 2) * 256 + 1 * r.val = i0.val; rw [e0, hi0]; omega
  | ⟨1, _⟩ => show win3_1.index t (1 : Fin 2) * 2048 + 1 * p.val = p.val; rw [e1]; omega

/-- The body's result on the tile of point t, at (r, j), is the step's entry at (256·t + r, j). -/
theorem tile_value (c : Dev nD) (hB : ∀ j : S2048x2048.Idx, V c main_v28_1 j = V c main_v28_0 j) (t : Fin cfg3.N)
    (r : Fin 256) (j : Fin 2048) (i0 : Fin 2048) (hi0 : i0.val = 256 * t.val + r.val) :
    k3_pay1 (F := Ideal) (iblk3 V c 0 t) (iblk3 V c 2 t) (iblk3 V c 1 t) (ix2 r j)
      = Cert.Spec.nsStep (V c main_v28_0) (V c main_v25) (ix2 i0 j) := by
  rw [iblk_B V c t, iblk_S V c t]
  exact pay1_nsStep (V c main_v28_1) (V c main_v25) (V c main_v28_0) hB (iblk3 V c 1 t) i0 r
    (fun p => iblk_rows V c t r p i0 hi0) j

/-- There are eight points. -/
theorem point_lt (t : Fin cfg3.N) : t.val < 8 := Nat.lt_of_lt_of_eq t.isLt N_3

/-- What point t writes back through window 3 is block t of the step's result. -/
theorem flushed3_eq (c : Dev nD) (hB : ∀ j : S2048x2048.Idx, V c main_v28_1 j = V c main_v28_0 j) (t : Fin cfg3.N) :
    (dat3 (F := Ideal) V c).flushed 3 t
      = ((cfg3.win 3).blk t).view.read (Elt Ideal) (Cert.Spec.nsStep (V c main_v28_0) (V c main_v25)) := by
  show (cfg3.win 3).cut (grid3.coords t) ((dat3 V c).after 3 t) = _
  rw [after3_3]
  unfold out3_3
  rw [View.canon_unit_zero hz]
  simp only [View.ld_unit_zero (S := S2048x2048) hz, View.ld_unit_zero (S := S256x2048) hz]
  funext y
  obtain ⟨-, -, -, -, -, -, e0, e1, -⟩ := idx_facts t
  have hy0 : (y 0).val < 256 := (y 0).isLt
  have hy1 : (y 1).val < 2048 := (y 1).isLt
  have ht := point_lt t
  have hx : (win3 3).xinj (grid3.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k3_pay1 (F := Ideal) (iblk3 V c 0 t) (iblk3 V c 2 t) (iblk3 V c 1 t)) hx) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v28_0) (V c main_v25)) (funext fun a => Fin.ext ?_)
  match a with
  | ⟨0, _⟩ => show 256 * t.val + (y 0).val = win3_3.index t (0 : Fin 2) * 256 + 1 * (y 0).val; rw [e0]; omega
  | ⟨1, _⟩ => show (y 1).val = win3_3.index t (1 : Fin 2) * 2048 + 1 * (y 1).val; rw [e1]; omega

/-- An index of the array is in point t's block of window 3 iff each coordinate is in the block's range on its axis. -/
theorem mem_blk3 (t : Fin cfg3.N) (i : S2048x2048.Idx) :
    i ∈ ((cfg3.win 3).blk t).view.set ↔ ∀ a : Fin 2, win3_3.index t a * S256x2048.size a ≤ (i a).val ∧ (i a).val < win3_3.index t a * S256x2048.size a + S256x2048.size a := by
  show i ∈ ((View.whole main_v29_0).slice (win3_3.rect t)).set ↔ _
  rw [View.set_slice_whole, Rect.mem_set_unit]
  exact Iff.rfl

/-- Row i lies in the block of point i / 256: the eight row tiles cover the array. -/
theorem cover3 (i : S2048x2048.Idx) :
    ∃ t : Fin cfg3.N, (cfg3.win 3).flush t = true ∧ i ∈ ((cfg3.win 3).blk t).view.set := by
  have hi0 : (i 0).val < 2048 := (i 0).isLt
  have hi1 : (i 1).val < 2048 := (i 1).isLt
  refine ⟨⟨(i 0).val / 256, by rw [show cfg3.N = 8 from N_3]; omega⟩, flush3_3 _, ?_⟩
  obtain ⟨-, -, -, -, -, -, e0, e1, -⟩ := idx_facts ⟨(i 0).val / 256, by rw [show cfg3.N = 8 from N_3]; omega⟩
  rw [mem_blk3]
  intro a
  match a with
  | ⟨0, _⟩ =>
    show win3_3.index _ (0 : Fin 2) * 256 ≤ (i 0).val ∧ (i 0).val < win3_3.index _ (0 : Fin 2) * 256 + 256
    rw [e0]; show (i 0).val / 256 * 256 ≤ (i 0).val ∧ (i 0).val < (i 0).val / 256 * 256 + 256; omega
  | ⟨1, _⟩ =>
    show win3_3.index _ (1 : Fin 2) * 2048 ≤ (i 1).val ∧ (i 1).val < win3_3.index _ (1 : Fin 2) * 2048 + 2048
    rw [e1]; omega

/-- The f32 result array after the region: the Newton-Schulz step of the entry arrays, index by index. -/
theorem final_f32 (c : Dev nD) (hB : ∀ j : S2048x2048.Idx, V c main_v28_1 j = V c main_v28_0 j) (i : S2048x2048.Idx) :
    (dat3 (F := Ideal) V c).arrAt 3 cfg3.N i = Cert.Spec.nsStep (V c main_v28_0) (V c main_v25) i :=
  congrFun ((dat3 (F := Ideal) V c).arrAt_eq_of_cover 3 (Cert.Spec.nsStep (V c main_v28_0) (V c main_v25))
    (fun t _ => flushed3_eq V c hB t) cover3) i

/-- What point t writes back through window 4, the bf16 copy, is block t of the same function: the format change
    is the identity on the extended reals. -/
theorem flushed4_eq (c : Dev nD) (hB : ∀ j : S2048x2048.Idx, V c main_v28_1 j = V c main_v28_0 j) (t : Fin cfg3.N) :
    (dat3 (F := Ideal) V c).flushed 4 t
      = ((cfg3.win 4).blk t).view.read (Elt Ideal) (Cert.Spec.nsStep (V c main_v28_0) (V c main_v25)) := by
  show (cfg3.win 4).cut (grid3.coords t) ((dat3 V c).after 4 t) = _
  rw [after3_4]
  unfold out3_4
  rw [View.canon_unit_zero hz]
  simp only [View.ld_unit_zero (S := S2048x2048) hz, View.ld_unit_zero (S := S256x2048) hz]
  funext y
  obtain ⟨-, -, -, -, -, -, -, -, e0, e1⟩ := idx_facts t
  have hy0 : (y 0).val < 256 := (y 0).isLt
  have hy1 : (y 1).val < 2048 := (y 1).isLt
  have ht := point_lt t
  have hx : (win3 4).xinj (grid3.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k3_pay2 (F := Ideal) (iblk3 V c 0 t) (iblk3 V c 2 t) (iblk3 V c 1 t)) hx) ?_
  refine Eq.trans (truncf_apply (k3_pay1 (F := Ideal) (iblk3 V c 0 t) (iblk3 V c 2 t) (iblk3 V c 1 t)) bitsLt_bf16_f32 _) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v28_0) (V c main_v25)) (funext fun a => Fin.ext ?_)
  match a with
  | ⟨0, _⟩ => show 256 * t.val + (y 0).val = win3_4.index t (0 : Fin 2) * 256 + 1 * (y 0).val; rw [e0]; omega
  | ⟨1, _⟩ => show (y 1).val = win3_4.index t (1 : Fin 2) * 2048 + 1 * (y 1).val; rw [e1]; omega

/-- An index of the array is in point t's block of window 4 iff each coordinate is in the block's range on its axis. -/
theorem mem_blk4 (t : Fin cfg3.N) (i : S2048x2048.Idx) :
    i ∈ ((cfg3.win 4).blk t).view.set ↔ ∀ a : Fin 2, win3_4.index t a * S256x2048.size a ≤ (i a).val ∧ (i a).val < win3_4.index t a * S256x2048.size a + S256x2048.size a := by
  show i ∈ ((View.whole main_v29_1).slice (win3_4.rect t)).set ↔ _
  rw [View.set_slice_whole, Rect.mem_set_unit]
  exact Iff.rfl

/-- Row i lies in the block of point i / 256: the eight row tiles cover the bf16 array too. -/
theorem cover4 (i : S2048x2048.Idx) :
    ∃ t : Fin cfg3.N, (cfg3.win 4).flush t = true ∧ i ∈ ((cfg3.win 4).blk t).view.set := by
  have hi0 : (i 0).val < 2048 := (i 0).isLt
  have hi1 : (i 1).val < 2048 := (i 1).isLt
  refine ⟨⟨(i 0).val / 256, by rw [show cfg3.N = 8 from N_3]; omega⟩, flush3_4 _, ?_⟩
  obtain ⟨-, -, -, -, -, -, -, -, e0, e1⟩ := idx_facts ⟨(i 0).val / 256, by rw [show cfg3.N = 8 from N_3]; omega⟩
  rw [mem_blk4]
  intro a
  match a with
  | ⟨0, _⟩ =>
    show win3_4.index _ (0 : Fin 2) * 256 ≤ (i 0).val ∧ (i 0).val < win3_4.index _ (0 : Fin 2) * 256 + 256
    rw [e0]; show (i 0).val / 256 * 256 ≤ (i 0).val ∧ (i 0).val < (i 0).val / 256 * 256 + 256; omega
  | ⟨1, _⟩ =>
    show win3_4.index _ (1 : Fin 2) * 2048 ≤ (i 1).val ∧ (i 1).val < win3_4.index _ (1 : Fin 2) * 2048 + 2048
    rw [e1]; omega

/-- The bf16 result array after the region holds the same extended reals. -/
theorem final_bf16 (c : Dev nD) (hB : ∀ j : S2048x2048.Idx, V c main_v28_1 j = V c main_v28_0 j) (i : S2048x2048.Idx) :
    (dat3 (F := Ideal) V c).arrAt 4 cfg3.N i = Cert.Spec.nsStep (V c main_v28_0) (V c main_v25) i :=
  congrFun ((dat3 (F := Ideal) V c).arrAt_eq_of_cover 4 (Cert.Spec.nsStep (V c main_v28_0) (V c main_v25))
    (fun t _ => flushed4_eq V c hB t) cover4) i

end Cert.KernelIdeal.NS3

end
-- ==== Proof.KChainN3.lean ====
/-
  The third Newton-Schulz region: it finds the second iterate in both float formats and S, and leaves the third
  iterate in both formats; S is only read; the scale and Z are not touched.
-/
import proofs.«407192_j12421045420976_3_alg».proof.Proof.KChainN2
import proofs.«407192_j12421045420976_3_alg».proof.Proof.RegionNS3

set_option maxRecDepth 16384

noncomputable section

namespace Cert.KernelIdeal.KC

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## Newton-Schulz region 3 -/

theorem in3_B : (V5 m ρ c main_v28_0 : Cert.Spec.Mat 2048 2048) = B m c 2 := funext (out2_f32 m ρ c)
theorem in3_Bb (j : S2048x2048.Idx) : V5 m ρ c main_v28_1 j = V5 m ρ c main_v28_0 j :=
  (out2_bf16 m ρ c j).trans (out2_f32 m ρ c j).symm
theorem in3_S : (V5 m ρ c main_v25 : Cert.Spec.Mat 2048 2048) = Cert.Spec.Sk (Z m c) := (keep2_S m ρ c).trans (in2_S m ρ c)
/-- The region's f32 result: the next iterate. -/
theorem out3_f32 (i : S2048x2048.Idx) : (W6 m ρ c (Proc.devRef .tc main_v29_0) i : EReal) = B m c 3 i := by
  have h := NS3.final_f32 (V5 m ρ) c (in3_Bb m ρ c) i
  rw [in3_B m ρ c, in3_S m ρ c] at h
  exact (congrFun (W6_arr m ρ c 3) i).trans h
/-- Its copy in the narrower format holds the same extended reals. -/
theorem out3_bf16 (i : S2048x2048.Idx) : (W6 m ρ c (Proc.devRef .tc main_v29_1) i : EReal) = B m c 3 i := by
  have h := NS3.final_bf16 (V5 m ρ) c (in3_Bb m ρ c) i
  rw [in3_B m ρ c, in3_S m ρ c] at h
  exact (congrFun (W6_arr m ρ c 4) i).trans h
/-- S is only read by the region; the scale and Z are not touched. -/
theorem keep3_S : W6 m ρ c (Proc.devRef .tc main_v25) = W5 m ρ c (Proc.devRef .tc main_v25) :=
  (W6_arr m ρ c 2).trans (((dat3 (V5 m ρ) c).arrAt_in 2 rfl _).trans (A_eq3 (V5 m ρ) c 2))
theorem keep3_sc : W6 m ρ c (Proc.devRef .tc main_v13) = W5 m ρ c (Proc.devRef .tc main_v13) :=
  W6_of_ne m ρ c main_v13 (by decide)
theorem keep3_Z : W6 m ρ c (Proc.devRef .tc main_v0) = W5 m ρ c (Proc.devRef .tc main_v0) :=
  W6_of_ne m ρ c main_v0 (by decide)

end Cert.KernelIdeal.KC

end
-- ==== Proof.RegionNS4.lean ====
/-
  REGION 4 of the kernel program: one Newton-Schulz step, B ↦ 1.5·B − 0.5·((B·B)·B)·S, as a value.

  The region's grid has eight points. Point t holds the whole of B (its bf16 copy), the whole of S, and row tile t
  of B in f32 (rows 256·t … 256·t + 255). On the extended reals the body computes, at row r and column j of the tile,
      1.5·B(256·t + r, j) − 0.5·∑ l, (∑ k, (∑ p, B(256·t + r, p)·B(p, k))·B(k, l))·S(l, j):
  three plain matrix products into zero accumulators, each a sum along the contracted axis, the format changes between
  them being the identity. That is entry (256·t + r, j) of `Cert.Spec.nsStep B S`, provided the bf16 copy of B holds
  the same extended reals as B. Every point writes its row tile back and the eight row tiles cover the 2048 rows, so
  both result arrays, the f32 one and its bf16 copy, end holding `nsStep B S`.
-/
import proofs.«407192_j12421045420976_3_alg».proof.Proof.Gen.KernelIdeal.Frame
import proofs.«407192_j12421045420976_3_alg».proof.Proof.Spec
import proofs.«407192_j12421045420976_3_alg».proof.Proof.LibPlainMatmul
import Idealize.ShloMosaic.Lib.Pipeline.Value
import Idealize.ShloMosaic.Lib.ValueIdx

set_option maxRecDepth 16384

noncomputable section

open scoped BigOperators

namespace Cert.KernelIdeal.NS4

open Idealize.ShloMosaic Idealize.ShloMosaic.TcCoe Idealize.SL.Sem Cert.KernelIdeal Cert.KernelIdeal.Gen
open Idealize.ShloMosaic.ValueIdx
open Idealize.ShloMosaic.Pipeline (Dat)

/-- The product's dimension numbers are the plain ones: rows times contraction by contraction times columns. -/
theorem dot_plain : dot_S256x2048_S2048x2048_S256x2048_1_0_0_1_n_n = DotDims.plain 256 2048 2048 := rfl

/-- One product of the body into the zero accumulator, at (a, j): the sum over the contracted axis. -/
theorem mm_apply {φ₁ φ₂ : FTy} (l : FVec Ideal S256x2048 φ₁) (r : FVec Ideal S2048x2048 φ₂) (a : Fin 256) (j : Fin 2048) :
    FloatOps.matmul dot_S256x2048_S2048x2048_S256x2048_1_0_0_1_n_n none l r (constant S256x2048 .f32 0x00000000#32) (ix2 a j)
      = ∑ k : Fin 2048, l (ix2 a k) * r (ix2 k j) := by
  rw [dot_plain]
  exact Cert.Lib.matmul_plain_zero_apply 256 2048 2048 none l r (ix2 a j)

/-- The body's f32 result at (r, j): 1.5 times the row tile's entry minus 0.5 times the triple product's entry. -/
theorem pay1_apply (v0 v2 : Vec Ideal S2048x2048 .bf16) (v4 : Vec Ideal S256x2048 .f32) (r : Fin 256) (j : Fin 2048) :
    k4_pay1 (F := Ideal) v0 v2 v4 (ix2 r j)
      = Cert.Spec.c15 * v4 (ix2 r j)
        - Cert.Spec.c05 * ∑ l : Fin 2048, (∑ k : Fin 2048, (∑ p : Fin 2048, v4 (ix2 r p) * v0 (ix2 p k)) * v0 (ix2 k l)) * v2 (ix2 l j) := by
  unfold k4_pay1
  simp only [matmul, shapeCast_self]
  rw [subf_apply, mulf_apply, mulf_apply, broadcast_apply, broadcast_apply, mm_apply]
  simp only [truncf_apply, mm_apply]
  rfl

variable (V : (c : Dev nD) → (b : Ref sig .tc) → Buf (Elt Ideal) ((c : Thread nD τ).loc b))

/-- On a row of a tile: when the tile's row r is row i0 of B, and the bf16 copy of B holds B's values, the body's
    result at (r, j) is the Newton-Schulz step's entry at (i0, j): the three nested sums are the three products. -/
theorem pay1_nsStep (Bb Sb : Vec Ideal S2048x2048 .bf16) (Bf : Vec Ideal S2048x2048 .f32) (hB : ∀ j : S2048x2048.Idx, Bb j = Bf j)
    (v4 : Vec Ideal S256x2048 .f32) (i0 : Fin 2048) (r : Fin 256)
    (h4 : ∀ p : Fin 2048, v4 (ix2 r p) = Bf (ix2 i0 p)) (j : Fin 2048) :
    k4_pay1 (F := Ideal) Bb Sb v4 (ix2 r j) = Cert.Spec.nsStep Bf Sb (ix2 i0 j) := by
  obtain rfl : Bb = Bf := funext hB
  rw [pay1_apply]
  show _ = Cert.Spec.c15 * Bb (ix2 i0 j)
    - Cert.Spec.c05 * ∑ l : Fin 2048, (∑ k : Fin 2048, (∑ p : Fin 2048, Bb (ix2 i0 p) * Bb (ix2 p k)) * Bb (ix2 k l)) * Sb (ix2 l j)
  simp only [h4]

theorem hz : (![0, 0] : Fin 2 → Nat) = fun _ => 0 := funext fun a => by fin_cases a <;> rfl

/-- The index maps, decided over the eight points: the whole-array windows sit at block (0, 0), the row-tile windows
    at row block t. -/
theorem idx_facts : ∀ t : Fin cfg4.N, win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Window 0's block at any point is the whole bf16 copy of B. -/
theorem iblk_B (c : Dev nD) (t : Fin cfg4.N) :
    (iblk4 (F := Ideal) V c 0 t : Vec Ideal S2048x2048 .bf16) = (V c main_v29_1 : Vec Ideal S2048x2048 .bf16) := by
  obtain ⟨e0, e1, -⟩ := idx_facts t
  funext x
  unfold iblk4
  rw [View.read_apply]
  show V c main_v29_1 _ = V c main_v29_1 _
  congr 1
  funext a
  apply Fin.ext
  match a with
  | ⟨0, _⟩ => show win4_0.index t (0 : Fin 2) * 2048 + 1 * (x 0).val = (x 0).val; rw [e0]; omega
  | ⟨1, _⟩ => show win4_0.index t (1 : Fin 2) * 2048 + 1 * (x 1).val = (x 1).val; rw [e1]; omega

/-- Window 2's block at any point is the whole of S. -/
theorem iblk_S (c : Dev nD) (t : Fin cfg4.N) :
    (iblk4 (F := Ideal) V c 2 t : Vec Ideal S2048x2048 .bf16) = (V c main_v25 : Vec Ideal S2048x2048 .bf16) := by
  obtain ⟨-, -, -, -, e0, e1, -⟩ := idx_facts t
  funext x
  unfold iblk4
  rw [View.read_apply]
  show V c main_v25 _ = V c main_v25 _
  congr 1
  funext a
  apply Fin.ext
  match a with
  | ⟨0, _⟩ => show win4_2.index t (0 : Fin 2) * 2048 + 1 * (x 0).val = (x 0).val; rw [e0]; omega
  | ⟨1, _⟩ => show win4_2.index t (1 : Fin 2) * 2048 + 1 * (x 1).val = (x 1).val; rw [e1]; omega

/-- Window 1's block at point t is rows 256·t … 256·t + 255 of B. -/
theorem iblk_rows (c : Dev nD) (t : Fin cfg4.N) (r : Fin 256) (p : Fin 2048) (i0 : Fin 2048) (hi0 : i0.val = 256 * t.val + r.val) :
    (iblk4 (F := Ideal) V c 1 t : Vec Ideal S256x2048 .f32) (ix2 r p) = (V c main_v29_0 : Vec Ideal S2048x2048 .f32) (ix2 i0 p) := by
  obtain ⟨-, -, e0, e1, -⟩ := idx_facts t
  unfold iblk4
  rw [View.read_apply]
  show V c main_v29_0 _ = V c main_v29_0 _
  congr 1
  funext a
  apply Fin.ext
  match a with
  | ⟨0, _⟩ => show win4_1.index t (0 : Fin 2) * 256 + 1 * r.val = i0.val; rw [e0, hi0]; omega
  | ⟨1, _⟩ => show win4_1.index t (1 : Fin 2) * 2048 + 1 * p.val = p.val; rw [e1]; omega

/-- The body's result on the tile of point t, at (r, j), is the step's entry at (256·t + r, j). -/
theorem tile_value (c : Dev nD) (hB : ∀ j : S2048x2048.Idx, V c main_v29_1 j = V c main_v29_0 j) (t : Fin cfg4.N)
    (r : Fin 256) (j : Fin 2048) (i0 : Fin 2048) (hi0 : i0.val = 256 * t.val + r.val) :
    k4_pay1 (F := Ideal) (iblk4 V c 0 t) (iblk4 V c 2 t) (iblk4 V c 1 t) (ix2 r j)
      = Cert.Spec.nsStep (V c main_v29_0) (V c main_v25) (ix2 i0 j) := by
  rw [iblk_B V c t, iblk_S V c t]
  exact pay1_nsStep (V c main_v29_1) (V c main_v25) (V c main_v29_0) hB (iblk4 V c 1 t) i0 r
    (fun p => iblk_rows V c t r p i0 hi0) j

/-- There are eight points. -/
theorem point_lt (t : Fin cfg4.N) : t.val < 8 := Nat.lt_of_lt_of_eq t.isLt N_4

/-- What point t writes back through window 3 is block t of the step's result. -/
theorem flushed3_eq (c : Dev nD) (hB : ∀ j : S2048x2048.Idx, V c main_v29_1 j = V c main_v29_0 j) (t : Fin cfg4.N) :
    (dat4 (F := Ideal) V c).flushed 3 t
      = ((cfg4.win 3).blk t).view.read (Elt Ideal) (Cert.Spec.nsStep (V c main_v29_0) (V c main_v25)) := by
  show (cfg4.win 3).cut (grid4.coords t) ((dat4 V c).after 3 t) = _
  rw [after4_3]
  unfold out4_3
  rw [View.canon_unit_zero hz]
  simp only [View.ld_unit_zero (S := S2048x2048) hz, View.ld_unit_zero (S := S256x2048) hz]
  funext y
  obtain ⟨-, -, -, -, -, -, e0, e1, -⟩ := idx_facts t
  have hy0 : (y 0).val < 256 := (y 0).isLt
  have hy1 : (y 1).val < 2048 := (y 1).isLt
  have ht := point_lt t
  have hx : (win4 3).xinj (grid4.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k4_pay1 (F := Ideal) (iblk4 V c 0 t) (iblk4 V c 2 t) (iblk4 V c 1 t)) hx) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v29_0) (V c main_v25)) (funext fun a => Fin.ext ?_)
  match a with
  | ⟨0, _⟩ => show 256 * t.val + (y 0).val = win4_3.index t (0 : Fin 2) * 256 + 1 * (y 0).val; rw [e0]; omega
  | ⟨1, _⟩ => show (y 1).val = win4_3.index t (1 : Fin 2) * 2048 + 1 * (y 1).val; rw [e1]; omega

/-- An index of the array is in point t's block of window 3 iff each coordinate is in the block's range on its axis. -/
theorem mem_blk3 (t : Fin cfg4.N) (i : S2048x2048.Idx) :
    i ∈ ((cfg4.win 3).blk t).view.set ↔ ∀ a : Fin 2, win4_3.index t a * S256x2048.size a ≤ (i a).val ∧ (i a).val < win4_3.index t a * S256x2048.size a + S256x2048.size a := by
  show i ∈ ((View.whole main_v30_0).slice (win4_3.rect t)).set ↔ _
  rw [View.set_slice_whole, Rect.mem_set_unit]
  exact Iff.rfl

/-- Row i lies in the block of point i / 256: the eight row tiles cover the array. -/
theorem cover3 (i : S2048x2048.Idx) :
    ∃ t : Fin cfg4.N, (cfg4.win 3).flush t = true ∧ i ∈ ((cfg4.win 3).blk t).view.set := by
  have hi0 : (i 0).val < 2048 := (i 0).isLt
  have hi1 : (i 1).val < 2048 := (i 1).isLt
  refine ⟨⟨(i 0).val / 256, by rw [show cfg4.N = 8 from N_4]; omega⟩, flush4_3 _, ?_⟩
  obtain ⟨-, -, -, -, -, -, e0, e1, -⟩ := idx_facts ⟨(i 0).val / 256, by rw [show cfg4.N = 8 from N_4]; omega⟩
  rw [mem_blk3]
  intro a
  match a with
  | ⟨0, _⟩ =>
    show win4_3.index _ (0 : Fin 2) * 256 ≤ (i 0).val ∧ (i 0).val < win4_3.index _ (0 : Fin 2) * 256 + 256
    rw [e0]; show (i 0).val / 256 * 256 ≤ (i 0).val ∧ (i 0).val < (i 0).val / 256 * 256 + 256; omega
  | ⟨1, _⟩ =>
    show win4_3.index _ (1 : Fin 2) * 2048 ≤ (i 1).val ∧ (i 1).val < win4_3.index _ (1 : Fin 2) * 2048 + 2048
    rw [e1]; omega

/-- The f32 result array after the region: the Newton-Schulz step of the entry arrays, index by index. -/
theorem final_f32 (c : Dev nD) (hB : ∀ j : S2048x2048.Idx, V c main_v29_1 j = V c main_v29_0 j) (i : S2048x2048.Idx) :
    (dat4 (F := Ideal) V c).arrAt 3 cfg4.N i = Cert.Spec.nsStep (V c main_v29_0) (V c main_v25) i :=
  congrFun ((dat4 (F := Ideal) V c).arrAt_eq_of_cover 3 (Cert.Spec.nsStep (V c main_v29_0) (V c main_v25))
    (fun t _ => flushed3_eq V c hB t) cover3) i

/-- What point t writes back through window 4, the bf16 copy, is block t of the same function: the format change
    is the identity on the extended reals. -/
theorem flushed4_eq (c : Dev nD) (hB : ∀ j : S2048x2048.Idx, V c main_v29_1 j = V c main_v29_0 j) (t : Fin cfg4.N) :
    (dat4 (F := Ideal) V c).flushed 4 t
      = ((cfg4.win 4).blk t).view.read (Elt Ideal) (Cert.Spec.nsStep (V c main_v29_0) (V c main_v25)) := by
  show (cfg4.win 4).cut (grid4.coords t) ((dat4 V c).after 4 t) = _
  rw [after4_4]
  unfold out4_4
  rw [View.canon_unit_zero hz]
  simp only [View.ld_unit_zero (S := S2048x2048) hz, View.ld_unit_zero (S := S256x2048) hz]
  funext y
  obtain ⟨-, -, -, -, -, -, -, -, e0, e1⟩ := idx_facts t
  have hy0 : (y 0).val < 256 := (y 0).isLt
  have hy1 : (y 1).val < 2048 := (y 1).isLt
  have ht := point_lt t
  have hx : (win4 4).xinj (grid4.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k4_pay2 (F := Ideal) (iblk4 V c 0 t) (iblk4 V c 2 t) (iblk4 V c 1 t)) hx) ?_
  refine Eq.trans (truncf_apply (k4_pay1 (F := Ideal) (iblk4 V c 0 t) (iblk4 V c 2 t) (iblk4 V c 1 t)) bitsLt_bf16_f32 _) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v29_0) (V c main_v25)) (funext fun a => Fin.ext ?_)
  match a with
  | ⟨0, _⟩ => show 256 * t.val + (y 0).val = win4_4.index t (0 : Fin 2) * 256 + 1 * (y 0).val; rw [e0]; omega
  | ⟨1, _⟩ => show (y 1).val = win4_4.index t (1 : Fin 2) * 2048 + 1 * (y 1).val; rw [e1]; omega

/-- An index of the array is in point t's block of window 4 iff each coordinate is in the block's range on its axis. -/
theorem mem_blk4 (t : Fin cfg4.N) (i : S2048x2048.Idx) :
    i ∈ ((cfg4.win 4).blk t).view.set ↔ ∀ a : Fin 2, win4_4.index t a * S256x2048.size a ≤ (i a).val ∧ (i a).val < win4_4.index t a * S256x2048.size a + S256x2048.size a := by
  show i ∈ ((View.whole main_v30_1).slice (win4_4.rect t)).set ↔ _
  rw [View.set_slice_whole, Rect.mem_set_unit]
  exact Iff.rfl

/-- Row i lies in the block of point i / 256: the eight row tiles cover the bf16 array too. -/
theorem cover4 (i : S2048x2048.Idx) :
    ∃ t : Fin cfg4.N, (cfg4.win 4).flush t = true ∧ i ∈ ((cfg4.win 4).blk t).view.set := by
  have hi0 : (i 0).val < 2048 := (i 0).isLt
  have hi1 : (i 1).val < 2048 := (i 1).isLt
  refine ⟨⟨(i 0).val / 256, by rw [show cfg4.N = 8 from N_4]; omega⟩, flush4_4 _, ?_⟩
  obtain ⟨-, -, -, -, -, -, -, -, e0, e1⟩ := idx_facts ⟨(i 0).val / 256, by rw [show cfg4.N = 8 from N_4]; omega⟩
  rw [mem_blk4]
  intro a
  match a with
  | ⟨0, _⟩ =>
    show win4_4.index _ (0 : Fin 2) * 256 ≤ (i 0).val ∧ (i 0).val < win4_4.index _ (0 : Fin 2) * 256 + 256
    rw [e0]; show (i 0).val / 256 * 256 ≤ (i 0).val ∧ (i 0).val < (i 0).val / 256 * 256 + 256; omega
  | ⟨1, _⟩ =>
    show win4_4.index _ (1 : Fin 2) * 2048 ≤ (i 1).val ∧ (i 1).val < win4_4.index _ (1 : Fin 2) * 2048 + 2048
    rw [e1]; omega

/-- The bf16 result array after the region holds the same extended reals. -/
theorem final_bf16 (c : Dev nD) (hB : ∀ j : S2048x2048.Idx, V c main_v29_1 j = V c main_v29_0 j) (i : S2048x2048.Idx) :
    (dat4 (F := Ideal) V c).arrAt 4 cfg4.N i = Cert.Spec.nsStep (V c main_v29_0) (V c main_v25) i :=
  congrFun ((dat4 (F := Ideal) V c).arrAt_eq_of_cover 4 (Cert.Spec.nsStep (V c main_v29_0) (V c main_v25))
    (fun t _ => flushed4_eq V c hB t) cover4) i

end Cert.KernelIdeal.NS4

end
-- ==== Proof.KChainN4.lean ====
/-
  The fourth Newton-Schulz region: it finds the third iterate in both float formats and S, and leaves the fourth
  iterate in both formats; S is only read; the scale and Z are not touched.
-/
import proofs.«407192_j12421045420976_3_alg».proof.Proof.KChainN3
import proofs.«407192_j12421045420976_3_alg».proof.Proof.RegionNS4

set_option maxRecDepth 16384

noncomputable section

namespace Cert.KernelIdeal.KC

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## Newton-Schulz region 4 -/

theorem in4_B : (V6 m ρ c main_v29_0 : Cert.Spec.Mat 2048 2048) = B m c 3 := funext (out3_f32 m ρ c)
theorem in4_Bb (j : S2048x2048.Idx) : V6 m ρ c main_v29_1 j = V6 m ρ c main_v29_0 j :=
  (out3_bf16 m ρ c j).trans (out3_f32 m ρ c j).symm
theorem in4_S : (V6 m ρ c main_v25 : Cert.Spec.Mat 2048 2048) = Cert.Spec.Sk (Z m c) := (keep3_S m ρ c).trans (in3_S m ρ c)
/-- The region's f32 result: the next iterate. -/
theorem out4_f32 (i : S2048x2048.Idx) : (W7 m ρ c (Proc.devRef .tc main_v30_0) i : EReal) = B m c 4 i := by
  have h := NS4.final_f32 (V6 m ρ) c (in4_Bb m ρ c) i
  rw [in4_B m ρ c, in4_S m ρ c] at h
  exact (congrFun (W7_arr m ρ c 3) i).trans h
/-- Its copy in the narrower format holds the same extended reals. -/
theorem out4_bf16 (i : S2048x2048.Idx) : (W7 m ρ c (Proc.devRef .tc main_v30_1) i : EReal) = B m c 4 i := by
  have h := NS4.final_bf16 (V6 m ρ) c (in4_Bb m ρ c) i
  rw [in4_B m ρ c, in4_S m ρ c] at h
  exact (congrFun (W7_arr m ρ c 4) i).trans h
/-- S is only read by the region; the scale and Z are not touched. -/
theorem keep4_S : W7 m ρ c (Proc.devRef .tc main_v25) = W6 m ρ c (Proc.devRef .tc main_v25) :=
  (W7_arr m ρ c 2).trans (((dat4 (V6 m ρ) c).arrAt_in 2 rfl _).trans (A_eq4 (V6 m ρ) c 2))
theorem keep4_sc : W7 m ρ c (Proc.devRef .tc main_v13) = W6 m ρ c (Proc.devRef .tc main_v13) :=
  W7_of_ne m ρ c main_v13 (by decide)
theorem keep4_Z : W7 m ρ c (Proc.devRef .tc main_v0) = W6 m ρ c (Proc.devRef .tc main_v0) :=
  W7_of_ne m ρ c main_v0 (by decide)

end Cert.KernelIdeal.KC

end
-- ==== Proof.RegionNS5.lean ====
/-
  REGION 5 of the kernel program: one Newton-Schulz step, B ↦ 1.5·B − 0.5·((B·B)·B)·S, as a value.

  The region's grid has eight points. Point t holds the whole of B (its bf16 copy), the whole of S, and row tile t
  of B in f32 (rows 256·t … 256·t + 255). On the extended reals the body computes, at row r and column j of the tile,
      1.5·B(256·t + r, j) − 0.5·∑ l, (∑ k, (∑ p, B(256·t + r, p)·B(p, k))·B(k, l))·S(l, j):
  three plain matrix products into zero accumulators, each a sum along the contracted axis, the format changes between
  them being the identity. That is entry (256·t + r, j) of `Cert.Spec.nsStep B S`, provided the bf16 copy of B holds
  the same extended reals as B. Every point writes its row tile back and the eight row tiles cover the 2048 rows, so
  both result arrays, the f32 one and its bf16 copy, end holding `nsStep B S`.
-/
import proofs.«407192_j12421045420976_3_alg».proof.Proof.Gen.KernelIdeal.Frame
import proofs.«407192_j12421045420976_3_alg».proof.Proof.Spec
import proofs.«407192_j12421045420976_3_alg».proof.Proof.LibPlainMatmul
import Idealize.ShloMosaic.Lib.Pipeline.Value
import Idealize.ShloMosaic.Lib.ValueIdx

set_option maxRecDepth 16384

noncomputable section

open scoped BigOperators

namespace Cert.KernelIdeal.NS5

open Idealize.ShloMosaic Idealize.ShloMosaic.TcCoe Idealize.SL.Sem Cert.KernelIdeal Cert.KernelIdeal.Gen
open Idealize.ShloMosaic.ValueIdx
open Idealize.ShloMosaic.Pipeline (Dat)

/-- The product's dimension numbers are the plain ones: rows times contraction by contraction times columns. -/
theorem dot_plain : dot_S256x2048_S2048x2048_S256x2048_1_0_0_1_n_n = DotDims.plain 256 2048 2048 := rfl

/-- One product of the body into the zero accumulator, at (a, j): the sum over the contracted axis. -/
theorem mm_apply {φ₁ φ₂ : FTy} (l : FVec Ideal S256x2048 φ₁) (r : FVec Ideal S2048x2048 φ₂) (a : Fin 256) (j : Fin 2048) :
    FloatOps.matmul dot_S256x2048_S2048x2048_S256x2048_1_0_0_1_n_n none l r (constant S256x2048 .f32 0x00000000#32) (ix2 a j)
      = ∑ k : Fin 2048, l (ix2 a k) * r (ix2 k j) := by
  rw [dot_plain]
  exact Cert.Lib.matmul_plain_zero_apply 256 2048 2048 none l r (ix2 a j)

/-- The body's f32 result at (r, j): 1.5 times the row tile's entry minus 0.5 times the triple product's entry. -/
theorem pay1_apply (v0 v2 : Vec Ideal S2048x2048 .bf16) (v4 : Vec Ideal S256x2048 .f32) (r : Fin 256) (j : Fin 2048) :
    k5_pay1 (F := Ideal) v0 v2 v4 (ix2 r j)
      = Cert.Spec.c15 * v4 (ix2 r j)
        - Cert.Spec.c05 * ∑ l : Fin 2048, (∑ k : Fin 2048, (∑ p : Fin 2048, v4 (ix2 r p) * v0 (ix2 p k)) * v0 (ix2 k l)) * v2 (ix2 l j) := by
  unfold k5_pay1
  simp only [matmul, shapeCast_self]
  rw [subf_apply, mulf_apply, mulf_apply, broadcast_apply, broadcast_apply, mm_apply]
  simp only [truncf_apply, mm_apply]
  rfl

variable (V : (c : Dev nD) → (b : Ref sig .tc) → Buf (Elt Ideal) ((c : Thread nD τ).loc b))

/-- On a row of a tile: when the tile's row r is row i0 of B, and the bf16 copy of B holds B's values, the body's
    result at (r, j) is the Newton-Schulz step's entry at (i0, j): the three nested sums are the three products. -/
theorem pay1_nsStep (Bb Sb : Vec Ideal S2048x2048 .bf16) (Bf : Vec Ideal S2048x2048 .f32) (hB : ∀ j : S2048x2048.Idx, Bb j = Bf j)
    (v4 : Vec Ideal S256x2048 .f32) (i0 : Fin 2048) (r : Fin 256)
    (h4 : ∀ p : Fin 2048, v4 (ix2 r p) = Bf (ix2 i0 p)) (j : Fin 2048) :
    k5_pay1 (F := Ideal) Bb Sb v4 (ix2 r j) = Cert.Spec.nsStep Bf Sb (ix2 i0 j) := by
  obtain rfl : Bb = Bf := funext hB
  rw [pay1_apply]
  show _ = Cert.Spec.c15 * Bb (ix2 i0 j)
    - Cert.Spec.c05 * ∑ l : Fin 2048, (∑ k : Fin 2048, (∑ p : Fin 2048, Bb (ix2 i0 p) * Bb (ix2 p k)) * Bb (ix2 k l)) * Sb (ix2 l j)
  simp only [h4]

theorem hz : (![0, 0] : Fin 2 → Nat) = fun _ => 0 := funext fun a => by fin_cases a <;> rfl

/-- The index maps, decided over the eight points: the whole-array windows sit at block (0, 0), the row-tile windows
    at row block t. -/
theorem idx_facts : ∀ t : Fin cfg5.N, win5_0.index t (0 : Fin 2) = 0 ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Window 0's block at any point is the whole bf16 copy of B. -/
theorem iblk_B (c : Dev nD) (t : Fin cfg5.N) :
    (iblk5 (F := Ideal) V c 0 t : Vec Ideal S2048x2048 .bf16) = (V c main_v30_1 : Vec Ideal S2048x2048 .bf16) := by
  obtain ⟨e0, e1, -⟩ := idx_facts t
  funext x
  unfold iblk5
  rw [View.read_apply]
  show V c main_v30_1 _ = V c main_v30_1 _
  congr 1
  funext a
  apply Fin.ext
  match a with
  | ⟨0, _⟩ => show win5_0.index t (0 : Fin 2) * 2048 + 1 * (x 0).val = (x 0).val; rw [e0]; omega
  | ⟨1, _⟩ => show win5_0.index t (1 : Fin 2) * 2048 + 1 * (x 1).val = (x 1).val; rw [e1]; omega

/-- Window 2's block at any point is the whole of S. -/
theorem iblk_S (c : Dev nD) (t : Fin cfg5.N) :
    (iblk5 (F := Ideal) V c 2 t : Vec Ideal S2048x2048 .bf16) = (V c main_v25 : Vec Ideal S2048x2048 .bf16) := by
  obtain ⟨-, -, -, -, e0, e1, -⟩ := idx_facts t
  funext x
  unfold iblk5
  rw [View.read_apply]
  show V c main_v25 _ = V c main_v25 _
  congr 1
  funext a
  apply Fin.ext
  match a with
  | ⟨0, _⟩ => show win5_2.index t (0 : Fin 2) * 2048 + 1 * (x 0).val = (x 0).val; rw [e0]; omega
  | ⟨1, _⟩ => show win5_2.index t (1 : Fin 2) * 2048 + 1 * (x 1).val = (x 1).val; rw [e1]; omega

/-- Window 1's block at point t is rows 256·t … 256·t + 255 of B. -/
theorem iblk_rows (c : Dev nD) (t : Fin cfg5.N) (r : Fin 256) (p : Fin 2048) (i0 : Fin 2048) (hi0 : i0.val = 256 * t.val + r.val) :
    (iblk5 (F := Ideal) V c 1 t : Vec Ideal S256x2048 .f32) (ix2 r p) = (V c main_v30_0 : Vec Ideal S2048x2048 .f32) (ix2 i0 p) := by
  obtain ⟨-, -, e0, e1, -⟩ := idx_facts t
  unfold iblk5
  rw [View.read_apply]
  show V c main_v30_0 _ = V c main_v30_0 _
  congr 1
  funext a
  apply Fin.ext
  match a with
  | ⟨0, _⟩ => show win5_1.index t (0 : Fin 2) * 256 + 1 * r.val = i0.val; rw [e0, hi0]; omega
  | ⟨1, _⟩ => show win5_1.index t (1 : Fin 2) * 2048 + 1 * p.val = p.val; rw [e1]; omega

/-- The body's result on the tile of point t, at (r, j), is the step's entry at (256·t + r, j). -/
theorem tile_value (c : Dev nD) (hB : ∀ j : S2048x2048.Idx, V c main_v30_1 j = V c main_v30_0 j) (t : Fin cfg5.N)
    (r : Fin 256) (j : Fin 2048) (i0 : Fin 2048) (hi0 : i0.val = 256 * t.val + r.val) :
    k5_pay1 (F := Ideal) (iblk5 V c 0 t) (iblk5 V c 2 t) (iblk5 V c 1 t) (ix2 r j)
      = Cert.Spec.nsStep (V c main_v30_0) (V c main_v25) (ix2 i0 j) := by
  rw [iblk_B V c t, iblk_S V c t]
  exact pay1_nsStep (V c main_v30_1) (V c main_v25) (V c main_v30_0) hB (iblk5 V c 1 t) i0 r
    (fun p => iblk_rows V c t r p i0 hi0) j

/-- There are eight points. -/
theorem point_lt (t : Fin cfg5.N) : t.val < 8 := Nat.lt_of_lt_of_eq t.isLt N_5

/-- What point t writes back through window 3 is block t of the step's result. -/
theorem flushed3_eq (c : Dev nD) (hB : ∀ j : S2048x2048.Idx, V c main_v30_1 j = V c main_v30_0 j) (t : Fin cfg5.N) :
    (dat5 (F := Ideal) V c).flushed 3 t
      = ((cfg5.win 3).blk t).view.read (Elt Ideal) (Cert.Spec.nsStep (V c main_v30_0) (V c main_v25)) := by
  show (cfg5.win 3).cut (grid5.coords t) ((dat5 V c).after 3 t) = _
  rw [after5_3]
  unfold out5_3
  rw [View.canon_unit_zero hz]
  simp only [View.ld_unit_zero (S := S2048x2048) hz, View.ld_unit_zero (S := S256x2048) hz]
  funext y
  obtain ⟨-, -, -, -, -, -, e0, e1, -⟩ := idx_facts t
  have hy0 : (y 0).val < 256 := (y 0).isLt
  have hy1 : (y 1).val < 2048 := (y 1).isLt
  have ht := point_lt t
  have hx : (win5 3).xinj (grid5.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k5_pay1 (F := Ideal) (iblk5 V c 0 t) (iblk5 V c 2 t) (iblk5 V c 1 t)) hx) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v30_0) (V c main_v25)) (funext fun a => Fin.ext ?_)
  match a with
  | ⟨0, _⟩ => show 256 * t.val + (y 0).val = win5_3.index t (0 : Fin 2) * 256 + 1 * (y 0).val; rw [e0]; omega
  | ⟨1, _⟩ => show (y 1).val = win5_3.index t (1 : Fin 2) * 2048 + 1 * (y 1).val; rw [e1]; omega

/-- An index of the array is in point t's block of window 3 iff each coordinate is in the block's range on its axis. -/
theorem mem_blk3 (t : Fin cfg5.N) (i : S2048x2048.Idx) :
    i ∈ ((cfg5.win 3).blk t).view.set ↔ ∀ a : Fin 2, win5_3.index t a * S256x2048.size a ≤ (i a).val ∧ (i a).val < win5_3.index t a * S256x2048.size a + S256x2048.size a := by
  show i ∈ ((View.whole main_v31_0).slice (win5_3.rect t)).set ↔ _
  rw [View.set_slice_whole, Rect.mem_set_unit]
  exact Iff.rfl

/-- Row i lies in the block of point i / 256: the eight row tiles cover the array. -/
theorem cover3 (i : S2048x2048.Idx) :
    ∃ t : Fin cfg5.N, (cfg5.win 3).flush t = true ∧ i ∈ ((cfg5.win 3).blk t).view.set := by
  have hi0 : (i 0).val < 2048 := (i 0).isLt
  have hi1 : (i 1).val < 2048 := (i 1).isLt
  refine ⟨⟨(i 0).val / 256, by rw [show cfg5.N = 8 from N_5]; omega⟩, flush5_3 _, ?_⟩
  obtain ⟨-, -, -, -, -, -, e0, e1, -⟩ := idx_facts ⟨(i 0).val / 256, by rw [show cfg5.N = 8 from N_5]; omega⟩
  rw [mem_blk3]
  intro a
  match a with
  | ⟨0, _⟩ =>
    show win5_3.index _ (0 : Fin 2) * 256 ≤ (i 0).val ∧ (i 0).val < win5_3.index _ (0 : Fin 2) * 256 + 256
    rw [e0]; show (i 0).val / 256 * 256 ≤ (i 0).val ∧ (i 0).val < (i 0).val / 256 * 256 + 256; omega
  | ⟨1, _⟩ =>
    show win5_3.index _ (1 : Fin 2) * 2048 ≤ (i 1).val ∧ (i 1).val < win5_3.index _ (1 : Fin 2) * 2048 + 2048
    rw [e1]; omega

/-- The f32 result array after the region: the Newton-Schulz step of the entry arrays, index by index. -/
theorem final_f32 (c : Dev nD) (hB : ∀ j : S2048x2048.Idx, V c main_v30_1 j = V c main_v30_0 j) (i : S2048x2048.Idx) :
    (dat5 (F := Ideal) V c).arrAt 3 cfg5.N i = Cert.Spec.nsStep (V c main_v30_0) (V c main_v25) i :=
  congrFun ((dat5 (F := Ideal) V c).arrAt_eq_of_cover 3 (Cert.Spec.nsStep (V c main_v30_0) (V c main_v25))
    (fun t _ => flushed3_eq V c hB t) cover3) i

/-- What point t writes back through window 4, the bf16 copy, is block t of the same function: the format change
    is the identity on the extended reals. -/
theorem flushed4_eq (c : Dev nD) (hB : ∀ j : S2048x2048.Idx, V c main_v30_1 j = V c main_v30_0 j) (t : Fin cfg5.N) :
    (dat5 (F := Ideal) V c).flushed 4 t
      = ((cfg5.win 4).blk t).view.read (Elt Ideal) (Cert.Spec.nsStep (V c main_v30_0) (V c main_v25)) := by
  show (cfg5.win 4).cut (grid5.coords t) ((dat5 V c).after 4 t) = _
  rw [after5_4]
  unfold out5_4
  rw [View.canon_unit_zero hz]
  simp only [View.ld_unit_zero (S := S2048x2048) hz, View.ld_unit_zero (S := S256x2048) hz]
  funext y
  obtain ⟨-, -, -, -, -, -, -, -, e0, e1⟩ := idx_facts t
  have hy0 : (y 0).val < 256 := (y 0).isLt
  have hy1 : (y 1).val < 2048 := (y 1).isLt
  have ht := point_lt t
  have hx : (win5 4).xinj (grid5.coords t) y = ix2 (⟨(y 0).val, hy0⟩ : Fin 256) (⟨(y 1).val, hy1⟩ : Fin 2048) :=
    funext fun a => Fin.ext (by match a with | ⟨0, _⟩ => rfl | ⟨1, _⟩ => rfl)
  refine Eq.trans (congrArg (k5_pay2 (F := Ideal) (iblk5 V c 0 t) (iblk5 V c 2 t) (iblk5 V c 1 t)) hx) ?_
  refine Eq.trans (truncf_apply (k5_pay1 (F := Ideal) (iblk5 V c 0 t) (iblk5 V c 2 t) (iblk5 V c 1 t)) bitsLt_bf16_f32 _) ?_
  refine (tile_value V c hB t ⟨(y 0).val, hy0⟩ ⟨(y 1).val, hy1⟩ ⟨256 * t.val + (y 0).val, by omega⟩ rfl).trans ?_
  rw [View.read_apply]
  refine congrArg (Cert.Spec.nsStep (V c main_v30_0) (V c main_v25)) (funext fun a => Fin.ext ?_)
  match a with
  | ⟨0, _⟩ => show 256 * t.val + (y 0).val = win5_4.index t (0 : Fin 2) * 256 + 1 * (y 0).val; rw [e0]; omega
  | ⟨1, _⟩ => show (y 1).val = win5_4.index t (1 : Fin 2) * 2048 + 1 * (y 1).val; rw [e1]; omega

/-- An index of the array is in point t's block of window 4 iff each coordinate is in the block's range on its axis. -/
theorem mem_blk4 (t : Fin cfg5.N) (i : S2048x2048.Idx) :
    i ∈ ((cfg5.win 4).blk t).view.set ↔ ∀ a : Fin 2, win5_4.index t a * S256x2048.size a ≤ (i a).val ∧ (i a).val < win5_4.index t a * S256x2048.size a + S256x2048.size a := by
  show i ∈ ((View.whole main_v31_1).slice (win5_4.rect t)).set ↔ _
  rw [View.set_slice_whole, Rect.mem_set_unit]
  exact Iff.rfl

/-- Row i lies in the block of point i / 256: the eight row tiles cover the bf16 array too. -/
theorem cover4 (i : S2048x2048.Idx) :
    ∃ t : Fin cfg5.N, (cfg5.win 4).flush t = true ∧ i ∈ ((cfg5.win 4).blk t).view.set := by
  have hi0 : (i 0).val < 2048 := (i 0).isLt
  have hi1 : (i 1).val < 2048 := (i 1).isLt
  refine ⟨⟨(i 0).val / 256, by rw [show cfg5.N = 8 from N_5]; omega⟩, flush5_4 _, ?_⟩
  obtain ⟨-, -, -, -, -, -, -, -, e0, e1⟩ := idx_facts ⟨(i 0).val / 256, by rw [show cfg5.N = 8 from N_5]; omega⟩
  rw [mem_blk4]
  intro a
  match a with
  | ⟨0, _⟩ =>
    show win5_4.index _ (0 : Fin 2) * 256 ≤ (i 0).val ∧ (i 0).val < win5_4.index _ (0 : Fin 2) * 256 + 256
    rw [e0]; show (i 0).val / 256 * 256 ≤ (i 0).val ∧ (i 0).val < (i 0).val / 256 * 256 + 256; omega
  | ⟨1, _⟩ =>
    show win5_4.index _ (1 : Fin 2) * 2048 ≤ (i 1).val ∧ (i 1).val < win5_4.index _ (1 : Fin 2) * 2048 + 2048
    rw [e1]; omega

/-- The bf16 result array after the region holds the same extended reals. -/
theorem final_bf16 (c : Dev nD) (hB : ∀ j : S2048x2048.Idx, V c main_v30_1 j = V c main_v30_0 j) (i : S2048x2048.Idx) :
    (dat5 (F := Ideal) V c).arrAt 4 cfg5.N i = Cert.Spec.nsStep (V c main_v30_0) (V c main_v25) i :=
  congrFun ((dat5 (F := Ideal) V c).arrAt_eq_of_cover 4 (Cert.Spec.nsStep (V c main_v30_0) (V c main_v25))
    (fun t _ => flushed4_eq V c hB t) cover4) i

end Cert.KernelIdeal.NS5

end
-- ==== Proof.KChainN5.lean ====
/-
  The fifth Newton-Schulz region: it finds the fourth iterate in both float formats and S, and leaves the fifth
  iterate in both formats; S is only read; the scale and Z are not touched.
-/
import proofs.«407192_j12421045420976_3_alg».proof.Proof.KChainN4
import proofs.«407192_j12421045420976_3_alg».proof.Proof.RegionNS5

set_option maxRecDepth 16384

noncomputable section

namespace Cert.KernelIdeal.KC

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## Newton-Schulz region 5 -/

theorem in5_B : (V7 m ρ c main_v30_0 : Cert.Spec.Mat 2048 2048) = B m c 4 := funext (out4_f32 m ρ c)
theorem in5_Bb (j : S2048x2048.Idx) : V7 m ρ c main_v30_1 j = V7 m ρ c main_v30_0 j :=
  (out4_bf16 m ρ c j).trans (out4_f32 m ρ c j).symm
theorem in5_S : (V7 m ρ c main_v25 : Cert.Spec.Mat 2048 2048) = Cert.Spec.Sk (Z m c) := (keep4_S m ρ c).trans (in4_S m ρ c)
/-- The region's f32 result: the next iterate. -/
theorem out5_f32 (i : S2048x2048.Idx) : (W8 m ρ c (Proc.devRef .tc main_v31_0) i : EReal) = B m c 5 i := by
  have h := NS5.final_f32 (V7 m ρ) c (in5_Bb m ρ c) i
  rw [in5_B m ρ c, in5_S m ρ c] at h
  exact (congrFun (W8_arr m ρ c 3) i).trans h
/-- Its copy in the narrower format holds the same extended reals. -/
theorem out5_bf16 (i : S2048x2048.Idx) : (W8 m ρ c (Proc.devRef .tc main_v31_1) i : EReal) = B m c 5 i := by
  have h := NS5.final_bf16 (V7 m ρ) c (in5_Bb m ρ c) i
  rw [in5_B m ρ c, in5_S m ρ c] at h
  exact (congrFun (W8_arr m ρ c 4) i).trans h
/-- S is only read by the region; the scale and Z are not touched. -/
theorem keep5_S : W8 m ρ c (Proc.devRef .tc main_v25) = W7 m ρ c (Proc.devRef .tc main_v25) :=
  (W8_arr m ρ c 2).trans (((dat5 (V7 m ρ) c).arrAt_in 2 rfl _).trans (A_eq5 (V7 m ρ) c 2))
theorem keep5_sc : W8 m ρ c (Proc.devRef .tc main_v13) = W7 m ρ c (Proc.devRef .tc main_v13) :=
  W8_of_ne m ρ c main_v13 (by decide)
theorem keep5_Z : W8 m ρ c (Proc.devRef .tc main_v0) = W7 m ρ c (Proc.devRef .tc main_v0) :=
  W8_of_ne m ρ c main_v0 (by decide)

end Cert.KernelIdeal.KC

end
-- ==== Proof.Region6.lean ====
/-
  The value of the last region: the final matrix product.

  The region multiplies the whole left matrix Bs (2048 × 2048) with the right matrix Z (2048 × 18432), one column
  tile of width 768 at each of its 24 points: at point t it reads columns 768·t … 768·t + 767 of Z, forms the
  product of Bs with that tile (on the extended reals a narrowing of the tile's entries is the identity and the
  accumulation into zero is the exact sum over the contracted axis), and writes the result into the same columns of
  the output. Column k lies in tile k / 768, so the 24 tiles cover the output, and the output array ends holding,
  at (i, j), the sum over k of Bs (i, k) · Z (k, j).
-/
import proofs.«407192_j12421045420976_3_alg».proof.Proof.Gen.KernelIdeal.Frame
import proofs.«407192_j12421045420976_3_alg».proof.Proof.Spec
import proofs.«407192_j12421045420976_3_alg».proof.Proof.LibPlainMatmul
import Idealize.ShloMosaic.Lib.Pipeline.Value
import Idealize.ShloMosaic.Lib.Tactic

noncomputable section

namespace Cert.KernelIdeal.R6
open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The matmul's dimension numbers are the plain ones: axis 1 of the left operand against axis 0 of the right. -/
theorem dot_plain : dot_S2048x2048_S2048x768_S2048x768_1_0_0_1_n_n = DotDims.plain 2048 2048 768 := rfl

/-- The body's arithmetic at an index: entry (r, q) of the product of the whole left matrix with the column tile
    (the re-layouts and the narrowing are the identity on the extended reals, the accumulator is zero). -/
theorem pay_apply (v0 : FVec Ideal S2048x2048 .bf16) (v2 : FVec Ideal S2048x768 .f32) (r : Fin 2048) (q : Fin 768) :
    k6_pay1 (F := Ideal) v0 v2 (ix2 r q) = ∑ k : Fin 2048, v0 (ix2 r k) * v2 (ix2 k q) := by
  unfold k6_pay1
  simp only [shapeCast_self]
  rw [dot_plain]
  refine (Cert.Lib.matmul_plain_zero_apply 2048 2048 768 none v0 (truncf .bf16 v2 bitsLt_bf16_f32) (ix2 r q)).trans ?_
  refine Finset.sum_congr rfl fun k _ => ?_
  rw [ValueIdx.truncf_apply]

theorem hz : (![0, 0] : Fin 2 → Nat) = fun _ => 0 := funext fun a => by fin_cases a <;> rfl

/-- The block indices over the 24 points: the left matrix is one block; the column tile and the output tile of
    point t are column block t. -/
theorem idx_facts : ∀ t : Fin cfg6.N, win6_0.index t (0 : Fin 2) = 0 ∧ win6_0.index t (1 : Fin 2) = 0
    ∧ win6_1.index t (0 : Fin 2) = 0 ∧ win6_1.index t (1 : Fin 2) = t.val
    ∧ win6_2.index t (0 : Fin 2) = 0 ∧ win6_2.index t (1 : Fin 2) = t.val :=
  (by decide +kernel : ∀ t : Fin grid6.N, _)

/-- The left operand's block at any point is the whole matrix. -/
theorem iblk0_apply (c : Dev nD) (t : Fin cfg6.N) (x : S2048x2048.Idx) (k : S2048x2048.Idx)
    (hk0 : (k 0).val = (x 0).val) (hk1 : (k 1).val = (x 1).val) :
    (iblk6 V c 0 t : Vec Ideal S2048x2048 .bf16) x = (V c main_v34 : S2048x2048.Idx → Elt Ideal .bf16) k := by
  obtain ⟨e0, e1, -⟩ := idx_facts t
  unfold iblk6
  show V c main_v34 (((cfg6.win 0).blk t).view.emb x) = V c main_v34 k
  congr 1
  funext a
  apply Fin.ext
  match a with
  | ⟨0, _⟩ => show win6_0.index t 0 * 2048 + 1 * (x 0).val = (k 0).val; rw [e0, hk0]; omega
  | ⟨1, _⟩ => show win6_0.index t 1 * 2048 + 1 * (x 1).val = (k 1).val; rw [e1, hk1]; omega

/-- The right operand's block at point t is columns 768·t … 768·t + 767 of the matrix. -/
theorem iblk1_apply (c : Dev nD) (t : Fin cfg6.N) (x : S2048x768.Idx) (k : S2048x18432.Idx)
    (hk0 : (k 0).val = (x 0).val) (hk1 : (k 1).val = 768 * t.val + (x 1).val) :
    (iblk6 V c 1 t : Vec Ideal S2048x768 .f32) x = (V c main_v0 : S2048x18432.Idx → Elt Ideal .f32) k := by
  obtain ⟨-, -, e0, e1, -⟩ := idx_facts t
  unfold iblk6
  show V c main_v0 (((cfg6.win 1).blk t).view.emb x) = V c main_v0 k
  congr 1
  funext a
  apply Fin.ext
  match a with
  | ⟨0, _⟩ => show win6_1.index t 0 * 2048 + 1 * (x 0).val = (k 0).val; rw [e0, hk0]; omega
  | ⟨1, _⟩ => show win6_1.index t 1 * 768 + 1 * (x 1).val = (k 1).val; rw [e1, hk1]; omega

/-- The product of the whole left matrix with the whole right matrix, as the region finds them. -/
abbrev G (c : Dev nD) : S2048x18432.Idx → Elt Ideal .f32 := Cert.Spec.mm (V c main_v34) (V c main_v0)

/-- What point t writes back is column block t of the product. -/
theorem flushed_eq (c : Dev nD) (t : Fin cfg6.N) :
    (dat6 (F := Ideal) V c).flushed 2 t = ((cfg6.win 2).blk t).view.read (Elt Ideal) (G V c) := by
  show (cfg6.win 2).cut (grid6.coords t) ((dat6 (F := Ideal) V c).after 2 t) = _
  rw [after6_2]
  unfold out6_2
  rw [View.canon_unit_zero hz]
  simp only [View.ld_unit_zero (S := S2048x2048) hz, View.ld_unit_zero (S := S2048x768) hz]
  obtain ⟨-, -, -, -, e0, e1⟩ := idx_facts t
  refine funext fun (j : S2048x768.Idx) => ?_
  obtain ⟨r, q, rfl⟩ : ∃ (r : Fin 2048) (q : Fin 768), j = ix2 r q := ⟨j 0, j 1, eq_ix2 j⟩
  show k6_pay1 (F := Ideal) (iblk6 V c 0 t) (iblk6 V c 1 t) (ix2 r q)
    = Cert.Spec.mm (V c main_v34) (V c main_v0) (((cfg6.win 2).blk t).view.emb (ix2 r q))
  refine (pay_apply (iblk6 V c 0 t) (iblk6 V c 1 t) r q).trans ?_
  unfold Cert.Spec.mm
  refine Finset.sum_congr rfl fun k _ => ?_
  congr 1
  · refine iblk0_apply V c t (ix2 r k) _ ?_ rfl
    show ((((cfg6.win 2).blk t).view.emb (ix2 r q)) 0).val = r.val
    show win6_2.index t 0 * 2048 + 1 * r.val = r.val
    rw [e0]; omega
  · refine iblk1_apply V c t (ix2 k q) _ rfl ?_
    show ((((cfg6.win 2).blk t).view.emb (ix2 r q)) 1).val = 768 * t.val + q.val
    show win6_2.index t 1 * 768 + 1 * q.val = 768 * t.val + q.val
    rw [e1]; omega

/-- An index of the array is in point t's block iff each coordinate is in the block's range on its axis. -/
theorem mem_blk (t : Fin cfg6.N) (i : S2048x18432.Idx) :
    i ∈ ((cfg6.win 2).blk t).view.set ↔ ∀ a : Fin 2, win6_2.index t a * S2048x768.size a ≤ (i a).val ∧ (i a).val < win6_2.index t a * S2048x768.size a + S2048x768.size a := by
  show i ∈ ((View.whole main_v35).slice (win6_2.rect t)).set ↔ _
  rw [View.set_slice_whole, Rect.mem_set_unit]
  exact Iff.rfl

/-- Every column is in some point's block: column k is in block k / 768. -/
theorem cover (i : S2048x18432.Idx) :
    ∃ t : Fin cfg6.N, (cfg6.win 2).flush t = true ∧ i ∈ ((cfg6.win 2).blk t).view.set := by
  have hi0 : (i 0).val < 2048 := idx2_lt0 i
  have hi1 : (i 1).val < 18432 := idx2_lt1 i
  have hN : cfg6.N = 24 := N_6
  let t : Fin cfg6.N := ⟨(i 1).val / 768, by rw [hN]; omega⟩
  have ht : t.val = (i 1).val / 768 := rfl
  obtain ⟨-, -, -, -, e0, e1⟩ := idx_facts t
  refine ⟨t, flush6_2 t, ?_⟩
  rw [mem_blk]
  intro a
  match a with
  | ⟨0, _⟩ => show win6_2.index t (0 : Fin 2) * 2048 ≤ (i 0).val ∧ (i 0).val < win6_2.index t (0 : Fin 2) * 2048 + 2048; rw [e0]; omega
  | ⟨1, _⟩ => show win6_2.index t (1 : Fin 2) * 768 ≤ (i 1).val ∧ (i 1).val < win6_2.index t (1 : Fin 2) * 768 + 768; rw [e1, ht]; omega

/-- The output array after the region: the product of the left matrix with the right, index by index. -/
theorem final (c : Dev nD) (i : S2048x18432.Idx) :
    (dat6 (F := Ideal) V c).arrAt 2 cfg6.N i = Cert.Spec.mm (V c main_v34) (V c main_v0) i :=
  congrFun ((dat6 (F := Ideal) V c).arrAt_eq_of_cover 2 (G V c) (fun t _ => flushed_eq V c t) cover) i

end Cert.KernelIdeal.R6

end
-- ==== Proof.KChain.lean ====
/-
  The kernel's result as a function of its argument: after the fifth Newton-Schulz region the fifth iterate B₅; the
  next stretch scales it, B₅·sqrt(1/n); the last region multiplies by Z, column tile by column tile; and the result is
  that matrix re-laid as a weight.
-/
import proofs.«407192_j12421045420976_3_alg».proof.Proof.KChainN5
import proofs.«407192_j12421045420976_3_alg».proof.Proof.Region6

set_option maxRecDepth 16384

noncomputable section

namespace Cert.KernelIdeal.KC

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The last stretch, the last region, and the result -/

theorem W8_sc : (W8 m ρ c (Proc.devRef .tc main_v13) ix0 : EReal) = Cert.Spec.sc (Z m c) := by
  rw [keep5_sc, keep4_sc, keep3_sc, keep2_sc, keep1_sc]
  exact W3_sc m ρ c

theorem W8_Z : W8 m ρ c (Proc.devRef .tc main_v0) = Z m c := by
  rw [keep5_Z, keep4_Z, keep3_Z, keep2_Z, keep1_Z]
  exact W3_Z m ρ c

/-- The scaled iterate the last region multiplies by Z. -/
theorem W9_Bs : (V9 m ρ c main_v34 : Cert.Spec.Mat 2048 2048) = fun j => Cert.Spec.ns5 Cert.Spec.eye (Cert.Spec.Sk (Z m c)) j * Cert.Spec.sc (Z m c) := by
  funext j
  obtain ⟨p, q, rfl⟩ : ∃ (p q : Fin 2048), j = ix2 p q := ⟨j 0, j 1, eq_ix2 j⟩
  refine (KH.h6_Bs (W8 m ρ c) p q).trans ?_
  have hb := out5_f32 m ρ c (ix2 p q)
  have hs := W8_sc m ρ c
  show (fun a b : EReal => a * b) (W8 m ρ c (Proc.devRef .tc main_v31_0) (ix2 p q))
    (W8 m ρ c (Proc.devRef .tc main_v13) ix0) = _
  rw [hb, hs]
  rfl

theorem W9_Z : (V9 m ρ c main_v0 : Cert.Spec.Mat 2048 18432) = Z m c :=
  (KH.h6_keep_v0 (W8 m ρ c)).trans (W8_Z m ρ c)

theorem W10_out (i : S2048x18432.Idx) : (W10 m ρ c (Proc.devRef .tc main_v35) i : EReal) = Cert.Spec.Wk (Z m c) i := by
  have h := R6.final (V9 m ρ) c i
  rw [W9_Bs m ρ c, W9_Z m ρ c] at h
  exact (congrFun (W10_arr m ρ c 2) i).trans h

/-- The kernel's result buffer at the end of @main: the specification's function of the weight as launched. -/
theorem result : W11 m ρ c (Proc.devRef .tc main_v36)
    = Cert.Spec.unflat (Cert.Spec.Wk (Cert.Spec.flat (m ((c.tc : Thread nD τ).loc main_arg0)))) := by
  refine (KH.h7_out (W10 m ρ c)).trans ?_
  exact congrArg Cert.Spec.unflat (funext (W10_out m ρ c))

end Cert.KernelIdeal.KC

end
-- ==== Proof.RefRun.lean ====
import proofs.«407192_j12421045420976_3_alg».proof.Proof.Gen.ReferenceIdeal
import proofs.«407192_j12421045420976_3_alg».proof.Proof.RefRead
import Idealize.ShloMosaic.Lib.StableHlo.Run

/-! The run of the reference program, stated over stages.

The reference is a straight line of 72 host operations: the weight reshaped to a matrix Z, the normalized
V = Z / sqrt(sum Z²), the Gram matrix S = V Vᵀ + eps·I, five Newton–Schulz steps B ↦ 1.5·B − 0.5·((B·B)·B)·S from
B = I, and the product B·V reshaped back. Its result is stated here as the last of the stages `val_main_vN`, each of
which is one operation applied to earlier stages. The line is cut into seven consecutive stretches (the setup up to
S; the five steps; the final product and reshape). For each stretch and an arbitrary valuation W, the buffers the
stretch writes are read as one operation chain over W at the stretch's inputs, and the buffers it does not write keep
W's contents; the stretches are then joined in order, each taking over from the one before it only the facts
"buffer b holds stage b". -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 72 operations, in order (a called function's operations stand in its call's place). -/
abbrev ops : List (HloOp τ sig (Elt F)) :=
  [ reshape main_arg0 main_v0 rfl shapeCasts_S2048x2048x3x3_S2048x18432,
    TRef.binary (TRef.of (T := ⟨S2048x18432, .f32⟩) main_v0) (TRef.of (T := ⟨S2048x18432, .f32⟩) main_v0) (TRef.of (T := ⟨S2048x18432, .f32⟩) main_call0_v0) mulf,
    TRef.nullary (TRef.of (T := ⟨S_, .f32⟩) main_call0_cst) (constant S_ .f32 0x00000000#32),
    TRef.binary (TRef.of (T := ⟨S2048x18432, .f32⟩) main_call0_v0) (TRef.of (T := ⟨S_, .f32⟩) main_call0_cst) (TRef.of (T := ⟨S_, .f32⟩) main_call0_v1) (fun x v => Host.reduceAdd x v reducesTo_S2048x18432_S_d0_1 h_S_),
    TRef.unary (TRef.of (T := ⟨S_, .f32⟩) main_call0_v1) (TRef.of (T := ⟨S_, .f32⟩) main_v1) Host.sqrt,
    unary main_v1 main_v2 (broadcastInDim S2048x18432 ![] bcast_S_S2048x18432 : (⟨S_, .f32⟩ : BufTy).Contents (Elt F) → (⟨S2048x18432, .f32⟩ : BufTy).Contents (Elt F)),
    binary main_v0 main_v2 main_v3 (Host.divf : (⟨S2048x18432, .f32⟩ : BufTy).Contents (Elt F) → (⟨S2048x18432, .f32⟩ : BufTy).Contents (Elt F) → (⟨S2048x18432, .f32⟩ : BufTy).Contents (Elt F)),
    nullary main_v4 (iotaInDim S2048x2048 32 0),
    nullary main_v5 (iotaInDim S2048x2048 32 1),
    nullary main_c (constantI S_ 32 0#32),
    unary main_c main_v6 (broadcastInDim S2048x2048 ![] bcast_S_S2048x2048 : (⟨S_, .i32⟩ : BufTy).Contents (Elt F) → (⟨S2048x2048, .i32⟩ : BufTy).Contents (Elt F)),
    binary main_v4 main_v6 main_v7 (addi : (⟨S2048x2048, .i32⟩ : BufTy).Contents (Elt F) → (⟨S2048x2048, .i32⟩ : BufTy).Contents (Elt F) → (⟨S2048x2048, .i32⟩ : BufTy).Contents (Elt F)),
    binary main_v7 main_v5 main_v8 (cmpi .eq : (⟨S2048x2048, .i32⟩ : BufTy).Contents (Elt F) → (⟨S2048x2048, .i32⟩ : BufTy).Contents (Elt F) → (⟨S2048x2048, .i1⟩ : BufTy).Contents (Elt F)),
    unary main_v8 main_v9 (uitofp .f32 : (⟨S2048x2048, .i1⟩ : BufTy).Contents (Elt F) → (⟨S2048x2048, .f32⟩ : BufTy).Contents (Elt F)),
    unary main_v3 main_v10 ((transpose S18432x2048 [1, 0] · transposes_S2048x18432_S18432x2048_1_0) : (⟨S2048x18432, .f32⟩ : BufTy).Contents (Elt F) → (⟨S18432x2048, .f32⟩ : BufTy).Contents (Elt F)),
    binary main_v3 main_v10 main_v11 ((fun l r => Host.dotGeneral dot_S2048x18432_S18432x2048_S2048x2048_1_0_0_1_n_n none l r) : (⟨S2048x18432, .f32⟩ : BufTy).Contents (Elt F) → (⟨S18432x2048, .f32⟩ : BufTy).Contents (Elt F) → (⟨S2048x2048, .f32⟩ : BufTy).Contents (Elt F)),
    nullary main_cst (constant S_ .f32 0x3727C5AC#32),
    unary main_cst main_v12 (broadcastInDim S2048x2048 ![] bcast_S_S2048x2048 : (⟨S_, .f32⟩ : BufTy).Contents (Elt F) → (⟨S2048x2048, .f32⟩ : BufTy).Contents (Elt F)),
    binary main_v12 main_v9 main_v13 (mulf : (⟨S2048x2048, .f32⟩ : BufTy).Contents (Elt F) → (⟨S2048x2048, .f32⟩ : BufTy).Contents (Elt F) → (⟨S2048x2048, .f32⟩ : BufTy).Contents (Elt F)),
    binary main_v11 main_v13 main_v14 (addf : (⟨S2048x2048, .f32⟩ : BufTy).Contents (Elt F) → (⟨S2048x2048, .f32⟩ : BufTy).Contents (Elt F) → (⟨S2048x2048, .f32⟩ : BufTy).Contents (Elt F)),
    binary main_v9 main_v9 main_v15 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v15 main_v9 main_v16 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_0 (constant S_ .f32 0x3FC00000#32),
    unary main_cst_0 main_v17 (broadcastInDim S2048x2048 ![] bcast_S_S2048x2048 : (⟨S_, .f32⟩ : BufTy).Contents (Elt F) → (⟨S2048x2048, .f32⟩ : BufTy).Contents (Elt F)),
    binary main_v17 main_v9 main_v18 (mulf : (⟨S2048x2048, .f32⟩ : BufTy).Contents (Elt F) → (⟨S2048x2048, .f32⟩ : BufTy).Contents (Elt F) → (⟨S2048x2048, .f32⟩ : BufTy).Contents (Elt F)),
    binary main_v16 main_v14 main_v19 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x3F000000#32),
    unary main_cst_1 main_v20 (broadcastInDim S2048x2048 ![] bcast_S_S2048x2048 : (⟨S_, .f32⟩ : BufTy).Contents (Elt F) → (⟨S2048x2048, .f32⟩ : BufTy).Contents (Elt F)),
    binary main_v20 main_v19 main_v21 (mulf : (⟨S2048x2048, .f32⟩ : BufTy).Contents (Elt F) → (⟨S2048x2048, .f32⟩ : BufTy).Contents (Elt F) → (⟨S2048x2048, .f32⟩ : BufTy).Contents (Elt F)),
    binary main_v18 main_v21 main_v22 (subf : (⟨S2048x2048, .f32⟩ : BufTy).Contents (Elt F) → (⟨S2048x2048, .f32⟩ : BufTy).Contents (Elt F) → (⟨S2048x2048, .f32⟩ : BufTy).Contents (Elt F)),
    binary main_v22 main_v22 main_v23 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v23 main_v22 main_v24 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x3FC00000#32),
    unary main_cst_2 main_v25 (broadcastInDim S2048x2048 ![] bcast_S_S2048x2048 : (⟨S_, .f32⟩ : BufTy).Contents (Elt F) → (⟨S2048x2048, .f32⟩ : BufTy).Contents (Elt F)),
    binary main_v25 main_v22 main_v26 (mulf : (⟨S2048x2048, .f32⟩ : BufTy).Contents (Elt F) → (⟨S2048x2048, .f32⟩ : BufTy).Contents (Elt F) → (⟨S2048x2048, .f32⟩ : BufTy).Contents (Elt F)),
    binary main_v24 main_v14 main_v27 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_3 (constant S_ .f32 0x3F000000#32),
    unary main_cst_3 main_v28 (broadcastInDim S2048x2048 ![] bcast_S_S2048x2048 : (⟨S_, .f32⟩ : BufTy).Contents (Elt F) → (⟨S2048x2048, .f32⟩ : BufTy).Contents (Elt F)),
    binary main_v28 main_v27 main_v29 (mulf : (⟨S2048x2048, .f32⟩ : BufTy).Contents (Elt F) → (⟨S2048x2048, .f32⟩ : BufTy).Contents (Elt F) → (⟨S2048x2048, .f32⟩ : BufTy).Contents (Elt F)),
    binary main_v26 main_v29 main_v30 (subf : (⟨S2048x2048, .f32⟩ : BufTy).Contents (Elt F) → (⟨S2048x2048, .f32⟩ : BufTy).Contents (Elt F) → (⟨S2048x2048, .f32⟩ : BufTy).Contents (Elt F)),
    binary main_v30 main_v30 main_v31 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v31 main_v30 main_v32 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_4 (constant S_ .f32 0x3FC00000#32),
    unary main_cst_4 main_v33 (broadcastInDim S2048x2048 ![] bcast_S_S2048x2048 : (⟨S_, .f32⟩ : BufTy).Contents (Elt F) → (⟨S2048x2048, .f32⟩ : BufTy).Contents (Elt F)),
    binary main_v33 main_v30 main_v34 (mulf : (⟨S2048x2048, .f32⟩ : BufTy).Contents (Elt F) → (⟨S2048x2048, .f32⟩ : BufTy).Contents (Elt F) → (⟨S2048x2048, .f32⟩ : BufTy).Contents (Elt F)),
    binary main_v32 main_v14 main_v35 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_5 (constant S_ .f32 0x3F000000#32),
    unary main_cst_5 main_v36 (broadcastInDim S2048x2048 ![] bcast_S_S2048x2048 : (⟨S_, .f32⟩ : BufTy).Contents (Elt F) → (⟨S2048x2048, .f32⟩ : BufTy).Contents (Elt F)),
    binary main_v36 main_v35 main_v37 (mulf : (⟨S2048x2048, .f32⟩ : BufTy).Contents (Elt F) → (⟨S2048x2048, .f32⟩ : BufTy).Contents (Elt F) → (⟨S2048x2048, .f32⟩ : BufTy).Contents (Elt F)),
    binary main_v34 main_v37 main_v38 (subf : (⟨S2048x2048, .f32⟩ : BufTy).Contents (Elt F) → (⟨S2048x2048, .f32⟩ : BufTy).Contents (Elt F) → (⟨S2048x2048, .f32⟩ : BufTy).Contents (Elt F)),
    binary main_v38 main_v38 main_v39 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v39 main_v38 main_v40 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_6 (constant S_ .f32 0x3FC00000#32),
    unary main_cst_6 main_v41 (broadcastInDim S2048x2048 ![] bcast_S_S2048x2048 : (⟨S_, .f32⟩ : BufTy).Contents (Elt F) → (⟨S2048x2048, .f32⟩ : BufTy).Contents (Elt F)),
    binary main_v41 main_v38 main_v42 (mulf : (⟨S2048x2048, .f32⟩ : BufTy).Contents (Elt F) → (⟨S2048x2048, .f32⟩ : BufTy).Contents (Elt F) → (⟨S2048x2048, .f32⟩ : BufTy).Contents (Elt F)),
    binary main_v40 main_v14 main_v43 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_7 (constant S_ .f32 0x3F000000#32),
    unary main_cst_7 main_v44 (broadcastInDim S2048x2048 ![] bcast_S_S2048x2048 : (⟨S_, .f32⟩ : BufTy).Contents (Elt F) → (⟨S2048x2048, .f32⟩ : BufTy).Contents (Elt F)),
    binary main_v44 main_v43 main_v45 (mulf : (⟨S2048x2048, .f32⟩ : BufTy).Contents (Elt F) → (⟨S2048x2048, .f32⟩ : BufTy).Contents (Elt F) → (⟨S2048x2048, .f32⟩ : BufTy).Contents (Elt F)),
    binary main_v42 main_v45 main_v46 (subf : (⟨S2048x2048, .f32⟩ : BufTy).Contents (Elt F) → (⟨S2048x2048, .f32⟩ : BufTy).Contents (Elt F) → (⟨S2048x2048, .f32⟩ : BufTy).Contents (Elt F)),
    binary main_v46 main_v46 main_v47 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v47 main_v46 main_v48 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_8 (constant S_ .f32 0x3FC00000#32),
    unary main_cst_8 main_v49 (broadcastInDim S2048x2048 ![] bcast_S_S2048x2048 : (⟨S_, .f32⟩ : BufTy).Contents (Elt F) → (⟨S2048x2048, .f32⟩ : BufTy).Contents (Elt F)),
    binary main_v49 main_v46 main_v50 (mulf : (⟨S2048x2048, .f32⟩ : BufTy).Contents (Elt F) → (⟨S2048x2048, .f32⟩ : BufTy).Contents (Elt F) → (⟨S2048x2048, .f32⟩ : BufTy).Contents (Elt F)),
    binary main_v48 main_v14 main_v51 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_9 (constant S_ .f32 0x3F000000#32),
    unary main_cst_9 main_v52 (broadcastInDim S2048x2048 ![] bcast_S_S2048x2048 : (⟨S_, .f32⟩ : BufTy).Contents (Elt F) → (⟨S2048x2048, .f32⟩ : BufTy).Contents (Elt F)),
    binary main_v52 main_v51 main_v53 (mulf : (⟨S2048x2048, .f32⟩ : BufTy).Contents (Elt F) → (⟨S2048x2048, .f32⟩ : BufTy).Contents (Elt F) → (⟨S2048x2048, .f32⟩ : BufTy).Contents (Elt F)),
    binary main_v50 main_v53 main_v54 (subf : (⟨S2048x2048, .f32⟩ : BufTy).Contents (Elt F) → (⟨S2048x2048, .f32⟩ : BufTy).Contents (Elt F) → (⟨S2048x2048, .f32⟩ : BufTy).Contents (Elt F)),
    binary main_v54 main_v3 main_v55 ((fun l r => Host.dotGeneral dot_S2048x2048_S2048x18432_S2048x18432_1_0_0_1_n_n none l r) : (⟨S2048x2048, .f32⟩ : BufTy).Contents (Elt F) → (⟨S2048x18432, .f32⟩ : BufTy).Contents (Elt F) → (⟨S2048x18432, .f32⟩ : BufTy).Contents (Elt F)),
    reshape main_v55 main_v56 rfl shapeCasts_S2048x18432_S2048x2048x3x3 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., reshape_bufs_sub ..⟩

/-- The contents after two lines run one after the other: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The setup: Z, the sum of squares and its root, V = Z / root, the identity I (as a comparison of two iotas), Vᵀ, V·Vᵀ, and S = V·Vᵀ + eps·I. -/
abbrev ops_a : List (HloOp τ sig (Elt F)) :=
  [ reshape main_arg0 main_v0 rfl shapeCasts_S2048x2048x3x3_S2048x18432,
    TRef.binary (TRef.of (T := ⟨S2048x18432, .f32⟩) main_v0) (TRef.of (T := ⟨S2048x18432, .f32⟩) main_v0) (TRef.of (T := ⟨S2048x18432, .f32⟩) main_call0_v0) mulf,
    TRef.nullary (TRef.of (T := ⟨S_, .f32⟩) main_call0_cst) (constant S_ .f32 0x00000000#32),
    TRef.binary (TRef.of (T := ⟨S2048x18432, .f32⟩) main_call0_v0) (TRef.of (T := ⟨S_, .f32⟩) main_call0_cst) (TRef.of (T := ⟨S_, .f32⟩) main_call0_v1) (fun x v => Host.reduceAdd x v reducesTo_S2048x18432_S_d0_1 h_S_),
    TRef.unary (TRef.of (T := ⟨S_, .f32⟩) main_call0_v1) (TRef.of (T := ⟨S_, .f32⟩) main_v1) Host.sqrt,
    unary main_v1 main_v2 (broadcastInDim S2048x18432 ![] bcast_S_S2048x18432 : (⟨S_, .f32⟩ : BufTy).Contents (Elt F) → (⟨S2048x18432, .f32⟩ : BufTy).Contents (Elt F)),
    binary main_v0 main_v2 main_v3 (Host.divf : (⟨S2048x18432, .f32⟩ : BufTy).Contents (Elt F) → (⟨S2048x18432, .f32⟩ : BufTy).Contents (Elt F) → (⟨S2048x18432, .f32⟩ : BufTy).Contents (Elt F)),
    nullary main_v4 (iotaInDim S2048x2048 32 0),
    nullary main_v5 (iotaInDim S2048x2048 32 1),
    nullary main_c (constantI S_ 32 0#32),
    unary main_c main_v6 (broadcastInDim S2048x2048 ![] bcast_S_S2048x2048 : (⟨S_, .i32⟩ : BufTy).Contents (Elt F) → (⟨S2048x2048, .i32⟩ : BufTy).Contents (Elt F)),
    binary main_v4 main_v6 main_v7 (addi : (⟨S2048x2048, .i32⟩ : BufTy).Contents (Elt F) → (⟨S2048x2048, .i32⟩ : BufTy).Contents (Elt F) → (⟨S2048x2048, .i32⟩ : BufTy).Contents (Elt F)),
    binary main_v7 main_v5 main_v8 (cmpi .eq : (⟨S2048x2048, .i32⟩ : BufTy).Contents (Elt F) → (⟨S2048x2048, .i32⟩ : BufTy).Contents (Elt F) → (⟨S2048x2048, .i1⟩ : BufTy).Contents (Elt F)),
    unary main_v8 main_v9 (uitofp .f32 : (⟨S2048x2048, .i1⟩ : BufTy).Contents (Elt F) → (⟨S2048x2048, .f32⟩ : BufTy).Contents (Elt F)),
    unary main_v3 main_v10 ((transpose S18432x2048 [1, 0] · transposes_S2048x18432_S18432x2048_1_0) : (⟨S2048x18432, .f32⟩ : BufTy).Contents (Elt F) → (⟨S18432x2048, .f32⟩ : BufTy).Contents (Elt F)),
    binary main_v3 main_v10 main_v11 ((fun l r => Host.dotGeneral dot_S2048x18432_S18432x2048_S2048x2048_1_0_0_1_n_n none l r) : (⟨S2048x18432, .f32⟩ : BufTy).Contents (Elt F) → (⟨S18432x2048, .f32⟩ : BufTy).Contents (Elt F) → (⟨S2048x2048, .f32⟩ : BufTy).Contents (Elt F)),
    nullary main_cst (constant S_ .f32 0x3727C5AC#32),
    unary main_cst main_v12 (broadcastInDim S2048x2048 ![] bcast_S_S2048x2048 : (⟨S_, .f32⟩ : BufTy).Contents (Elt F) → (⟨S2048x2048, .f32⟩ : BufTy).Contents (Elt F)),
    binary main_v12 main_v9 main_v13 (mulf : (⟨S2048x2048, .f32⟩ : BufTy).Contents (Elt F) → (⟨S2048x2048, .f32⟩ : BufTy).Contents (Elt F) → (⟨S2048x2048, .f32⟩ : BufTy).Contents (Elt F)),
    binary main_v11 main_v13 main_v14 (addf : (⟨S2048x2048, .f32⟩ : BufTy).Contents (Elt F) → (⟨S2048x2048, .f32⟩ : BufTy).Contents (Elt F) → (⟨S2048x2048, .f32⟩ : BufTy).Contents (Elt F)) ]

/-- The first Newton–Schulz step, from B = I (main_v9) to main_v22. -/
abbrev ops_1 : List (HloOp τ sig (Elt F)) :=
  [ binary main_v9 main_v9 main_v15 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v15 main_v9 main_v16 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_0 (constant S_ .f32 0x3FC00000#32),
    unary main_cst_0 main_v17 (broadcastInDim S2048x2048 ![] bcast_S_S2048x2048 : (⟨S_, .f32⟩ : BufTy).Contents (Elt F) → (⟨S2048x2048, .f32⟩ : BufTy).Contents (Elt F)),
    binary main_v17 main_v9 main_v18 (mulf : (⟨S2048x2048, .f32⟩ : BufTy).Contents (Elt F) → (⟨S2048x2048, .f32⟩ : BufTy).Contents (Elt F) → (⟨S2048x2048, .f32⟩ : BufTy).Contents (Elt F)),
    binary main_v16 main_v14 main_v19 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x3F000000#32),
    unary main_cst_1 main_v20 (broadcastInDim S2048x2048 ![] bcast_S_S2048x2048 : (⟨S_, .f32⟩ : BufTy).Contents (Elt F) → (⟨S2048x2048, .f32⟩ : BufTy).Contents (Elt F)),
    binary main_v20 main_v19 main_v21 (mulf : (⟨S2048x2048, .f32⟩ : BufTy).Contents (Elt F) → (⟨S2048x2048, .f32⟩ : BufTy).Contents (Elt F) → (⟨S2048x2048, .f32⟩ : BufTy).Contents (Elt F)),
    binary main_v18 main_v21 main_v22 (subf : (⟨S2048x2048, .f32⟩ : BufTy).Contents (Elt F) → (⟨S2048x2048, .f32⟩ : BufTy).Contents (Elt F) → (⟨S2048x2048, .f32⟩ : BufTy).Contents (Elt F)) ]

/-- The second step, from main_v22 to main_v30. -/
abbrev ops_2 : List (HloOp τ sig (Elt F)) :=
  [ binary main_v22 main_v22 main_v23 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v23 main_v22 main_v24 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x3FC00000#32),
    unary main_cst_2 main_v25 (broadcastInDim S2048x2048 ![] bcast_S_S2048x2048 : (⟨S_, .f32⟩ : BufTy).Contents (Elt F) → (⟨S2048x2048, .f32⟩ : BufTy).Contents (Elt F)),
    binary main_v25 main_v22 main_v26 (mulf : (⟨S2048x2048, .f32⟩ : BufTy).Contents (Elt F) → (⟨S2048x2048, .f32⟩ : BufTy).Contents (Elt F) → (⟨S2048x2048, .f32⟩ : BufTy).Contents (Elt F)),
    binary main_v24 main_v14 main_v27 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_3 (constant S_ .f32 0x3F000000#32),
    unary main_cst_3 main_v28 (broadcastInDim S2048x2048 ![] bcast_S_S2048x2048 : (⟨S_, .f32⟩ : BufTy).Contents (Elt F) → (⟨S2048x2048, .f32⟩ : BufTy).Contents (Elt F)),
    binary main_v28 main_v27 main_v29 (mulf : (⟨S2048x2048, .f32⟩ : BufTy).Contents (Elt F) → (⟨S2048x2048, .f32⟩ : BufTy).Contents (Elt F) → (⟨S2048x2048, .f32⟩ : BufTy).Contents (Elt F)),
    binary main_v26 main_v29 main_v30 (subf : (⟨S2048x2048, .f32⟩ : BufTy).Contents (Elt F) → (⟨S2048x2048, .f32⟩ : BufTy).Contents (Elt F) → (⟨S2048x2048, .f32⟩ : BufTy).Contents (Elt F)) ]

/-- The third step, from main_v30 to main_v38. -/
abbrev ops_3 : List (HloOp τ sig (Elt F)) :=
  [ binary main_v30 main_v30 main_v31 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v31 main_v30 main_v32 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_4 (constant S_ .f32 0x3FC00000#32),
    unary main_cst_4 main_v33 (broadcastInDim S2048x2048 ![] bcast_S_S2048x2048 : (⟨S_, .f32⟩ : BufTy).Contents (Elt F) → (⟨S2048x2048, .f32⟩ : BufTy).Contents (Elt F)),
    binary main_v33 main_v30 main_v34 (mulf : (⟨S2048x2048, .f32⟩ : BufTy).Contents (Elt F) → (⟨S2048x2048, .f32⟩ : BufTy).Contents (Elt F) → (⟨S2048x2048, .f32⟩ : BufTy).Contents (Elt F)),
    binary main_v32 main_v14 main_v35 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_5 (constant S_ .f32 0x3F000000#32),
    unary main_cst_5 main_v36 (broadcastInDim S2048x2048 ![] bcast_S_S2048x2048 : (⟨S_, .f32⟩ : BufTy).Contents (Elt F) → (⟨S2048x2048, .f32⟩ : BufTy).Contents (Elt F)),
    binary main_v36 main_v35 main_v37 (mulf : (⟨S2048x2048, .f32⟩ : BufTy).Contents (Elt F) → (⟨S2048x2048, .f32⟩ : BufTy).Contents (Elt F) → (⟨S2048x2048, .f32⟩ : BufTy).Contents (Elt F)),
    binary main_v34 main_v37 main_v38 (subf : (⟨S2048x2048, .f32⟩ : BufTy).Contents (Elt F) → (⟨S2048x2048, .f32⟩ : BufTy).Contents (Elt F) → (⟨S2048x2048, .f32⟩ : BufTy).Contents (Elt F)) ]

/-- The fourth step, from main_v38 to main_v46. -/
abbrev ops_4 : List (HloOp τ sig (Elt F)) :=
  [ binary main_v38 main_v38 main_v39 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v39 main_v38 main_v40 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_6 (constant S_ .f32 0x3FC00000#32),
    unary main_cst_6 main_v41 (broadcastInDim S2048x2048 ![] bcast_S_S2048x2048 : (⟨S_, .f32⟩ : BufTy).Contents (Elt F) → (⟨S2048x2048, .f32⟩ : BufTy).Contents (Elt F)),
    binary main_v41 main_v38 main_v42 (mulf : (⟨S2048x2048, .f32⟩ : BufTy).Contents (Elt F) → (⟨S2048x2048, .f32⟩ : BufTy).Contents (Elt F) → (⟨S2048x2048, .f32⟩ : BufTy).Contents (Elt F)),
    binary main_v40 main_v14 main_v43 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_7 (constant S_ .f32 0x3F000000#32),
    unary main_cst_7 main_v44 (broadcastInDim S2048x2048 ![] bcast_S_S2048x2048 : (⟨S_, .f32⟩ : BufTy).Contents (Elt F) → (⟨S2048x2048, .f32⟩ : BufTy).Contents (Elt F)),
    binary main_v44 main_v43 main_v45 (mulf : (⟨S2048x2048, .f32⟩ : BufTy).Contents (Elt F) → (⟨S2048x2048, .f32⟩ : BufTy).Contents (Elt F) → (⟨S2048x2048, .f32⟩ : BufTy).Contents (Elt F)),
    binary main_v42 main_v45 main_v46 (subf : (⟨S2048x2048, .f32⟩ : BufTy).Contents (Elt F) → (⟨S2048x2048, .f32⟩ : BufTy).Contents (Elt F) → (⟨S2048x2048, .f32⟩ : BufTy).Contents (Elt F)) ]

/-- The fifth step, from main_v46 to main_v54. -/
abbrev ops_5 : List (HloOp τ sig (Elt F)) :=
  [ binary main_v46 main_v46 main_v47 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v47 main_v46 main_v48 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_8 (constant S_ .f32 0x3FC00000#32),
    unary main_cst_8 main_v49 (broadcastInDim S2048x2048 ![] bcast_S_S2048x2048 : (⟨S_, .f32⟩ : BufTy).Contents (Elt F) → (⟨S2048x2048, .f32⟩ : BufTy).Contents (Elt F)),
    binary main_v49 main_v46 main_v50 (mulf : (⟨S2048x2048, .f32⟩ : BufTy).Contents (Elt F) → (⟨S2048x2048, .f32⟩ : BufTy).Contents (Elt F) → (⟨S2048x2048, .f32⟩ : BufTy).Contents (Elt F)),
    binary main_v48 main_v14 main_v51 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    nullary main_cst_9 (constant S_ .f32 0x3F000000#32),
    unary main_cst_9 main_v52 (broadcastInDim S2048x2048 ![] bcast_S_S2048x2048 : (⟨S_, .f32⟩ : BufTy).Contents (Elt F) → (⟨S2048x2048, .f32⟩ : BufTy).Contents (Elt F)),
    binary main_v52 main_v51 main_v53 (mulf : (⟨S2048x2048, .f32⟩ : BufTy).Contents (Elt F) → (⟨S2048x2048, .f32⟩ : BufTy).Contents (Elt F) → (⟨S2048x2048, .f32⟩ : BufTy).Contents (Elt F)),
    binary main_v50 main_v53 main_v54 (subf : (⟨S2048x2048, .f32⟩ : BufTy).Contents (Elt F) → (⟨S2048x2048, .f32⟩ : BufTy).Contents (Elt F) → (⟨S2048x2048, .f32⟩ : BufTy).Contents (Elt F)) ]

/-- The product B·V and its reshape to the weight's shape. -/
abbrev ops_z : List (HloOp τ sig (Elt F)) :=
  [ binary main_v54 main_v3 main_v55 ((fun l r => Host.dotGeneral dot_S2048x2048_S2048x18432_S2048x18432_1_0_0_1_n_n none l r) : (⟨S2048x2048, .f32⟩ : BufTy).Contents (Elt F) → (⟨S2048x18432, .f32⟩ : BufTy).Contents (Elt F) → (⟨S2048x18432, .f32⟩ : BufTy).Contents (Elt F)),
    reshape main_v55 main_v56 rfl shapeCasts_S2048x18432_S2048x2048x3x3 ]

/-- The line is its seven stretches in order. -/
theorem ops_split : (ops : List (HloOp τ sig (Elt F))) = ops_a ++ (ops_1 ++ (ops_2 ++ (ops_3 ++ (ops_4 ++ (ops_5 ++ ops_z))))) := rfl

/-- The setup stretch, over any contents W: the argument is not written, and V, S and I are the stages of the
    argument's contents. -/
theorem stretch_a (W : Valuation τ sig (Elt F)) :
    after ops_a W (Proc.devRef .tc main_arg0) = W (Proc.devRef .tc main_arg0)
    ∧ after ops_a W (Proc.devRef .tc main_v3) = ReadP.val_main_v3 (F := F) (W (Proc.devRef .tc main_arg0))
    ∧ after ops_a W (Proc.devRef .tc main_v14) = ReadP.val_main_v14 (F := F) (W (Proc.devRef .tc main_arg0))
    ∧ after ops_a W (Proc.devRef .tc main_v9) = ReadP.val_main_v9 (F := F) := by
  refine ⟨?_, ?_, ?_, ?_⟩ <;> after_results_simp <;> rfl

/-- The first step's stretch, over any contents W holding the argument, V, S and the current iterate at their
    stages: the argument, V and S are not written, and the next iterate is its stage (the stretch's chain over W at
    the iterate and S, which is that stage's definition opened one operation at a time). -/
theorem stretch_1 (W : Valuation τ sig (Elt F)) (x0 : (⟨S2048x2048x3x3, .f32⟩ : BufTy).Contents (Elt F))
    (h0 : W (Proc.devRef .tc main_arg0) = x0) (h3 : W (Proc.devRef .tc main_v3) = ReadP.val_main_v3 (F := F) x0)
    (h14 : W (Proc.devRef .tc main_v14) = ReadP.val_main_v14 (F := F) x0) (hB : W (Proc.devRef .tc main_v9) = ReadP.val_main_v9 (F := F)) :
    after ops_1 W (Proc.devRef .tc main_arg0) = x0
    ∧ after ops_1 W (Proc.devRef .tc main_v3) = ReadP.val_main_v3 (F := F) x0
    ∧ after ops_1 W (Proc.devRef .tc main_v14) = ReadP.val_main_v14 (F := F) x0
    ∧ after ops_1 W (Proc.devRef .tc main_v22) = ReadP.val_main_v22 (F := F) x0 := by
  refine ⟨?_, ?_, ?_, ?_⟩
  · rw [← h0]; after_results_simp
  · rw [← h3]; after_results_simp
  · rw [← h14]; after_results_simp
  · after_results_simp; rw [hB, h14]; rfl

/-- The second step's stretch, over any contents W holding the argument, V, S and the current iterate at their
    stages: the argument, V and S are not written, and the next iterate is its stage (the stretch's chain over W at
    the iterate and S, which is that stage's definition opened one operation at a time). -/
theorem stretch_2 (W : Valuation τ sig (Elt F)) (x0 : (⟨S2048x2048x3x3, .f32⟩ : BufTy).Contents (Elt F))
    (h0 : W (Proc.devRef .tc main_arg0) = x0) (h3 : W (Proc.devRef .tc main_v3) = ReadP.val_main_v3 (F := F) x0)
    (h14 : W (Proc.devRef .tc main_v14) = ReadP.val_main_v14 (F := F) x0) (hB : W (Proc.devRef .tc main_v22) = ReadP.val_main_v22 (F := F) x0) :
    after ops_2 W (Proc.devRef .tc main_arg0) = x0
    ∧ after ops_2 W (Proc.devRef .tc main_v3) = ReadP.val_main_v3 (F := F) x0
    ∧ after ops_2 W (Proc.devRef .tc main_v14) = ReadP.val_main_v14 (F := F) x0
    ∧ after ops_2 W (Proc.devRef .tc main_v30) = ReadP.val_main_v30 (F := F) x0 := by
  refine ⟨?_, ?_, ?_, ?_⟩
  · rw [← h0]; after_results_simp
  · rw [← h3]; after_results_simp
  · rw [← h14]; after_results_simp
  · after_results_simp; rw [hB, h14]; rfl

/-- The third step's stretch, over any contents W holding the argument, V, S and the current iterate at their
    stages: the argument, V and S are not written, and the next iterate is its stage (the stretch's chain over W at
    the iterate and S, which is that stage's definition opened one operation at a time). -/
theorem stretch_3 (W : Valuation τ sig (Elt F)) (x0 : (⟨S2048x2048x3x3, .f32⟩ : BufTy).Contents (Elt F))
    (h0 : W (Proc.devRef .tc main_arg0) = x0) (h3 : W (Proc.devRef .tc main_v3) = ReadP.val_main_v3 (F := F) x0)
    (h14 : W (Proc.devRef .tc main_v14) = ReadP.val_main_v14 (F := F) x0) (hB : W (Proc.devRef .tc main_v30) = ReadP.val_main_v30 (F := F) x0) :
    after ops_3 W (Proc.devRef .tc main_arg0) = x0
    ∧ after ops_3 W (Proc.devRef .tc main_v3) = ReadP.val_main_v3 (F := F) x0
    ∧ after ops_3 W (Proc.devRef .tc main_v14) = ReadP.val_main_v14 (F := F) x0
    ∧ after ops_3 W (Proc.devRef .tc main_v38) = ReadP.val_main_v38 (F := F) x0 := by
  refine ⟨?_, ?_, ?_, ?_⟩
  · rw [← h0]; after_results_simp
  · rw [← h3]; after_results_simp
  · rw [← h14]; after_results_simp
  · after_results_simp; rw [hB, h14]; rfl

/-- The fourth step's stretch, over any contents W holding the argument, V, S and the current iterate at their
    stages: the argument, V and S are not written, and the next iterate is its stage (the stretch's chain over W at
    the iterate and S, which is that stage's definition opened one operation at a time). -/
theorem stretch_4 (W : Valuation τ sig (Elt F)) (x0 : (⟨S2048x2048x3x3, .f32⟩ : BufTy).Contents (Elt F))
    (h0 : W (Proc.devRef .tc main_arg0) = x0) (h3 : W (Proc.devRef .tc main_v3) = ReadP.val_main_v3 (F := F) x0)
    (h14 : W (Proc.devRef .tc main_v14) = ReadP.val_main_v14 (F := F) x0) (hB : W (Proc.devRef .tc main_v38) = ReadP.val_main_v38 (F := F) x0) :
    after ops_4 W (Proc.devRef .tc main_arg0) = x0
    ∧ after ops_4 W (Proc.devRef .tc main_v3) = ReadP.val_main_v3 (F := F) x0
    ∧ after ops_4 W (Proc.devRef .tc main_v14) = ReadP.val_main_v14 (F := F) x0
    ∧ after ops_4 W (Proc.devRef .tc main_v46) = ReadP.val_main_v46 (F := F) x0 := by
  refine ⟨?_, ?_, ?_, ?_⟩
  · rw [← h0]; after_results_simp
  · rw [← h3]; after_results_simp
  · rw [← h14]; after_results_simp
  · after_results_simp; rw [hB, h14]; rfl

/-- The fifth step's stretch, over any contents W holding the argument, V, S and the current iterate at their
    stages: the argument, V and S are not written, and the next iterate is its stage (the stretch's chain over W at
    the iterate and S, which is that stage's definition opened one operation at a time). -/
theorem stretch_5 (W : Valuation τ sig (Elt F)) (x0 : (⟨S2048x2048x3x3, .f32⟩ : BufTy).Contents (Elt F))
    (h0 : W (Proc.devRef .tc main_arg0) = x0) (h3 : W (Proc.devRef .tc main_v3) = ReadP.val_main_v3 (F := F) x0)
    (h14 : W (Proc.devRef .tc main_v14) = ReadP.val_main_v14 (F := F) x0) (hB : W (Proc.devRef .tc main_v46) = ReadP.val_main_v46 (F := F) x0) :
    after ops_5 W (Proc.devRef .tc main_arg0) = x0
    ∧ after ops_5 W (Proc.devRef .tc main_v3) = ReadP.val_main_v3 (F := F) x0
    ∧ after ops_5 W (Proc.devRef .tc main_v14) = ReadP.val_main_v14 (F := F) x0
    ∧ after ops_5 W (Proc.devRef .tc main_v54) = ReadP.val_main_v54 (F := F) x0 := by
  refine ⟨?_, ?_, ?_, ?_⟩
  · rw [← h0]; after_results_simp
  · rw [← h3]; after_results_simp
  · rw [← h14]; after_results_simp
  · after_results_simp; rw [hB, h14]; rfl

/-- The last stretch, over any contents W holding the argument, V and the fifth iterate at their stages: the argument
    is not written, and the result is the last stage. -/
theorem stretch_z (W : Valuation τ sig (Elt F)) (x0 : (⟨S2048x2048x3x3, .f32⟩ : BufTy).Contents (Elt F))
    (h0 : W (Proc.devRef .tc main_arg0) = x0) (h3 : W (Proc.devRef .tc main_v3) = ReadP.val_main_v3 (F := F) x0)
    (hB : W (Proc.devRef .tc main_v54) = ReadP.val_main_v54 (F := F) x0) :
    after ops_z W (Proc.devRef .tc main_arg0) = x0
    ∧ after ops_z W (Proc.devRef .tc main_v56) = ReadP.val_main_v56 (F := F) x0 := by
  refine ⟨?_, ?_⟩
  · rw [← h0]; after_results_simp
  · after_results_simp; rw [hB, h3]; rfl

/-- The whole line, over any contents W: the result buffer holds the last stage of the argument's contents, and the
    argument is unchanged. The stretches in order, each taking over the facts of the one before. -/
theorem after_ops (W : Valuation τ sig (Elt F)) :
    after ops W (Proc.devRef .tc main_v56) = ReadP.val_main_v56 (F := F) (W (Proc.devRef .tc main_arg0))
    ∧ after ops W (Proc.devRef .tc main_arg0) = W (Proc.devRef .tc main_arg0) := by
  obtain ⟨a0, a3, a14, a9⟩ := stretch_a W
  obtain ⟨b0, b3, b14, b22⟩ := stretch_1 _ _ a0 a3 a14 a9
  obtain ⟨c0, c3, c14, c30⟩ := stretch_2 _ _ b0 b3 b14 b22
  obtain ⟨d0, d3, d14, d38⟩ := stretch_3 _ _ c0 c3 c14 c30
  obtain ⟨e0, e3, e14, e46⟩ := stretch_4 _ _ d0 d3 d14 d38
  obtain ⟨f0, f3, _, f54⟩ := stretch_5 _ _ e0 e3 e14 e46
  obtain ⟨z0, z56⟩ := stretch_z _ _ f0 f3 f54
  rw [ops_split, after_app, after_app, after_app, after_app, after_app, after_app]
  exact ⟨z56, z0⟩

/-- On every device, for any float values, from any memory with zero counters: every weakly fair execution of
    @main terminates with the result buffer at the last stage of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = Cert.ReferenceIdeal.ReadP.val_main_v56 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v56).trans (after_ops (launchContents m c)).1,
      (h c main_arg0).trans (after_ops (launchContents m c)).2⟩)
    (run_seq scopedRefs_eq scopedSems_eq defs main (fun _ => ops) main_eq (fun _ => ops_sub) m ρ)

end Cert.ReferenceIdeal.RefRun

end
-- ==== Proof.RefValue.lean ====
/-
  The reference's result is the specification's function of the weight.

  Stage by stage, bottom up: the reshaped weight is the flattened matrix Z; the norm's radicand is zero plus the sum of
  every entry's square, so the quotient is V = Z / sqrt(sum Z²); the compared row and column numbers are the identity
  matrix; the product of V with its transpose plus eps on the diagonal is S; each iteration's ten stages spell one
  Newton-Schulz step B ↦ 1.5·B − 0.5·((B·B)·B)·S, a square product on the host being the matrix product once its
  one-axis contraction index is read as its coordinate; the last product is B·V, and the final reshape reads it back
  as a weight.
-/
import proofs.«407192_j12421045420976_3_alg».proof.Proof.RefRead
import proofs.«407192_j12421045420976_3_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.ValueIdx

/-- The reshaped weight is the specification's flattened matrix: the same row-major re-layout. -/
theorem v0_eq (x : (⟨S2048x2048x3x3, .f32⟩ : BufTy).Contents (Elt Ideal)) :
    val_main_v0 (F := Ideal) x = Spec.flat x := by
  unfold val_main_v0 Spec.flat
  rfl

/-- The entrywise square of the reshaped weight, entry by entry. -/
theorem v0_eq_sq (x : (⟨S2048x2048x3x3, .f32⟩ : BufTy).Contents (Elt Ideal)) :
    val_main_call0_v0 (F := Ideal) x = fun j => Spec.flat x j * Spec.flat x j := by
  funext j
  rw [val_main_call0_v0_apply, v0_eq]
  rfl

/-- The norm's radicand: zero plus the sum of every entry's square. -/
theorem nrm_eq (x : (⟨S2048x2048x3x3, .f32⟩ : BufTy).Contents (Elt Ideal)) (i : S_.Idx) :
    val_main_call0_v1 (F := Ideal) x i = Ideal.ofBits .f32 0x00000000#32 + Spec.nrm2 (Spec.flat x) := by
  rw [val_main_call0_v1_apply, v0_eq_sq x]
  rfl

/-- Each entry divided by the square root of the radicand. -/
theorem v3_eq (x : (⟨S2048x2048x3x3, .f32⟩ : BufTy).Contents (Elt Ideal)) :
    val_main_v3 (F := Ideal) x = Spec.Vr (Spec.flat x) := by
  funext i
  rw [val_main_v3_apply, val_main_v2_apply, val_main_v1_apply, nrm_eq, v0_eq]
  rfl

/-- The identity matrix: the same comparison of row and column numbers, converted to a float. -/
theorem v9_eq : val_main_v9 (F := Ideal) = Spec.eye := by
  unfold val_main_v9 val_main_v8 val_main_v7 val_main_v6 val_main_v5 val_main_v4 val_main_c Spec.eye
  rfl

/-! ## The matrix S -/

/-- S: the product of the normalised matrix with its transpose, plus eps on the diagonal. -/
theorem v14_eq (x : (⟨S2048x2048x3x3, .f32⟩ : BufTy).Contents (Elt Ideal)) :
    val_main_v14 (F := Ideal) x = Spec.Sr (Spec.flat x) := by
  funext i
  rw [val_main_v14_apply, val_main_v11_apply, val_main_v13_apply, val_main_v12_apply, v9_eq, v3_eq]
  unfold Spec.Sr Spec.mm
  refine congrArg₂ (fun a b : EReal => a + b) (Finset.sum_congr rfl fun k _ => ?_) rfl
  have el : lidx_main_v11 i k = ix2 (i 0) k := funext fun a => Fin.ext (by
    match a with
    | ⟨0, _⟩ => rfl
    | ⟨1, _⟩ => rfl)
  have er : idx_main_v10 (ridx_main_v11 i k) = ix2 (i 1) k := funext fun a => Fin.ext (by
    match a with
    | ⟨0, _⟩ => rfl
    | ⟨1, _⟩ => rfl)
  rw [val_main_v10_apply, v3_eq, el, er]
  rfl

/-! ## One Newton-Schulz step -/

/-- A square product on the host is the matrix product: the contraction index is its one coordinate. -/
theorem dot_sq (A B : Spec.Mat 2048 2048) :
    Host.dotGeneral (F := Ideal) (φ₁ := .f32) (φ₂ := .f32) dot_S2048x2048_S2048x2048_S2048x2048_1_0_0_1_n_n none A B = Spec.mm A B := by
  funext i
  simp only [Host.dotGeneral]
  rw [Ideal.dotGeneral_apply, ← Equiv.sum_comp (ValueIdx.contrEquiv1 dot_S2048x2048_S2048x2048_S2048x2048_1_0_0_1_n_n 2048 rfl rfl).symm]
  unfold Spec.mm
  refine Finset.sum_congr rfl fun k _ => ?_
  have hk := ValueIdx.contrEquiv1_symm_val dot_S2048x2048_S2048x2048_S2048x2048_1_0_0_1_n_n 2048 rfl rfl k
  have el : dot_S2048x2048_S2048x2048_S2048x2048_1_0_0_1_n_n.lhsIdx i ((ValueIdx.contrEquiv1 dot_S2048x2048_S2048x2048_S2048x2048_1_0_0_1_n_n 2048 rfl rfl).symm k) = ix2 (i 0) k := funext fun a => Fin.ext (by
    match a with
    | ⟨0, _⟩ => exact lhs_main_v15_0 _ _
    | ⟨1, _⟩ => exact (lhs_main_v15_1 _ _).trans hk)
  have er : dot_S2048x2048_S2048x2048_S2048x2048_1_0_0_1_n_n.rhsIdx i ((ValueIdx.contrEquiv1 dot_S2048x2048_S2048x2048_S2048x2048_1_0_0_1_n_n 2048 rfl rfl).symm k) = ix2 k (i 1) := funext fun a => Fin.ext (by
    match a with
    | ⟨0, _⟩ => exact (rhs_main_v15_0 _ _).trans hk
    | ⟨1, _⟩ => exact rhs_main_v15_1 _ _)
  rw [el, er]
  rfl

/-- The step as the program spells it: 1.5·B − 0.5·(((B·B)·B)·S), the constants broadcast over the matrix. -/
def refStep (B S : Spec.Mat 2048 2048) : Spec.Mat 2048 2048 :=
  subf (F := Ideal) (φ := .f32)
    (mulf (F := Ideal) (φ := .f32) (broadcastInDim S2048x2048 ![] bcast_S_S2048x2048 (constant (F := Ideal) S_ .f32 0x3FC00000#32)) B)
    (mulf (F := Ideal) (φ := .f32) (broadcastInDim S2048x2048 ![] bcast_S_S2048x2048 (constant (F := Ideal) S_ .f32 0x3F000000#32))
      (Host.dotGeneral (F := Ideal) (φ₁ := .f32) (φ₂ := .f32) dot_S2048x2048_S2048x2048_S2048x2048_1_0_0_1_n_n none
        (Host.dotGeneral (F := Ideal) (φ₁ := .f32) (φ₂ := .f32) dot_S2048x2048_S2048x2048_S2048x2048_1_0_0_1_n_n none
          (Host.dotGeneral (F := Ideal) (φ₁ := .f32) (φ₂ := .f32) dot_S2048x2048_S2048x2048_S2048x2048_1_0_0_1_n_n none B B) B) S))

/-- A broadcast scalar constant reads as the constant at every index. -/
theorem bconst_apply (w : BitVec 32) (i : S2048x2048.Idx) :
    broadcastInDim S2048x2048 ![] bcast_S_S2048x2048 (constant (F := Ideal) S_ .f32 w) i = Ideal.ofBits .f32 w :=
  broadcastInDim_apply _ bcast_S_S2048x2048 (constant (F := Ideal) S_ .f32 w) i (fun a => a.elim0) (fun a => a.elim0)

/-- The program's step is the specification's. -/
theorem refStep_eq (B S : Spec.Mat 2048 2048) : refStep B S = Spec.nsStep B S := by
  funext i
  unfold refStep Spec.nsStep
  rw [subf_apply, mulf_apply, mulf_apply, bconst_apply, bconst_apply, dot_sq, dot_sq, dot_sq]
  rfl

/-! ## The five steps

Each iteration's ten stages spell the step above, applied to the previous iterate and S. -/

/-- The first iteration's stages are one step from the previous iterate. -/
theorem v22_step (x : (⟨S2048x2048x3x3, .f32⟩ : BufTy).Contents (Elt Ideal)) :
    val_main_v22 (F := Ideal) x = refStep (val_main_v9 (F := Ideal)) (val_main_v14 (F := Ideal) x) := by
  unfold val_main_v22 val_main_v18 val_main_v17 val_main_cst_0 val_main_v21 val_main_v20 val_main_cst_1 val_main_v19 val_main_v16 val_main_v15 refStep
  rfl

/-- The second iteration's stages are one step from the previous iterate. -/
theorem v30_step (x : (⟨S2048x2048x3x3, .f32⟩ : BufTy).Contents (Elt Ideal)) :
    val_main_v30 (F := Ideal) x = refStep (val_main_v22 (F := Ideal) x) (val_main_v14 (F := Ideal) x) := by
  unfold val_main_v30 val_main_v26 val_main_v25 val_main_cst_2 val_main_v29 val_main_v28 val_main_cst_3 val_main_v27 val_main_v24 val_main_v23 refStep
  rfl

/-- The third iteration's stages are one step from the previous iterate. -/
theorem v38_step (x : (⟨S2048x2048x3x3, .f32⟩ : BufTy).Contents (Elt Ideal)) :
    val_main_v38 (F := Ideal) x = refStep (val_main_v30 (F := Ideal) x) (val_main_v14 (F := Ideal) x) := by
  unfold val_main_v38 val_main_v34 val_main_v33 val_main_cst_4 val_main_v37 val_main_v36 val_main_cst_5 val_main_v35 val_main_v32 val_main_v31 refStep
  rfl

/-- The fourth iteration's stages are one step from the previous iterate. -/
theorem v46_step (x : (⟨S2048x2048x3x3, .f32⟩ : BufTy).Contents (Elt Ideal)) :
    val_main_v46 (F := Ideal) x = refStep (val_main_v38 (F := Ideal) x) (val_main_v14 (F := Ideal) x) := by
  unfold val_main_v46 val_main_v42 val_main_v41 val_main_cst_6 val_main_v45 val_main_v44 val_main_cst_7 val_main_v43 val_main_v40 val_main_v39 refStep
  rfl

/-- The fifth iteration's stages are one step from the previous iterate. -/
theorem v54_step (x : (⟨S2048x2048x3x3, .f32⟩ : BufTy).Contents (Elt Ideal)) :
    val_main_v54 (F := Ideal) x = refStep (val_main_v46 (F := Ideal) x) (val_main_v14 (F := Ideal) x) := by
  unfold val_main_v54 val_main_v50 val_main_v49 val_main_cst_8 val_main_v53 val_main_v52 val_main_cst_9 val_main_v51 val_main_v48 val_main_v47 refStep
  rfl

/-- After the first step. -/
theorem v22_eq (x : (⟨S2048x2048x3x3, .f32⟩ : BufTy).Contents (Elt Ideal)) :
    val_main_v22 (F := Ideal) x = Spec.nsStep Spec.eye (Spec.Sr (Spec.flat x)) := by
  rw [v22_step, v9_eq, v14_eq, refStep_eq]

/-- After the second step. -/
theorem v30_eq (x : (⟨S2048x2048x3x3, .f32⟩ : BufTy).Contents (Elt Ideal)) :
    val_main_v30 (F := Ideal) x = Spec.nsStep (Spec.nsStep Spec.eye (Spec.Sr (Spec.flat x))) (Spec.Sr (Spec.flat x)) := by
  rw [v30_step, v22_eq, v14_eq, refStep_eq]

/-- After the third step. -/
theorem v38_eq (x : (⟨S2048x2048x3x3, .f32⟩ : BufTy).Contents (Elt Ideal)) :
    val_main_v38 (F := Ideal) x =
      Spec.nsStep (Spec.nsStep (Spec.nsStep Spec.eye (Spec.Sr (Spec.flat x))) (Spec.Sr (Spec.flat x))) (Spec.Sr (Spec.flat x)) := by
  rw [v38_step, v30_eq, v14_eq, refStep_eq]

/-- After the fourth step. -/
theorem v46_eq (x : (⟨S2048x2048x3x3, .f32⟩ : BufTy).Contents (Elt Ideal)) :
    val_main_v46 (F := Ideal) x =
      Spec.nsStep (Spec.nsStep (Spec.nsStep (Spec.nsStep Spec.eye (Spec.Sr (Spec.flat x))) (Spec.Sr (Spec.flat x))) (Spec.Sr (Spec.flat x)))
        (Spec.Sr (Spec.flat x)) := by
  rw [v46_step, v38_eq, v14_eq, refStep_eq]

/-- After the fifth step: the specification's five steps from the identity. -/
theorem v54_eq (x : (⟨S2048x2048x3x3, .f32⟩ : BufTy).Contents (Elt Ideal)) :
    val_main_v54 (F := Ideal) x = Spec.ns5 Spec.eye (Spec.Sr (Spec.flat x)) := by
  rw [v54_step, v46_eq, v14_eq, refStep_eq]
  rfl

/-! ## The result -/

/-- The last product: the iterate times the normalised matrix. -/
theorem v55_eq (x : (⟨S2048x2048x3x3, .f32⟩ : BufTy).Contents (Elt Ideal)) :
    val_main_v55 (F := Ideal) x = Spec.Wr (Spec.flat x) := by
  funext i
  rw [val_main_v55_apply, v54_eq, v3_eq]
  unfold Spec.Wr Spec.mm
  refine Finset.sum_congr rfl fun k _ => ?_
  have el : lidx_main_v55 i k = ix2 (i 0) k := funext fun a => Fin.ext (by
    match a with
    | ⟨0, _⟩ => rfl
    | ⟨1, _⟩ => rfl)
  have er : ridx_main_v55 i k = ix2 k (i 1) := funext fun a => Fin.ext (by
    match a with
    | ⟨0, _⟩ => rfl
    | ⟨1, _⟩ => rfl)
  rw [el, er]
  rfl

/-- The reference's result is the specification's: the last product read back as a weight. -/
theorem val_eq (x : (⟨S2048x2048x3x3, .f32⟩ : BufTy).Contents (Elt Ideal)) :
    val_main_v56 (F := Ideal) x = Cert.Spec.unflat (Cert.Spec.Wr (Cert.Spec.flat x)) := by
  unfold val_main_v56 Spec.unflat
  rw [v55_eq]

end Cert.ReferenceIdeal.RefValue

end
-- ==== Proof.LibVariance.lean ====
/-
  The law that joins the two usual ways of computing a variance. Over n real numbers x₁ … xₙ with mean
  m = (∑ xᵣ) / n, the mean of the squares less the square of the mean is the mean of the squared deviations:
      (∑ xᵣ²) / n − m² = (∑ (xᵣ − m)²) / n,
  because ∑ (xᵣ − m)² = ∑ xᵣ² − 2 m ∑ xᵣ + n m² = ∑ xᵣ² − n m². Stated in the reals over any finite index set
  (`real_var_eq`), and on the extended reals for values that are all real numbers, with the extended reals' division
  by a nonzero real, which is the product with the reciprocal (`var_eq_coe`). Beside it: the inclusion of the reals
  commutes with finite sums (`coe_finset_sum`), and the f32 words of 0 and 1 denote 0 and 1.
  A kernel that computes a batch or layer norm's variance as E[x²] − (E[x])² against a reference that computes
  E[(x − E[x])²] is joined by `var_eq_coe` once every value is known to be a real number.
-/
import Mathlib.Algebra.BigOperators.Group.Finset.Basic
import Mathlib.Algebra.BigOperators.Ring.Finset
import Mathlib.Data.EReal.Basic
import Mathlib.Tactic.FieldSimp
import Mathlib.Tactic.Ring
import Mathlib.Tactic.NormNum
import Idealize.ShloMosaic.PureOps.Ideal

noncomputable section

open scoped BigOperators

namespace Cert.KMath

open Idealize.ShloMosaic

/-- The all-zero f32 word denotes 0. -/
theorem ofBits_zero : Ideal.ofBits .f32 0x00000000#32 = 0 := by
  simp [Ideal.ofBits, Ideal.ieee]

/-- The f32 word 0x3F800000 has exponent field 127 and significand 2²³, so it denotes 2²³ · 2⁻²³ = 1. -/
theorem ofBits_one : Ideal.ofBits .f32 0x3F800000#32 = 1 := by
  simp [Ideal.ofBits, Ideal.ieee, -EReal.coe_mul]; norm_num

/-- The inclusion of the reals in the extended reals carries a finite sum to the sum of the inclusions. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- In the reals: the mean of the squares less the square of the mean is the mean of the squared deviations. -/
theorem real_var_eq {ι : Type*} (s : Finset ι) (a : ι → ℝ) (n : ℝ) (hn : n ≠ 0) (hcard : (s.card : ℝ) = n) :
    (∑ r ∈ s, a r * a r) * (1 / n) - (∑ r ∈ s, a r) * (1 / n) * ((∑ r ∈ s, a r) * (1 / n))
      = (∑ r ∈ s, (a r - (∑ r ∈ s, a r) * (1 / n)) * (a r - (∑ r ∈ s, a r) * (1 / n))) * (1 / n) := by
  set S := ∑ r ∈ s, a r with hS
  set Q := ∑ r ∈ s, a r * a r with hQ
  have hexp : ∑ r ∈ s, (a r - S * (1 / n)) * (a r - S * (1 / n))
      = Q - 2 * (S * (1 / n)) * S + n * (S * (1 / n)) * (S * (1 / n)) := by
    have h1 : ∀ r ∈ s, (a r - S * (1 / n)) * (a r - S * (1 / n))
        = a r * a r - 2 * (S * (1 / n)) * a r + (S * (1 / n)) * (S * (1 / n)) := fun r _ => by ring
    rw [Finset.sum_congr rfl h1, Finset.sum_add_distrib, Finset.sum_sub_distrib, ← Finset.mul_sum,
      Finset.sum_const, nsmul_eq_mul, hcard]
    ring
  rw [hexp]
  field_simp
  ring

/-- The variance law on the extended reals, for real values over any finite index set whose size is the divisor:
    the inclusion of the reals is pushed out of the three sums and the four quotients, and the law of the reals
    remains. -/
theorem var_eq_coe {ι : Type*} (s : Finset ι) (a : ι → ℝ) (n : ℝ) (hn : n ≠ 0) (hcard : (s.card : ℝ) = n) :
    Ideal.div (∑ r ∈ s, (a r : EReal) * (a r : EReal)) (n : EReal)
        - Ideal.div (∑ r ∈ s, (a r : EReal)) (n : EReal) * Ideal.div (∑ r ∈ s, (a r : EReal)) (n : EReal)
      = Ideal.div (∑ r ∈ s, ((a r : EReal) - Ideal.div (∑ r ∈ s, (a r : EReal)) (n : EReal))
          * ((a r : EReal) - Ideal.div (∑ r ∈ s, (a r : EReal)) (n : EReal))) (n : EReal) := by
  have hsum : (∑ r ∈ s, (a r : EReal)) = ((∑ r ∈ s, a r : ℝ) : EReal) := (coe_finset_sum s a).symm
  have hsq : (∑ r ∈ s, (a r : EReal) * (a r : EReal)) = ((∑ r ∈ s, a r * a r : ℝ) : EReal) := by
    rw [coe_finset_sum s (fun r => a r * a r)]
    exact Finset.sum_congr rfl fun r _ => (EReal.coe_mul _ _).symm
  have hdev : ∀ m : ℝ, (∑ r ∈ s, ((a r : EReal) - (m : EReal)) * ((a r : EReal) - (m : EReal)))
      = ((∑ r ∈ s, (a r - m) * (a r - m) : ℝ) : EReal) := fun m => by
    rw [coe_finset_sum s (fun r => (a r - m) * (a r - m))]
    exact Finset.sum_congr rfl fun r _ => by rw [← EReal.coe_sub, ← EReal.coe_mul]
  rw [hsum, hsq]
  simp only [Ideal.div_coe hn]
  rw [← EReal.coe_mul (∑ r ∈ s, a r) (1 / n), hdev, ← EReal.coe_mul, ← EReal.coe_mul, ← EReal.coe_mul,
    ← EReal.coe_sub]
  exact congrArg _ (real_var_eq s a n hn hcard)

end Cert.KMath

end
-- ==== Proof.Bridge.lean ====
/-
  The kernel's function equals the reference's function, on the extended reals, with no program in sight.

  Let Z be a matrix of shape [2048, 18432] whose entries are all real numbers z, not all zero, and let
  n = ∑ z² > 0 and r = 1 / √n.
  * The sixteen column tiles of width 1152 partition the 18432 columns, so a sum over the columns is the sum over the
    tiles of the sums over each tile's columns, the first eight tiles and the last eight taken separately. Hence the
    kernel's squared norm is the reference's, and the two partial Gram matrices add up to Z Zᵀ.
  * The kernel's 1/n is r·r and its square root is r; the reference divides each entry by √n, which is the product
    with r. So S is the same matrix on both sides: (∑ z_ik z_jk)·(r·r) = ∑ (z_ik r)(z_jk r).
  * With the same S the five Newton-Schulz steps give the same matrix B, whatever its entries are, and
    (b·r)·z = b·(z·r) termwise, by the associativity and commutativity of the extended reals' product.
-/
import proofs.«407192_j12421045420976_3_alg».proof.Proof.Spec
import proofs.«407192_j12421045420976_3_alg».proof.Proof.LibVariance
import Mathlib.Data.EReal.Basic
import Mathlib.Data.EReal.Operations
import Mathlib.Data.EReal.Inv
import Mathlib.Analysis.Real.Sqrt
import Mathlib.Algebra.BigOperators.Group.Finset.Basic
import Mathlib.Algebra.BigOperators.Ring.Finset
import Mathlib.Algebra.Order.BigOperators.Group.Finset
import Mathlib.Data.Fintype.BigOperators
import Mathlib.Logic.Equiv.Fin.Basic
import Mathlib.Tactic.Ring
import Mathlib.Tactic.FieldSimp
import Mathlib.Tactic.Positivity

noncomputable section

open scoped BigOperators

namespace Cert.Spec

open Idealize.ShloMosaic Idealize.ShloMosaic.ValueIdx

namespace Bridge

/-! ## The sixteen column tiles partition the columns -/

/-- Column q of tile u is column u·1152 + q: the pair (u, q) read in row-major order. -/
theorem col_eq_pair (u : Fin 16) (q : Fin 1152) :
    col u.val q = (finProdFinEquiv : Fin 16 × Fin 1152 ≃ Fin (16 * 1152)) (u, q) := by
  apply Fin.ext
  have hu : u.val % 16 = u.val := Nat.mod_eq_of_lt u.isLt
  show (u.val % 16) * 1152 + q.val = q.val + 1152 * u.val
  rw [hu]; ring

/-- A sum over the 18432 columns is the sum over the sixteen tiles of the sums over each tile's columns. -/
theorem sum_tiles {M : Type*} [AddCommMonoid M] (f : Fin 18432 → M) :
    ∑ k : Fin 18432, f k = ∑ u ∈ Finset.range 16, ∑ q : Fin 1152, f (col u q) := by
  have h1 : ∑ k : Fin 18432, f k
      = ∑ p : Fin 16 × Fin 1152, f ((finProdFinEquiv : Fin 16 × Fin 1152 ≃ Fin (16 * 1152)) p) :=
    (Equiv.sum_comp (finProdFinEquiv : Fin 16 × Fin 1152 ≃ Fin (16 * 1152)) f).symm
  rw [h1, Fintype.sum_prod_type, ← Fin.sum_univ_eq_sum_range (fun u => ∑ q : Fin 1152, f (col u q)) 16]
  exact Finset.sum_congr rfl fun u _ => Finset.sum_congr rfl fun q _ => congrArg f (col_eq_pair u q).symm

/-- The same, with the first eight tiles and the last eight summed separately, as the two cores do. -/
theorem sum_tiles2 {M : Type*} [AddCommMonoid M] (f : Fin 18432 → M) :
    ∑ k : Fin 18432, f k
      = (∑ s ∈ Finset.range 8, ∑ q : Fin 1152, f (col (8 * 0 + s) q))
        + ∑ s ∈ Finset.range 8, ∑ q : Fin 1152, f (col (8 * 1 + s) q) := by
  rw [sum_tiles, show (16 : ℕ) = 8 + 8 from rfl, Finset.sum_range_add]
  simp only [Nat.mul_zero, Nat.zero_add, Nat.mul_one]

/-- The kernel's squared norm is the reference's: both are the sum of every entry's square, the kernel's taken tile
    by tile. -/
theorem nk_eq_nrm2 (Z : Mat 2048 18432) : nk Z = nrm2 Z := by
  have hR : nrm2 Z = ∑ k : Fin 18432, ∑ a : Fin 2048, Z (ix2 a k) * Z (ix2 a k) := by
    unfold nrm2
    rw [sum_idx2 (fun j => Z j * Z j)]
    exact Finset.sum_comm
  rw [hR, sum_tiles2 (fun k => ∑ a : Fin 2048, Z (ix2 a k) * Z (ix2 a k))]
  unfold nk normPart tileN
  exact congrArg₂ (· + ·) (Finset.sum_congr rfl fun s _ => Finset.sum_comm)
    (Finset.sum_congr rfl fun s _ => Finset.sum_comm)

/-- The two cores' partial Gram matrices add up to Z Zᵀ. -/
theorem gram_eq (Z : Mat 2048 18432) (a b : Fin 2048) :
    gramPart Z 0 (ix2 a b) + gramPart Z 1 (ix2 a b) = ∑ k : Fin 18432, Z (ix2 a k) * Z (ix2 b k) :=
  (sum_tiles2 (fun k => Z (ix2 a k) * Z (ix2 b k))).symm

/-! ## The scalars, for a matrix of real numbers -/

section Reals

variable (Z : Mat 2048 18432) (z : Sz.Idx → ℝ)

/-- The squared norm as a real number. -/
def nR : ℝ := ∑ j : Sz.Idx, z j * z j

/-- The reciprocal of the norm. -/
def rR : ℝ := 1 / Real.sqrt (nR z)

variable {Z z}

theorem nrm2_coe (hz : ∀ j, Z j = (z j : EReal)) : nrm2 Z = (nR z : EReal) := by
  unfold nrm2 nR
  rw [Cert.KMath.coe_finset_sum]
  exact Finset.sum_congr rfl fun j _ => by rw [hz j, ← EReal.coe_mul]

/-- Some entry is not zero, so the squared norm is positive. -/
theorem nR_pos (hz : ∀ j, Z j = (z j : EReal)) (hne : ∃ j, Z j ≠ 0) : 0 < nR z := by
  obtain ⟨j, hj⟩ := hne
  have hzj : z j ≠ 0 := fun h => hj (by rw [hz j, h, EReal.coe_zero])
  exact Finset.sum_pos' (fun i _ => mul_self_nonneg (z i)) ⟨j, Finset.mem_univ j, mul_self_pos.2 hzj⟩

theorem sqrt_nR_ne (hn : 0 < nR z) : Real.sqrt (nR z) ≠ 0 := (Real.sqrt_pos.2 hn).ne'

/-- r·r = 1/n, because √n·√n = n. -/
theorem rR_mul_self (hn : 0 < nR z) : rR z * rR z = 1 / nR z := by
  unfold rR
  rw [div_mul_div_comm, one_mul, Real.mul_self_sqrt hn.le]

/-- √(1/n) = 1/√n. -/
theorem sqrt_inv_nR : Real.sqrt (1 / nR z) = rR z := by
  unfold rR
  rw [one_div, Real.sqrt_inv, one_div]

/-- The kernel's 1/n. -/
theorem ssq_coe (hz : ∀ j, Z j = (z j : EReal)) (hn : 0 < nR z) : ssq Z = ((1 / nR z : ℝ) : EReal) := by
  unfold ssq one
  rw [Ideal.hostDivf_def, nk_eq_nrm2, nrm2_coe hz, Ideal.div_coe hn.ne', Cert.KMath.ofBits_one, one_mul]

/-- The kernel's scale: the square root of 1/n is r. -/
theorem sc_coe (hz : ∀ j, Z j = (z j : EReal)) (hn : 0 < nR z) : sc Z = (rR z : EReal) := by
  have h0 : ¬ (1 / nR z < 0) := not_lt.2 (by positivity)
  unfold sc
  rw [ssq_coe hz hn, Ideal.hostUnary_sqrt_def, Ideal.sqrt_coe, if_neg h0, sqrt_inv_nR]

/-- The reference's normalised entry: z divided by √n is z·r. -/
theorem Vr_coe (hz : ∀ j, Z j = (z j : EReal)) (hn : 0 < nR z) (j : Sz.Idx) :
    Vr Z j = ((z j * rR z : ℝ) : EReal) := by
  have h0 : ¬ (nR z < 0) := not_lt.2 hn.le
  unfold Vr
  rw [Ideal.hostDivf_def, Ideal.hostUnary_sqrt_def, Cert.KMath.ofBits_zero, zero_add, nrm2_coe hz, Ideal.sqrt_coe,
    if_neg h0, Ideal.div_coe (sqrt_nR_ne hn), hz j, ← EReal.coe_mul]
  rfl

/-! ## The matrix S is the same on both sides -/

/-- A matrix times its own transpose, entry by entry. -/
theorem mm_tr_apply {M K : ℕ} (V : Mat M K) (a b : Fin M) :
    mm V (tr V) (ix2 a b) = ∑ k : Fin K, V (ix2 a k) * V (ix2 b k) := rfl

/-- Z Zᵀ scaled by 1/n is V Vᵀ: (∑ z_ik z_jk)·(r·r) = ∑ (z_ik r)(z_jk r) in the reals. -/
theorem gram_scaled_eq (hz : ∀ j, Z j = (z j : EReal)) (hn : 0 < nR z) (a b : Fin 2048) :
    (gramPart Z 0 (ix2 a b) + gramPart Z 1 (ix2 a b)) * ssq Z = mm (Vr Z) (tr (Vr Z)) (ix2 a b) := by
  rw [gram_eq, mm_tr_apply, ssq_coe hz hn, ← rR_mul_self hn]
  have hl : ∀ k : Fin 18432, Z (ix2 a k) * Z (ix2 b k) = ((z (ix2 a k) * z (ix2 b k) : ℝ) : EReal) :=
    fun k => by rw [hz, hz, ← EReal.coe_mul]
  have hr : ∀ k : Fin 18432, Vr Z (ix2 a k) * Vr Z (ix2 b k)
      = (((z (ix2 a k) * rR z) * (z (ix2 b k) * rR z) : ℝ) : EReal) :=
    fun k => by rw [Vr_coe hz hn, Vr_coe hz hn, ← EReal.coe_mul]
  rw [Finset.sum_congr rfl fun k _ => hl k, Finset.sum_congr rfl fun k _ => hr k,
    ← Cert.KMath.coe_finset_sum, ← Cert.KMath.coe_finset_sum, ← EReal.coe_mul, Finset.sum_mul]
  exact congrArg (fun t : ℝ => (t : EReal)) (Finset.sum_congr rfl fun k _ => by ring)

theorem Sk_eq_Sr (hz : ∀ j, Z j = (z j : EReal)) (hn : 0 < nR z) : Sk Z = Sr Z := by
  funext j
  obtain ⟨a, b, rfl⟩ : ∃ a b, j = ix2 a b := ⟨j 0, j 1, eq_ix2 j⟩
  unfold Sk Sr
  rw [gram_scaled_eq hz hn]

end Reals

end Bridge

/-! ## The result -/

open Bridge

/-- The kernel's function is the reference's, for a matrix of real numbers that is not zero. -/
theorem Wk_eq_Wr (Z : Mat 2048 18432) (hfin : ∀ j, ∃ r : ℝ, Z j = (r : EReal)) (hne : ∃ j, Z j ≠ 0) :
    Wk Z = Wr Z := by
  choose z hz using hfin
  have hn : 0 < nR z := nR_pos hz hne
  funext j
  unfold Wk Wr
  rw [Sk_eq_Sr hz hn]
  generalize ns5 eye (Sr Z) = B
  simp only [mm]
  refine Finset.sum_congr rfl fun k _ => ?_
  rw [sc_coe hz hn, Vr_coe hz hn, hz, mul_assoc, ← EReal.coe_mul, mul_comm (rR z)]

end Cert.Spec

end
-- ==== Proof.PreFacts.lean ====
/-
  The precondition, decoded.

  The printed predicate says two things of the weight x, each as a reduction by `and` over all four axes
  of an array of one-bit words: every entry's absolute value compares strictly below +∞, and it is NOT the
  case that every entry compares equal to 0. On the extended reals the absolute value is max a (−a), which is
  +∞ at both infinities, so the first says every entry is a real number; the second says some entry is not 0.
  Reading x as the matrix flat x only renames indices (a bijection of positions), so both facts pass to it.
-/
import proofs.«407192_j12421045420976_3_alg».proof.Pre_finite_inputs
import proofs.«407192_j12421045420976_3_alg».proof.Proof.Gen.Pre_finite_inputs
import proofs.«407192_j12421045420976_3_alg».proof.Proof.Spec
import Idealize.ShloMosaic.Lib.ReduceAll
import Idealize.ShloMosaic.Lib.Pipeline.Value
import Idealize.ShloMosaic.Lib.ValueIdx

namespace Cert.PreFacts

open Idealize.ShloMosaic

/-- A shape with no axes has exactly one index. -/
instance : Subsingleton Cert.Pre_finite_inputs.S_.Idx := ⟨fun a b => funext fun d => d.elim0⟩

/-- An extended real whose absolute value max a (−a) is strictly below +∞ is a real number: at either
    infinity the maximum is +∞. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- The pattern with all exponent bits set and no fraction bit denotes +∞. -/
theorem ofBits_inf : Ideal.ofBits .f32 0x7F800000#32 = (⊤ : EReal) := by
  simp [Ideal.ofBits, Ideal.ieee]

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

/-- The comparison "strictly below" on the extended reals answers 1 only when the order relation holds. -/
theorem lt_of_cmp_olt (a b : EReal) (h : Ideal.cmp .olt a b = 1#1) : a < b := by
  by_contra hc
  simp [Ideal.cmp, hc] at h

/-- The comparison "equal" on the extended reals answers 1 on a value and itself. -/
theorem cmp_oeq_self (a : EReal) : Ideal.cmp .oeq a a = 1#1 := by
  simp [Ideal.cmp]

/-- A one-bit word whose complement is 1 is not 1. -/
theorem ne_one_of_not_eq_one (b : BitVec 1) (h : ~~~b = 1#1) : b ≠ 1#1 := by
  revert b; decide

theorem of_pre (x : FVec Ideal Cert.Pre_finite_inputs.S2048x2048x3x3 .f32)
    (h : Cert.Pre_finite_inputs.fn (F := Ideal) x = fun _ => 1#1) :
    (∀ j, ∃ r : ℝ, Cert.Spec.flat x j = (r : EReal)) ∧ ∃ j, Cert.Spec.flat x j ≠ 0 := by
  have h0 := congrFun h ValueIdx.ix0
  dsimp only [Cert.Pre_finite_inputs.fn] at h0
  obtain ⟨hfin, hnz⟩ := IntOp.andi_eq_one.1 h0
  -- every entry of x is a real number
  have hreal : ∀ i, ∃ r : ℝ, x i = (r : EReal) := by
    intro i
    have hi := Host.reduce_andi_all _ _ _ _ _ hfin i
    -- the element of the compared array at i: |x i| against the word of +∞
    have hi' : Ideal.cmp .olt (max (x i) (-(x i))) (Ideal.ofBits .f32 0x7F800000#32) = 1#1 := hi
    rw [ofBits_inf] at hi'
    exact real_of_abs_lt_top _ (lt_of_cmp_olt _ _ hi')
  -- some entry of x is not zero
  have hsome : ∃ i, x i ≠ 0 := by
    by_contra hall
    push Not at hall
    -- were every entry 0, every comparison with the word of 0 would answer 1, and so would their conjunction
    refine ne_one_of_not_eq_one _ hnz ?_
    rw [Host.reduce_eq_foldl]
    refine foldl_andi_ones _ (fun i => ?_) _
    show Ideal.cmp .oeq (x i) (Ideal.ofBits .f32 0x00000000#32) = 1#1
    rw [hall i, Ideal.ofBits_zero_f32]
    exact cmp_oeq_self 0
  refine ⟨fun j => hreal (Shape.reshapeEquiv Cert.Spec.hflat j), ?_⟩
  obtain ⟨i, hi⟩ := hsome
  refine ⟨(Shape.reshapeEquiv Cert.Spec.hflat).symm i, ?_⟩
  show x (Shape.reshapeEquiv Cert.Spec.hflat ((Shape.reshapeEquiv Cert.Spec.hflat).symm i)) ≠ 0
  rw [Equiv.apply_symm_apply]
  exact hi

end Cert.PreFacts
-- ==== Proof.lean ====
/-
  Orthogonalising a weight by five Newton-Schulz steps: the tiled kernel and the reference agree on the extended reals.

  A weight x of shape [2048, 2048, 3, 3] is read as the matrix Z of shape [2048, 18432]. The reference divides Z by its
  Frobenius norm, V = Z / sqrt n with n the sum of the squares of Z's entries, forms S = V Vᵀ + eps·I, iterates
  B ↦ 1.5·B − 0.5·((B·B)·B)·S five times from the identity, and returns B·V. The kernel sums the Gram matrix G = Z Zᵀ
  and n over sixteen column tiles, forms S = G·(1/n) + eps·I, runs the same five steps, and returns (B·sqrt(1/n))·Z.
  When every entry of x is a real number and some entry is not zero, n is a positive real, G·(1/n) is V Vᵀ entry by
  entry and sqrt(1/n)·Z is V, so the two results are one function of x.

  Each program's run leaves its argument as launched. The kernel's result array holds the second form of that function,
  the reference's the first; the precondition gives the two facts about x under which they are equal.
-/
import proofs.«407192_j12421045420976_3_alg».proof.Defs
import proofs.«407192_j12421045420976_3_alg».proof.Proof.Gen.Kernel
import proofs.«407192_j12421045420976_3_alg».proof.Proof.Gen.Kernel.Skeleton
import proofs.«407192_j12421045420976_3_alg».proof.Proof.Gen.Kernel.Launch
import proofs.«407192_j12421045420976_3_alg».proof.Proof.Gen.Kernel.Points
import proofs.«407192_j12421045420976_3_alg».proof.Proof.Gen.Kernel.Frame
import proofs.«407192_j12421045420976_3_alg».proof.Proof.Gen.KernelIdeal
import proofs.«407192_j12421045420976_3_alg».proof.Proof.Gen.KernelIdeal.Skeleton
import proofs.«407192_j12421045420976_3_alg».proof.Proof.Gen.KernelIdeal.Launch
import proofs.«407192_j12421045420976_3_alg».proof.Proof.Gen.KernelIdeal.Points
import proofs.«407192_j12421045420976_3_alg».proof.Proof.Gen.KernelIdeal.Frame
import proofs.«407192_j12421045420976_3_alg».proof.Proof.Gen.ReferenceIdeal
import proofs.«407192_j12421045420976_3_alg».proof.Proof.Gen.Pre_finite_inputs
import proofs.«407192_j12421045420976_3_alg».proof.Proof.KRun
import proofs.«407192_j12421045420976_3_alg».proof.Proof.KChain
import proofs.«407192_j12421045420976_3_alg».proof.Proof.RefRun
import proofs.«407192_j12421045420976_3_alg».proof.Proof.RefValue
import proofs.«407192_j12421045420976_3_alg».proof.Proof.Bridge
import proofs.«407192_j12421045420976_3_alg».proof.Proof.PreFacts
import Idealize.ShloMosaic.Adequacy
import Idealize.ShloMosaic.Init

noncomputable section

open Idealize.ShloMosaic Idealize.ShloMosaic.TcCoe Idealize.SL.Sem

namespace Cert.Proof.Orthogonalize

/-- The kernel as printed runs and leaves its argument as launched. -/
theorem frame_p : Cert.frame_Kernel := fun m ρ _ => Cert.Kernel.Gen.frame m ρ

/-- So does the kernel read on the extended reals. -/
theorem frame_pi : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten between the kernel and its reading on the extended reals. -/
theorem preserves : Cert.preserves_Kernel_KernelIdeal := trivial

/-- For a weight of real numbers that is not zero, the kernel's (B·sqrt(1/n))·Z with S = G·(1/n) + eps·I is the
    reference's B·V with V = Z / sqrt n and S = V Vᵀ + eps·I: the two results are one function of the weight. -/
theorem result_eq (x : FVec Ideal Cert.Pre_finite_inputs.S2048x2048x3x3 .f32)
    (h : Cert.Pre_finite_inputs.fn (F := Ideal) x = fun _ => 1#1) :
    Cert.Spec.unflat (Cert.Spec.Wr (Cert.Spec.flat x)) = Cert.Spec.unflat (Cert.Spec.Wk (Cert.Spec.flat x)) :=
  congrArg Cert.Spec.unflat
    (Cert.Spec.Wk_eq_Wr (Cert.Spec.flat x) (Cert.PreFacts.of_pre x h).1 (Cert.PreFacts.of_pre x h).2).symm

/-- Both programs, from memories that agree on the weight, end with that one function of it in their result arrays
    and the weight unchanged. -/
theorem algebraic : Cert.algebraic_KernelIdeal_ReferenceIdeal := by
  intro m ρ m' ρ' hpre hagree
  refine ⟨fun c => Cert.Spec.unflat (Cert.Spec.Wk (Cert.Spec.flat
      (m ((c.tc : Thread Cert.KernelIdeal.nD Cert.KernelIdeal.τ).loc Cert.KernelIdeal.main_arg0)))), ?_, ?_⟩
  · exact (θ_run Cert.KernelIdeal.defs _ _).mono
      (fun _ h c => ⟨(h c).1.trans (Cert.KernelIdeal.KC.result m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.RefRun.run (F := Ideal) m' ρ')
    rw [hagree c]
    exact (Cert.ReferenceIdeal.RefValue.val_eq _).trans (result_eq _ (hpre c))

end Cert.Proof.Orthogonalize

namespace Cert.Proof

theorem claim : Cert.Claim :=
  ⟨Cert.Kernel.Gen.facts, Cert.KernelIdeal.Gen.facts, Cert.ReferenceIdeal.Gen.facts, Cert.Pre_finite_inputs.Gen.facts,
    Orthogonalize.frame_p, Orthogonalize.frame_pi, Orthogonalize.frame_ri, Orthogonalize.preserves, Orthogonalize.algebraic⟩

end Cert.Proof

end
